-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S32x16 .f32) (main_arg12 : FVec F S16 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x16 .f32 := Host.absf main_arg11
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_arg11 : FVec F S32x16 .f32) (main_arg12 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x32 .f32) (main_arg10 : FVec F S32 .f32) (main_arg11 : FVec F S32x16 .f32) (main_arg12 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩
abbrev S5000x1 : Shape := ⟨2, ![5000, 1]⟩
abbrev S64x1 : Shape := ⟨2, ![64, 1]⟩
abbrev S1x32 : Shape := ⟨2, ![1, 32]⟩
abbrev S1x16 : Shape := ⟨2, ![1, 16]⟩
abbrev S64x16 : Shape := ⟨2, ![64, 16]⟩

abbrev nBuf : Space → Nat
  | .hbm => 115
  | .vmem => 55
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x16, .f32⟩
  | .hbm, ⟨12, _⟩ => ⟨S16, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S1600000x1, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S1600000x64, .f32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S1600000x64, .f32⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S1600000x64, .f32⟩
  | .hbm, ⟨96, _⟩ => ⟨S1600000x64, .f32⟩
  | .hbm, ⟨97, _⟩ => ⟨S_, .f32⟩
  | .hbm, ⟨98, _⟩ => ⟨S100000x64, .f32⟩
  | .hbm, ⟨99, _⟩ => ⟨S1600000x1, .i32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x1, .i32⟩
  | .hbm, ⟨104, _⟩ => ⟨S64x64, .f32⟩
  | .hbm, ⟨105, _⟩ => ⟨S_, .f32⟩
  | .hbm, ⟨106, _⟩ => ⟨S100000, .f32⟩
  | .hbm, ⟨107, _⟩ => ⟨S_, .f32⟩
  | .hbm, ⟨108, _⟩ => ⟨S64, .f32⟩
  | .hbm, ⟨109, _⟩ => ⟨S100000x1, .i32⟩
  | .hbm, ⟨110, _⟩ => ⟨S64, .f32⟩
  | .hbm, ⟨111, _⟩ => ⟨S64x1, .f32⟩
  | .hbm, ⟨112, _⟩ => ⟨S1x32, .f32⟩
  | .hbm, ⟨113, _⟩ => ⟨S1x16, .f32⟩
  | .hbm, ⟨114, _⟩ => ⟨S64x16, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x1, .i32⟩
  | .local _ .vmem, ⟨45, _⟩ => ⟨S5000x1, .i32⟩
  | .local _ .vmem, ⟨46, _⟩ => ⟨S64x64, .f32⟩
  | .local _ .vmem, ⟨47, _⟩ => ⟨S64x64, .f32⟩
  | .local _ .vmem, ⟨48, _⟩ => ⟨S64x64, .f32⟩
  | .local _ .vmem, ⟨49, _⟩ => ⟨S64x1, .f32⟩
  | .local _ .vmem, ⟨50, _⟩ => ⟨S64x32, .f32⟩
  | .local _ .vmem, ⟨51, _⟩ => ⟨S1x32, .f32⟩
  | .local _ .vmem, ⟨52, _⟩ => ⟨S32x16, .f32⟩
  | .local _ .vmem, ⟨53, _⟩ => ⟨S1x16, .f32⟩
  | .local _ .vmem, ⟨54, _⟩ => ⟨S64x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_scratch0 : Ref sig .tc := ⟨.vmem, 47, rfl⟩
abbrev cc7_stg0_0 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg3_0 : Ref sig .tc := ⟨.vmem, 51, rfl⟩
abbrev cc7_stg4_0 : Ref sig .tc := ⟨.vmem, 52, rfl⟩
abbrev cc7_stg5_0 : Ref sig .tc := ⟨.vmem, 53, rfl⟩
abbrev cc7_stg6_0 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc7_sem0_0 : DmaSem sig := 47
abbrev cc7_sem1_0 : DmaSem sig := 48
abbrev cc7_sem2_0 : DmaSem sig := 49
abbrev cc7_sem3_0 : DmaSem sig := 50
abbrev cc7_sem4_0 : DmaSem sig := 51
abbrev cc7_sem5_0 : DmaSem sig := 52
abbrev cc7_sem6_0 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v18 : BitVec 1 := Scalar.cmpi .eq arg0 c19_i32
  let v19 : BitVec 32 := Scalar.extui v18
  let c0_i32_8 : BitVec 32 := 0#32
  let v20 : BitVec 1 := Scalar.cmpi .ne v19 c0_i32_8
  v20

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S64x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S32x16 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x16 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S64x16 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  iota_S5000x64_d1_w32 : S5000x64.Iotas .tc 32 [1]
  natLt_1_32 : 1 < 32
  bcast_S_S64 : S_.BroadcastsInDim S64 (![] : Fin 0 → Fin S64.rank)
  bcast_S100000_S100000x1_0 : S100000.BroadcastsInDim S100000x1 (![0] : Fin 1 → Fin S100000x1.rank)
  shapeCasts_S64_S64x1 : S64.ShapeCasts S64x1
  shapeCasts_S32_S1x32 : S32.ShapeCasts S1x32
  shapeCasts_S16_S1x16 : S16.ShapeCasts S1x16
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x64 : S64x1.Broadcasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  reduces_S64x16_S64 : S64x16.Reduces [1] S64
  broadcasts_S64x1_S64x16 : S64x1.Broadcasts S64x16
  inb_S64x16_S64x16_0_0 : ∀ a, (![0, 0] : Fin 2 → Nat) a + S64x16.size a ≤ S64x16.size a
  h_S64x16 : 0 < S64x16.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S5000x64_S64x64_0_0_1_1_n_n_wf : DotDims.WF S5000x64 S5000x64 S64x64 [0] [0] [1] [1] [] []
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []
  dot_S64x32_S32x16_S64x16_1_0_0_1_n_n_wf : DotDims.WF S64x32 S32x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S64x64.size a ≤ S64x64.size a
  hwx7_0 : ∀ i : grid7.Coords, EltTy.bits .f32 = 32 ∨ (Rect.block (s := S64x64) S64x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x1.size a ≤ S64x1.size a
  hwx7_1 : ∀ i : grid7.Coords, EltTy.bits .f32 = 32 ∨ (Rect.block (s := S64x1) S64x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x32.size a ≤ S64x32.size a
  hwx7_2 : ∀ i : grid7.Coords, EltTy.bits .f32 = 32 ∨ (Rect.block (s := S64x32) S64x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S32x16.size a ≤ S32x16.size a
  hwx7_4 : ∀ i : grid7.Coords, EltTy.bits .f32 = 32 ∨ (Rect.block (s := S32x16) S32x16.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x16.size a ≤ S1x16.size a
  hwx7_5 : ∀ i : grid7.Coords, EltTy.bits .f32 = 32 ∨ (Rect.block (s := S1x16) S1x16.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S64x16.size a ≤ S64x16.size a
  hwx7_6 : ∀ i : grid7.Coords, EltTy.bits .f32 = 32 ∨ (Rect.block (s := S64x16) S64x16.size (cc7_transform_6 i) (hinb7_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v73) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v74) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v75) S64x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v75) S64x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v80) S64x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg9) S64x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v81) S1x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg11) S32x16.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v82) S1x16.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v83) S64x16.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S64x1 : Shape := ⟨2, ![64, 1]⟩
abbrev S1x32 : Shape := ⟨2, ![1, 32]⟩
abbrev S64x16 : Shape := ⟨2, ![64, 16]⟩
abbrev S1x16 : Shape := ⟨2, ![1, 16]⟩

abbrev nBuf : Space → Nat
  | .hbm => 210
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S32x16, .f32⟩
  | 12 => ⟨S16, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S100000x64, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x1, .f32⟩
  | 57 => ⟨S1600000x64, .f32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S1600000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x64, .f32⟩
  | 103 => ⟨S1600000x1, .f32⟩
  | 104 => ⟨S1600000x64, .f32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S100000, .f32⟩
  | 111 => ⟨S100000x1, .f32⟩
  | 112 => ⟨S100000x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000, .f32⟩
  | 12 => ⟨S1600000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x1, .f32⟩
  | 23 => ⟨S1600000x64, .f32⟩
  | 24 => ⟨S1600000x64, .f32⟩
  | 25 => ⟨S_, .f32⟩
  | 26 => ⟨S100000x64, .f32⟩
  | 27 => ⟨S1600000x1, .i32⟩
  | 28 => ⟨S100000x64, .f32⟩
  | 29 => ⟨S100000, .f32⟩
  | 30 => ⟨S100000x1, .f32⟩
  | 31 => ⟨S100000x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S_, .f32⟩
  | 41 => ⟨S64x64, .f32⟩
  | 42 => ⟨S100000x1, .i32⟩
  | 43 => ⟨S64x64, .f32⟩
  | 44 => ⟨S_, .f32⟩
  | 45 => ⟨S100000, .f32⟩
  | 46 => ⟨S_, .f32⟩
  | 47 => ⟨S64, .f32⟩
  | 48 => ⟨S100000x1, .i32⟩
  | 49 => ⟨S64, .f32⟩
  | 50 => ⟨S_, .f32⟩
  | 51 => ⟨S64, .f32⟩
  | 52 => ⟨S64, .f32⟩
  | 53 => ⟨S64x1, .f32⟩
  | 54 => ⟨S64x64, .f32⟩
  | 55 => ⟨S64x64, .f32⟩
  | 56 => ⟨S64x32, .f32⟩
  | 57 => ⟨S1x32, .f32⟩
  | 58 => ⟨S64x32, .f32⟩
  | 59 => ⟨S64x32, .f32⟩
  | 60 => ⟨S_, .f32⟩
  | 61 => ⟨S64x32, .f32⟩
  | 62 => ⟨S64x32, .f32⟩
  | 63 => ⟨S64x16, .f32⟩
  | 64 => ⟨S1x16, .f32⟩
  | 65 => ⟨S64x16, .f32⟩
  | 66 => ⟨S64x16, .f32⟩
  | 67 => ⟨S_, .f32⟩
  | 68 => ⟨S64, .f32⟩
  | 69 => ⟨S_, .f32⟩
  | 70 => ⟨S64, .f32⟩
  | 71 => ⟨S64, .f32⟩
  | 72 => ⟨S64x1, .f32⟩
  | 73 => ⟨S64x16, .f32⟩
  | 74 => ⟨S64x16, .f32⟩
  | 75 => ⟨S64x16, .f32⟩
  | 76 => ⟨S_, .f32⟩
  | 77 => ⟨S64, .f32⟩
  | 78 => ⟨S64x1, .f32⟩
  | 79 => ⟨S64x1, .f32⟩
  | 80 => ⟨S64x16, .f32⟩
  | 81 => ⟨S64x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call1_cst : Ref sig .tc := ⟨.hbm, 118, rfl⟩
abbrev main_call1_v0 : Ref sig .tc := ⟨.hbm, 119, rfl⟩
abbrev main_v86 : Ref sig .tc := ⟨.hbm, 120, rfl⟩
abbrev main_v87 : Ref sig .tc := ⟨.hbm, 121, rfl⟩
abbrev main_c_15 : Ref sig .tc := ⟨.hbm, 122, rfl⟩
abbrev main_v88 : Ref sig .tc := ⟨.hbm, 123, rfl⟩
abbrev main_v89 : Ref sig .tc := ⟨.hbm, 124, rfl⟩
abbrev main_c_16 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_v95 : Ref sig .tc := ⟨.hbm, 132, rfl⟩
abbrev main_v96 : Ref sig .tc := ⟨.hbm, 133, rfl⟩
abbrev main_c_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_19 : Ref sig .tc := ⟨.hbm, 141, rfl⟩
abbrev main_v103 : Ref sig .tc := ⟨.hbm, 142, rfl⟩
abbrev main_v104 : Ref sig .tc := ⟨.hbm, 143, rfl⟩
abbrev main_c_20 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_21 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_call2_cst : Ref sig .tc := ⟨.hbm, 165, rfl⟩
abbrev main_call2_v0 : Ref sig .tc := ⟨.hbm, 166, rfl⟩
abbrev main_v124 : Ref sig .tc := ⟨.hbm, 167, rfl⟩
abbrev main_cst_22 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_23 : Ref sig .tc := ⟨.hbm, 172, rfl⟩
abbrev main_v128 : Ref sig .tc := ⟨.hbm, 173, rfl⟩
abbrev main_cst_24 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_25 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_call3_cst : Ref sig .tc := ⟨.hbm, 188, rfl⟩
abbrev main_call3_v0 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_call4_cst : Ref sig .tc := ⟨.hbm, 195, rfl⟩
abbrev main_call4_v0 : Ref sig .tc := ⟨.hbm, 196, rfl⟩
abbrev main_call4_cst_0 : Ref sig .tc := ⟨.hbm, 197, rfl⟩
abbrev main_call4_v1 : Ref sig .tc := ⟨.hbm, 198, rfl⟩
abbrev main_call4_v2 : Ref sig .tc := ⟨.hbm, 199, rfl⟩
abbrev main_call4_v3 : Ref sig .tc := ⟨.hbm, 200, rfl⟩
abbrev main_call4_v4 : Ref sig .tc := ⟨.hbm, 201, rfl⟩
abbrev main_call4_v5 : Ref sig .tc := ⟨.hbm, 202, rfl⟩
abbrev main_call4_v6 : Ref sig .tc := ⟨.hbm, 203, rfl⟩
abbrev main_call4_cst_1 : Ref sig .tc := ⟨.hbm, 204, rfl⟩
abbrev main_call4_v7 : Ref sig .tc := ⟨.hbm, 205, rfl⟩
abbrev main_call4_v8 : Ref sig .tc := ⟨.hbm, 206, rfl⟩
abbrev main_call4_v9 : Ref sig .tc := ⟨.hbm, 207, rfl⟩
abbrev main_call4_v10 : Ref sig .tc := ⟨.hbm, 208, rfl⟩
abbrev main_v146 : Ref sig .tc := ⟨.hbm, 209, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  reducesTo_S64x16_S64_d1 : S64x16.ReducesTo [1] S64
  h_S_ : 0 < S_.numel
  bcast_S64x1_S64x16_0_1 : S64x1.BroadcastsInDim S64x16 (![0, 1] : Fin 2 → Fin S64x16.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []
  dot_S64x32_S32x16_S64x16_1_0_0_1_n_n_wf : DotDims.WF S64x32 S32x16 S64x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf

class Facts : Prop extends Facts₀ where

variable [Facts]
-- ==== Proof.KI.Reg0.lean ====
import proofs.«404161_j48679159333670_1_alg».proof.Proof.Gen.KernelIdeal.Launch
import proofs.«404161_j48679159333670_1_alg».proof.Proof.Gen.KernelIdeal.Skeleton
import proofs.«404161_j48679159333670_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: a row block of the node features times the layer's weight matrix

At grid point `t` the body reads the 5000x128 block `t` of the features (window 0) and the whole 128x64
weight matrix (window 1), and writes their product into block `t` of the output (window 2). Everything is stated
at the contents `V` the buffers have when the region is entered. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds block `t` when the body is called at `t`, for any proof data over
    the arrays `V` whose body leaves that block in place: the window is an uncut input with no idle point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window is fetched at the first point only. Its block index is the same at every point, so at a
    point where nothing is fetched the buffer still holds the block the body left there, which is this point's
    block too: the same law covers fetched and unfetched points. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each staging buffer whole -/

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S5000x64 := Rect.unit (s := S5000x64) ![0, 0] S5000x64.size inb_S5000x64_S5000x64_0_0

/-- The output buffer after the body, from the two input blocks: one store of the product over the whole buffer. -/
def out0_2 (x0 : Vec F S5000x128 .f32) (x1 : Vec F S128x64 .f32) : Vec F S5000x64 .f32 :=
  View.canon [⟨r0_2, k0_pay1 (View.ld x0 r0_0) (View.ld x1 r0_1)⟩]

/-- That one store's rectangle is the whole buffer, so every index lies in it. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- On whole staging buffers, the inputs at `x0` and `x1` and the output at anything, the body leaves the inputs
    as they were and the output at `out0_2 x0 x1`. It loads both inputs, loads the output buffer (a value nothing
    reads), and stores the product; a buffer written once over a rectangle that covers it reads back as the
    canonical form of that one piece. -/
theorem sound_kernel0 (c : Dev nD) (E : Set ℕ) (i : grid0.Coords)
    (arg1 : Memref sig .tc .vmem S5000x128 .f32) (harg1 : arg1.IsWhole) (arg2 : Memref sig .tc .vmem S128x64 .f32) (harg2 : arg2.IsWhole)
    (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input buffer still at its block and the
    output buffer at the product of the two blocks; the invariant is the class's (the scoped rest and the
    generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, what the core owes, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant at the first and at the last point is the class's, by definition. -/
theorem hin0 (c : Dev nD) : Pipeline.ΦA spec0 c ⊢ (dat0 V c).Φ 0 :=
  show Pipeline.ΦA spec0 c ⊢ Pipeline.ΦA spec0 c from .rfl

theorem hout0 (c : Dev nD) : (dat0 V c).Φ (Fin.last cfg0.N) ⊢ Pipeline.ΦA spec0 c :=
  show Pipeline.ΦA spec0 c ⊢ Pipeline.ΦA spec0 c from .rfl

end Cert.KernelIdeal.Hand

end
-- ==== Proof.KI.Reg1.lean ====
import proofs.«404161_j48679159333670_1_alg».proof.Proof.Gen.KernelIdeal.Launch
import proofs.«404161_j48679159333670_1_alg».proof.Proof.Gen.KernelIdeal.Skeleton
import proofs.«404161_j48679159333670_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the combine kernel (pipeline 1), at the entry contents V

Four input windows (0: the aggregated rows, 1: the linear rows, 2: the per-row scale, 3: the bias row, one block for
the whole grid) and one output window (4). At a grid point the body reads the four blocks whole, reads the output
block once without using it, and stores max (x0 + x1 * x2 + x3) 0 over the whole output block. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, for any proof data whose array is the entry
    contents and whose body leaves the block in place: a fetch puts the block there, and where no fetch happens the
    block index has not moved. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same for input window 3, whose one block is fetched at the first point only: at every later point the block
    index is the first point's, so the buffer still holds that block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev r1_0 : Rect S5000x64 := Rect.unit (s := S5000x64) ![0, 0] S5000x64.size inb_S5000x64_S5000x64_0_0
abbrev r1_2 : Rect S5000x1 := Rect.unit (s := S5000x1) ![0, 0] S5000x1.size inb_S5000x1_S5000x1_0_0
abbrev r1_3 : Rect S1x64 := Rect.unit (s := S1x64) ![0, 0] S1x64.size inb_S1x64_S1x64_0_0

/-! ## What the body leaves in the output window's buffer -/

/-- Window 4's staging buffer after the body, from the four input blocks: its one store, of the whole block. -/
def out1_4 (x0 : Vec F S5000x64 .f32) (x1 : Vec F S5000x64 .f32) (x2 : Vec F S5000x1 .f32) (x3 : Vec F S1x64 .f32) : Vec F S5000x64 .f32 :=
  View.canon [⟨r1_0, k1_pay1 (View.ld x0 r1_0) (View.ld x1 r1_0) (View.ld x2 r1_2) (View.ld x3 r1_3)⟩]

/-- The one store is of the whole block, so it covers the buffer. -/
theorem cover1_4 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 1000000 in
/-- The kernel body on whole staging memrefs, the inputs' at contents x0 … x3 and the output's at anything, runs to
    the continuation holding the inputs' as they were and the output's at `out1_4` of the inputs'. The read of the
    output buffer before the store returns a value nothing uses, so the buffer's earlier contents do not matter. -/
theorem sound_kernel1 (c : Dev nD) (E : Set ℕ) (i : grid1.Coords)
    (arg0 : Memref sig .tc .vmem S5000x64 .f32) (harg0 : arg0.IsWhole) (arg1 : Memref sig .tc .vmem S5000x64 .f32) (harg1 : arg1.IsWhole)
    (arg2 : Memref sig .tc .vmem S5000x1 .f32) (harg2 : arg2.IsWhole) (arg3 : Memref sig .tc .vmem S1x64 .f32) (harg3 : arg3.IsWhole)
    (arg4 : Memref sig .tc .vmem S5000x64 .f32) (harg4 : arg4.IsWhole)
    (x0 : Vec F S5000x64 .f32) (x1 : Vec F S5000x64 .f32) (x2 : Vec F S5000x1 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__combine_kernel i arg0 harg0 arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them; after the body at point `t` each
    input's buffer at its block and the output's at `out1_4` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant at the first boundary is the class's own. -/
theorem hin1 (c : Dev nD) : Pipeline.ΦA spec1 c ⊢ (dat1 V c).Φ 0 := .rfl

/-- And at the last. -/
theorem hout1 (c : Dev nD) : (dat1 V c).Φ (Fin.last cfg1.N) ⊢ Pipeline.ΦA spec1 c := .rfl

end Cert.KernelIdeal.Hand

end
-- ==== Proof.KI.Reg6.lean ====
import proofs.«404161_j48679159333670_1_alg».proof.Proof.Gen.KernelIdeal.Launch
import proofs.«404161_j48679159333670_1_alg».proof.Proof.Gen.KernelIdeal.Skeleton
import proofs.«404161_j48679159333670_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pooling region: a sum of per-block contributions kept in a scratch accumulator

The kernel visits the 20 row blocks of the node features in order. It keeps a 64 by 64 accumulator in a scratch
buffer of its own: zero before the first block, and after block n the accumulator of block n - 1 plus the
contribution of block n (the transposed one-hot matrix of the block's graph indices times the block's features).
After the last block the accumulator is copied to the output block, which is written back there and only there. -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The two conditions of the body, in closed form -/

/-- The first conditional's condition (the accumulator is reset), from the grid coordinate. -/
abbrev cond6_0 (i : grid6.Coords) : Prop :=
  (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val = 0 :=
  (by decide +kernel : ∀ t : Fin grid6.N, cond6_0 (grid6.coords t) ↔ t.val = 0)

/-- The second conditional's condition (the accumulator is copied out). -/
abbrev cond6_1 (i : grid6.Coords) : Prop := k6_cond2 i = 1#1
/-- It holds at the last point only. -/
theorem hcond6_1 : ∀ t : Fin cfg6.N, cond6_1 (grid6.coords t) ↔ t.val = 19 :=
  (by decide +kernel : ∀ t : Fin grid6.N, cond6_1 (grid6.coords t) ↔ t.val = 19)

/-! ## Where the windows are idle -/

/-- The two inputs are never idle. -/
theorem liveAt6_0 : ∀ t : Fin cfg6.N, cfg6.idle 0 (grid6.coords t) = false := by decide +kernel
theorem liveAt6_1 : ∀ t : Fin cfg6.N, cfg6.idle 1 (grid6.coords t) = false := by decide +kernel
/-- Away from the last point the output is idle (nothing is stored into it) and is not written back. -/
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
/-- At the last point it is live. -/
theorem liveAt6_2 : ∀ t : Fin cfg6.N, cond6_1 (grid6.coords t) → cfg6.idle 2 (grid6.coords t) = false := by decide +kernel

/-! ## The memrefs the body is called with -/

abbrev ms6_0 (t : Fin cfg6.N) : Memref sig .tc .vmem S5000x64 .f32 := win6_0.stage (cfg6.slots t 0)
abbrev ms6_1 (t : Fin cfg6.N) : Memref sig .tc .vmem S5000x1 .i32 := win6_1.stage (cfg6.slots t 1)
abbrev ms6_2 (t : Fin cfg6.N) : Memref sig .tc .vmem S64x64 .f32 := win6_2.stage (cfg6.slots t 2)
/-- The accumulator: a whole scoped buffer of the kernel's own. -/
abbrev scM6 : Memref sig .tc .vmem S64x64 .f32 := Memref.whole cc6_scratch0

/-- Every load and store of the body is through the whole-shape rectangle at offsets zero. -/
theorem off6 : (![0, 0] : Fin 2 → Nat) = fun _ => 0 := funext fun a => by fin_cases a <;> rfl

/-! ## The body's triple, case by case

`x0` is the feature block, `x1` the block of graph indices, `xs` what the accumulator holds on entry. A load of
the accumulator after a store into it reads the store's payload; a whole store leaves its payload. -/

set_option maxHeartbeats 1000000 in
/-- FIRST POINT: the accumulator, at anything, is zeroed and then takes the block's contribution. The output block is
    not touched. -/
theorem kernel6_first (c : Dev nD) (E : Set ℕ) (i : grid6.Coords)
    (arg1 : Memref sig .tc .vmem S5000x64 .f32) (harg1 : arg1.IsWhole) (arg2 : Memref sig .tc .vmem S5000x1 .i32) (harg2 : arg2.IsWhole)
    (arg3 : Memref sig .tc .vmem S64x64 .f32) (harg3 : arg3.IsWhole) (arg4 : Memref sig .tc .vmem S64x64 .f32) (harg4 : arg4.IsWhole)
    (hc0 : cond6_0 i) (hc1 : ¬cond6_1 i)
    (x0 : Vec F S5000x64 .f32) (x1 : Vec F S5000x1 .i32) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1
            ∗ owns (c : Thread nD τ) arg4 fullShare (k6_pay2 x1 (k6_pay1 (F := F)) x0)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  sl_unfold_run_names
  rw [View.read_writes_eq_canon _ _ _ (fun y => ⟨_, List.mem_cons_self, View.mem_set_unit_zero off6 inb_S64x64_S64x64_0_0 y⟩),
    View.canon_cons_unit_zero (S := S64x64) off6]
  rw [View.readCov_cons_toLoadRect]
  simp only [View.readAt_eq_ld, harg1.read_unread, harg2.read_unread, View.ld_unit_zero (S := S5000x1) off6,
    View.ld_unit_zero (S := S5000x64) off6]

set_option maxHeartbeats 1000000 in
/-- A MIDDLE POINT: the accumulator takes the block's contribution. The output block is not touched. -/
theorem kernel6_mid (c : Dev nD) (E : Set ℕ) (i : grid6.Coords)
    (arg1 : Memref sig .tc .vmem S5000x64 .f32) (harg1 : arg1.IsWhole) (arg2 : Memref sig .tc .vmem S5000x1 .i32) (harg2 : arg2.IsWhole)
    (arg3 : Memref sig .tc .vmem S64x64 .f32) (harg3 : arg3.IsWhole) (arg4 : Memref sig .tc .vmem S64x64 .f32) (harg4 : arg4.IsWhole)
    (hc0 : ¬cond6_0 i) (hc1 : ¬cond6_1 i)
    (x0 : Vec F S5000x64 .f32) (x1 : Vec F S5000x1 .i32) (xs : Vec F S64x64 .f32) (K : PUnit → sProp 𝕄) :
    iprop(owns (c : Thread nD τ) arg1 fullShare x0 ∗ owns (c : Thread nD τ) arg2 fullShare x1 ∗ owns (c : Thread nD τ) arg4 fullShare xs
        ∗ (iprop(owns (c : Thread nD τ) arg1 fullShare x0 ∗ owns (c : Thread nD τ) arg2 fullShare x1
            ∗ owns (c : Thread nD τ) arg4 fullShare (k6_pay2 x1 xs x0)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  sl_unfold_run_names
  rw [View.read_writes_eq_canon _ _ _ (fun y => ⟨_, List.mem_cons_self, View.mem_set_unit_zero off6 inb_S64x64_S64x64_0_0 y⟩),
    View.canon_cons_unit_zero (S := S64x64) off6]
  simp only [View.readAt_eq_ld, harg1.read_unread, harg2.read_unread, harg4.read_unread, View.ld_unit_zero (S := S5000x1) off6,
    View.ld_unit_zero (S := S5000x64) off6, View.ld_unit_zero (S := S64x64) off6]

set_option maxHeartbeats 1000000 in
/-- THE LAST POINT: the accumulator takes the block's contribution and is then copied to the output block, which was
    at anything. -/
theorem kernel6_last (c : Dev nD) (E : Set ℕ) (i : grid6.Coords)
    (arg1 : Memref sig .tc .vmem S5000x64 .f32) (harg1 : arg1.IsWhole) (arg2 : Memref sig .tc .vmem S5000x1 .i32) (harg2 : arg2.IsWhole)
    (arg3 : Memref sig .tc .vmem S64x64 .f32) (harg3 : arg3.IsWhole) (arg4 : Memref sig .tc .vmem S64x64 .f32) (harg4 : arg4.IsWhole)
    (hc0 : ¬cond6_0 i) (hc1 : cond6_1 i)
    (x0 : Vec F S5000x64 .f32) (x1 : Vec F S5000x1 .i32) (xs : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k6_pay2 x1 xs x0)
            ∗ owns (c : Thread nD τ) arg4 fullShare (k6_pay2 x1 xs x0)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d3, %f3, -, H3⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    sl_unfold_run_names
    rw [View.read_writes_eq_canon _ _ _ (fun y => ⟨_, List.mem_cons_self, View.mem_set_unit_zero off6 inb_S64x64_S64x64_0_0 y⟩),
      View.canon_cons_unit_zero (S := S64x64) off6]
    rw [View.readCov_cons_toLoadRect]
    simp only [View.readAt_eq_ld, harg1.read_unread, harg2.read_unread, harg4.read_unread, View.ld_unit_zero (S := S5000x1) off6,
      View.ld_unit_zero (S := S5000x64) off6, View.ld_unit_zero (S := S64x64) off6]
  iexists _; isplitr
  swap; · iexact HS
  ipureintro
  sl_unfold_run_names
  rw [View.read_writes_eq_canon _ _ _ (fun y => ⟨_, List.mem_cons_self, View.mem_set_unit_zero off6 inb_S64x64_S64x64_0_0 y⟩),
    View.canon_cons_unit_zero (S := S64x64) off6]
  simp only [View.readAt_eq_ld, harg1.read_unread, harg2.read_unread, harg4.read_unread, View.ld_unit_zero (S := S5000x1) off6,
    View.ld_unit_zero (S := S5000x64) off6, View.ld_unit_zero (S := S64x64) off6]

/-! ## The accumulation -/

/-- The accumulator after point `n`: the zero block plus the contributions of blocks 0 to `n`, added in order. -/
def scr6 (c : Dev nD) : (n : ℕ) → n < cfg6.N → Vec F S64x64 .f32
  | 0, hn => k6_pay2 (iblk6 V c 1 ⟨0, hn⟩) (k6_pay1 (F := F)) (iblk6 V c 0 ⟨0, hn⟩)
  | n + 1, hn => k6_pay2 (iblk6 V c 1 ⟨n + 1, hn⟩) (scr6 c n (Nat.lt_of_succ_lt hn)) (iblk6 V c 0 ⟨n + 1, hn⟩)

/-- After point `n`: what the output block holds and what the accumulator holds. The output block is stored into at
    the last point only, where it receives the accumulator; before that its component is a placeholder that nothing
    consults (the window is idle and not written back there), taken equal to the accumulator. -/
def outsAt6 (c : Dev nD) (n : ℕ) (hn : n < cfg6.N) : Vec F S64x64 .f32 × Vec F S64x64 .f32 :=
  (scr6 V c n hn, scr6 V c n hn)

/-- The accumulator after the first point. -/
theorem scr6_zero (c : Dev nD) (h0 : 0 < cfg6.N) :
    (outsAt6 V c 0 h0).2 = k6_pay2 (iblk6 V c 1 ⟨0, h0⟩) (k6_pay1 (F := F)) (iblk6 V c 0 ⟨0, h0⟩) := rfl

/-- The accumulator after a later point, from the one before. -/
theorem scr6_succ (c : Dev nD) (n : ℕ) (hn : n + 1 < cfg6.N) :
    (outsAt6 V c (n + 1) hn).2
      = k6_pay2 (iblk6 V c 1 ⟨n + 1, hn⟩) (outsAt6 V c n (Nat.lt_of_succ_lt hn)).2 (iblk6 V c 0 ⟨n + 1, hn⟩) := rfl

/-- The output block after the last point is the accumulator after the last point. -/
theorem outsAt6_last (c : Dev nD) (h : 19 < cfg6.N) : (outsAt6 V c 19 h).1 = (outsAt6 V c 19 h).2 := rfl

/-- The two components agree at every point. -/
theorem outsAt6_fst (c : Dev nD) (n : ℕ) (hn : n < cfg6.N) : (outsAt6 V c n hn).1 = (outsAt6 V c n hn).2 := rfl

/-- The recursion read at a point of the grid: the first point, -/
theorem scr6_first (c : Dev nD) (t : Fin cfg6.N) (h0 : t.val = 0) :
    (outsAt6 V c t.val t.isLt).2 = k6_pay2 (iblk6 V c 1 t) (k6_pay1 (F := F)) (iblk6 V c 0 t) := by
  obtain ⟨n, hn⟩ := t
  cases n with
  | zero => rfl
  | succ n => exact absurd h0 (Nat.succ_ne_zero n)

/-- and a later one. -/
theorem scr6_next (c : Dev nD) (t : Fin cfg6.N) (h0 : t.val ≠ 0) :
    (outsAt6 V c t.val t.isLt).2
      = k6_pay2 (iblk6 V c 1 t) (outsAt6 V c (t.val - 1) (Nat.lt_of_le_of_lt (Nat.sub_le _ _) t.isLt)).2 (iblk6 V c 0 t) := by
  obtain ⟨n, hn⟩ := t
  cases n with
  | zero => exact absurd rfl h0
  | succ n => rfl

/-! ## The region invariant -/

/-- Before position `n`: at the start the class's invariant (every scoped buffer that is no staging buffer at
    anything, the generator register at some state); afterwards the same with the accumulator at what the point
    before left in it. -/
def PhiS6 (c : Dev nD) : (n : ℕ) → n ≤ cfg6.N → sProp 𝕄
  | 0, _ => Pipeline.ΦA spec6 c
  | n + 1, hn => iprop(owns (c : Thread nD τ) scM6 fullShare ((outsAt6 V c n hn).2)
      ∗ Pipeline.scopedRestBut spec6 c [cc6_scratch0] ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(owns (c : Thread nD τ) scM6 fullShare ((outsAt6 V c n hn).2)
      ∗ Pipeline.scopedRestBut spec6 c [cc6_scratch0] ∗ (∃ r, prngReg c r)) := rfl

theorem PhiS6_pos (c : Dev nD) (n : ℕ) (h : n ≤ cfg6.N) (hz : n ≠ 0) :
    PhiS6 V c n h = iprop(owns (c : Thread nD τ) scM6 fullShare ((outsAt6 V c (n - 1) (by omega)).2)
      ∗ Pipeline.scopedRestBut spec6 c [cc6_scratch0] ∗ (∃ r, prngReg c r)) := by
  cases n with
  | zero => exact absurd rfl hz
  | succ n => rfl

/-- The class's invariant with the accumulator named: it at anything, the other scoped buffers unopened, the register. -/
theorem PhiA6_eq (c : Dev nD) :
    (Pipeline.ΦA spec6 c : sProp 𝕄)
      = iprop(iprop((∃ d, owns (c : Thread nD τ) scM6 fullShare d) ∗ Pipeline.scopedRestBut spec6 c [cc6_scratch0])
          ∗ (∃ r, prngReg c r)) := by
  unfold Pipeline.ΦA; rw [scopedRest6_split]; simp only [scM6, owns_whole]; try rfl

/-! ## The proof data -/

/-- The arrays as the region finds them; after the body at point `t` each input's buffer at its block and the
    output's at `outsAt6`'s first component; the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

/-- The invariant at a point's start, restated at the point's number. -/
theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]

/-- Each input's current staging buffer holds its block at every point, fetched there or not. -/
theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

/-! ## The body obligation -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point. The inputs' buffers hold their blocks. The point is the first, a middle one or the last:
    the closed forms of the two conditions say which, and that case's triple applies. The invariant hands the body
    the accumulator (at anything at the first point, else at what the point before left) and takes it back at this
    point's contents; the other scoped buffers, the register and what the core owes pass through unread. Away from
    the last point the output's buffer is handed back as found; at the last point it is left at the accumulator. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  have hN : t.val < 20 := lt_of_lt_of_eq t.isLt (show cfg6.N = 20 from N_6)
  by_cases h0 : t.val = 0
  · have h1 : ¬t.val = 19 := by omega
    have hc0 : cond6_0 (grid6.coords t) := (hcond6_0 t).mpr h0
    have hc1 : ¬cond6_1 (grid6.coords t) := fun h => h1 ((hcond6_1 t).mp h)
    rw [Dat.leavesExact_idle (dat6 V c) 2 t (idleAt6_2 t hc1) (noFlush6_2 t hc1)]
    rw [scr6_first V c t h0]
    rw [PhiS6_castSucc V c t, PhiS6_zero V c _ _ h0, PhiA6_eq]
    iintro ⟨⟨⟨HS, HR⟩, Hg⟩, Ho, ⟨%d0, H0⟩, ⟨%d1, H1⟩, ⟨%d2, H2⟩⟩
    iapply (kernel6_first c Set.univ (grid6.coords t) _ _ _ _ _ _ _ _ hc0 hc1 (iblk6 V c 0 t) (iblk6 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · have hc0 : ¬cond6_0 (grid6.coords t) := fun h => h0 ((hcond6_0 t).mp h)
    rw [scr6_next V c t h0]
    rw [PhiS6_castSucc V c t, PhiS6_pos V c _ _ h0]
    by_cases h1 : t.val = 19
    · have hc1 : cond6_1 (grid6.coords t) := (hcond6_1 t).mpr h1
      rw [show (dat6 V c).leavesExact 2 t = owns (c : Thread nD τ) (ms6_2 t) fullShare ((dat6 V c).after 2 t) from by
        unfold Dat.leavesExact; rw [liveAt6_2 t hc1], after6_2, outsAt6_fst, scr6_next V c t h0]
      iintro ⟨⟨HS, HR, Hg⟩, Ho, ⟨%d0, H0⟩, ⟨%d1, H1⟩, ⟨%d2, H2⟩⟩
      iapply (kernel6_last c Set.univ (grid6.coords t) _ _ _ _ _ _ _ _ hc0 hc1 (iblk6 V c 0 t) (iblk6 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond6_1 (grid6.coords t) := fun h => h1 ((hcond6_1 t).mp h)
      rw [Dat.leavesExact_idle (dat6 V c) 2 t (idleAt6_2 t hc1) (noFlush6_2 t hc1)]
      iintro ⟨⟨HS, HR, Hg⟩, Ho, ⟨%d0, H0⟩, ⟨%d1, H1⟩, ⟨%d2, H2⟩⟩
      iapply (kernel6_mid c Set.univ (grid6.coords t) _ _ _ _ _ _ _ _ hc0 hc1 (iblk6 V c 0 t) (iblk6 V c 1 t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the class's back: what the accumulator holds is forgotten. -/
theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 20 := N_6; omega), PhiA6_eq]
  iintro ⟨HS, HR, Hg⟩
  isplitl [HS HR]
  · isplitl [HS]; · iexists _; iexact HS
    iexact HR
  iexact Hg

end Cert.KernelIdeal.Hand

end
-- ==== Proof.KI.Reg7.lean ====
import proofs.«404161_j48679159333670_1_alg».proof.Proof.Gen.KernelIdeal.Launch
import proofs.«404161_j48679159333670_1_alg».proof.Proof.Gen.KernelIdeal.Skeleton
import proofs.«404161_j48679159333670_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: the MLP head (mean over the pooled sums, two affine layers, log-softmax), one grid point

Six whole-array inputs (windows 0..5), one whole-array output (window 6). Everything is stated at the parameter
`V`: the TensorCore's buffer contents when the region is entered. -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The inputs as the body finds them

Each of the six inputs is an uncut window with no idle point, and the body does not write it. So for any proof data
over `cfg7` whose array at that window is `V`'s and whose `after` there is the block, the staging buffer the body is
handed holds the block: where the window was fetched this is what the fetch brought; where it was not, the block index
has not moved since the point before and the body left the buffer alone (`Dat.before_in_eq_fetched`). -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t := by
  have hkeep : ∀ t, (cfg7.win 0).cut (cfg7.grid.coords t) (dat.after 0 t) = dat.blockOf 0 t := fun t => by
    rw [hafter]; unfold Dat.blockOf iblk7; rw [hA]; try rfl
  rw [dat.before_in_eq_fetched 0 rfl (fun _ => rfl) (fun _ _ _ => rfl) hkeep t d]
  unfold Dat.fetched Dat.blockOf iblk7; rw [hA]; try rfl

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t := by
  have hkeep : ∀ t, (cfg7.win 1).cut (cfg7.grid.coords t) (dat.after 1 t) = dat.blockOf 1 t := fun t => by
    rw [hafter]; unfold Dat.blockOf iblk7; rw [hA]; try rfl
  rw [dat.before_in_eq_fetched 1 rfl (fun _ => rfl) (fun _ _ _ => rfl) hkeep t d]
  unfold Dat.fetched Dat.blockOf iblk7; rw [hA]; try rfl

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t := by
  have hkeep : ∀ t, (cfg7.win 2).cut (cfg7.grid.coords t) (dat.after 2 t) = dat.blockOf 2 t := fun t => by
    rw [hafter]; unfold Dat.blockOf iblk7; rw [hA]; try rfl
  rw [dat.before_in_eq_fetched 2 rfl (fun _ => rfl) (fun _ _ _ => rfl) hkeep t d]
  unfold Dat.fetched Dat.blockOf iblk7; rw [hA]; try rfl

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t := by
  have hkeep : ∀ t, (cfg7.win 3).cut (cfg7.grid.coords t) (dat.after 3 t) = dat.blockOf 3 t := fun t => by
    rw [hafter]; unfold Dat.blockOf iblk7; rw [hA]; try rfl
  rw [dat.before_in_eq_fetched 3 rfl (fun _ => rfl) (fun _ _ _ => rfl) hkeep t d]
  unfold Dat.fetched Dat.blockOf iblk7; rw [hA]; try rfl

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t := by
  have hkeep : ∀ t, (cfg7.win 4).cut (cfg7.grid.coords t) (dat.after 4 t) = dat.blockOf 4 t := fun t => by
    rw [hafter]; unfold Dat.blockOf iblk7; rw [hA]; try rfl
  rw [dat.before_in_eq_fetched 4 rfl (fun _ => rfl) (fun _ _ _ => rfl) hkeep t d]
  unfold Dat.fetched Dat.blockOf iblk7; rw [hA]; try rfl

theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t := by
  have hkeep : ∀ t, (cfg7.win 5).cut (cfg7.grid.coords t) (dat.after 5 t) = dat.blockOf 5 t := fun t => by
    rw [hafter]; unfold Dat.blockOf iblk7; rw [hA]; try rfl
  rw [dat.before_in_eq_fetched 5 rfl (fun _ => rfl) (fun _ _ _ => rfl) hkeep t d]
  unfold Dat.fetched Dat.blockOf iblk7; rw [hA]; try rfl

/-! ## The rectangles the body touches: each buffer, whole -/

abbrev r7_0 : Rect S64x64 := Rect.unit (s := S64x64) ![0, 0] S64x64.size inb_S64x64_S64x64_0_0
abbrev r7_1 : Rect S64x1 := Rect.unit (s := S64x1) ![0, 0] S64x1.size inb_S64x1_S64x1_0_0
abbrev r7_2 : Rect S64x32 := Rect.unit (s := S64x32) ![0, 0] S64x32.size inb_S64x32_S64x32_0_0
abbrev r7_3 : Rect S1x32 := Rect.unit (s := S1x32) ![0, 0] S1x32.size inb_S1x32_S1x32_0_0
abbrev r7_4 : Rect S32x16 := Rect.unit (s := S32x16) ![0, 0] S32x16.size inb_S32x16_S32x16_0_0
abbrev r7_5 : Rect S1x16 := Rect.unit (s := S1x16) ![0, 0] S1x16.size inb_S1x16_S1x16_0_0
abbrev r7_6 : Rect S64x16 := Rect.unit (s := S64x16) ![0, 0] S64x16.size inb_S64x16_S64x16_0_0

/-! ## What the body leaves in the output's buffer -/

/-- Window 6's buffer after the body, as a function of the six inputs' blocks: the body's single store, of the
    payload `k7_pay1` (the log-softmax of the second layer) computed from the six whole-buffer loads, over the
    whole buffer. -/
def out7_6 (x0 : Vec F S64x64 .f32) (x1 : Vec F S64x1 .f32) (x2 : Vec F S64x32 .f32) (x3 : Vec F S1x32 .f32)
    (x4 : Vec F S32x16 .f32) (x5 : Vec F S1x16 .f32) : Vec F S64x16 .f32 :=
  View.canon [⟨r7_6, k7_pay1 (View.ld x0 r7_0) (View.ld x1 r7_1) (View.ld x2 r7_2) (View.ld x3 r7_3) (View.ld x4 r7_4) (View.ld x5 r7_5)⟩]

/-- The one store's rectangle is the whole 64x16 buffer: every index lies in it. -/
theorem cover7_6 (p0 : Vec F S64x16 .f32) (y : S64x16.Idx) :
    ∃ pc ∈ ([⟨r7_6, p0⟩] : List (View.Piece (Elt F) S64x16 .f32)), y ∈ pc.1.set :=
  View.cover_of_tiled [⟨r7_6, p0⟩] S64x16.size (by rfl) y

/-! ## The body's triple -/

set_option maxHeartbeats 1000000 in
/-- The kernel body at any grid coordinate, on whole staging memrefs: the six inputs' holding `x0 … x5`, the output's
    holding anything. It loads the six inputs, loads the output's buffer (a value nothing reads), and stores the payload
    over the whole output buffer; so it reaches a continuation that is given the inputs' memrefs unchanged and the
    output's at `out7_6 x0 … x5`. The printed function is its skeleton, which is run symbolically; the output's
    contents are a whole-buffer write over what was there, i.e. the canonical form of the one-piece list. -/
theorem sound_kernel7 (c : Dev nD) (E : Set ℕ) (i : grid7.Coords) (arg1 : Memref sig .tc .vmem S64x64 .f32) (harg1 : arg1.IsWhole) (arg2 : Memref sig .tc .vmem S64x1 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x16 .f32) (harg5 : arg5.IsWhole) (arg6 : Memref sig .tc .vmem S1x16 .f32) (harg6 : arg6.IsWhole) (arg7 : Memref sig .tc .vmem S64x16 .f32) (harg7 : arg7.IsWhole)
    (x0 : Vec F S64x64 .f32) (x1 : Vec F S64x1 .f32) (x2 : Vec F S64x32 .f32) (x3 : Vec F S1x32 .f32) (x4 : Vec F S32x16 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out7_6 x0 x1 x2 x3 x4 x5)) -∗ K ⟨⟩))
      ⊢ wp frame (wpE (defs₀ (F := F)) Variants.none c none) E (cc7__mlp_kernel i arg1 harg1 arg2 harg2 arg3 harg3 arg4 harg4 arg5 harg5 arg6 harg6 arg7 harg7) K := by
  simp only [cc7__mlp_kernel_eq_skeleton]; unfold cc7__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap
  · iexact H6
  ipureintro
  exact View.read_writes_eq_canon _ _ _ (cover7_6 _)

/-! ## The proof data -/

/-- Pipeline 7's proof data on core `c`. The arrays are those the region is entered with. After the body at point `t`
    every input's buffer still holds its block and the output's holds `out7_6` of the six input blocks. The invariant
    is the class's own (the scoped rest and the generator register, which the body does not touch) at every point;
    full shares; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

/-- The arrays of the proof data are the entry contents. -/
theorem A_eq7 (c : Dev nD) (w : Fin cfg7.W) : (dat7 V c).A w = V c (Pipeline.arrRef spec7 w) := by
  dsimp only [dat7]

/-! What the body leaves, one window at a time (the `match` of `dat7` at a numeral). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) :
    (dat7 V c).after 6 t = out7_6 (iblk7 V c 0 t) (iblk7 V c 1 t) (iblk7 V c 2 t) (iblk7 V c 3 t) (iblk7 V c 4 t) (iblk7 V c 5 t) := by dsimp only [dat7]

/-! What the body finds in each input's buffer: its block, whatever the buffer held before the pipeline's fetches. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation -/

/-- The body's precondition at point `t`: the invariant, the core's debt, and each window's current staging memref
    at what `Dat.before` says of it (the seven windows written out). -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- The body's postcondition at point `t`: the invariant and the debt at the next index, each staging memref at
    `Dat.after`. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at point `t`. The six inputs' memrefs hold their blocks (`before7_W`), the output's holds something, so
    `sound_kernel7` runs the kernel; its continuation receives exactly the `after` contents. The invariant and the
    debt do not depend on the index and are handed through. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _
    (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation: its two iterated separating conjunctions over the seven windows, written out, are
    `bodyPre7` and `bodyPost7`. -/
theorem body_obligation7 (c : Dev nD) : BodyObligation (dat7 (F := F) V c) (defs₀ (F := F)) Variants.none () Set.univ := fun t => by
  rw [bigSep_W7, bigSep_W7]
  exact sound_body7 V c t

/-! ## Entry and exit: the invariant is the class's at every index -/

theorem hin7 (c : Dev nD) : Pipeline.ΦA spec7 c ⊢ (dat7 V c).Φ 0 := .rfl

theorem hout7 (c : Dev nD) : (dat7 V c).Φ (Fin.last cfg7.N) ⊢ Pipeline.ΦA spec7 c := .rfl

end Cert.KernelIdeal.Hand

end
-- ==== Proof.KI.Run.lean ====
import proofs.«404161_j48679159333670_1_alg».proof.Proof.Gen.KernelIdeal.Launch
import proofs.«404161_j48679159333670_1_alg».proof.Proof.Gen.KernelIdeal.Skeleton
import proofs.«404161_j48679159333670_1_alg».proof.Proof.Gen.KernelIdeal.Points
import proofs.«404161_j48679159333670_1_alg».proof.Proof.Gen.KernelIdeal.Regions
import proofs.«404161_j48679159333670_1_alg».proof.Proof.KI.Reg0
import proofs.«404161_j48679159333670_1_alg».proof.Proof.KI.Reg1
import proofs.«404161_j48679159333670_1_alg».proof.Proof.KI.Reg2
import proofs.«404161_j48679159333670_1_alg».proof.Proof.KI.Reg3
import proofs.«404161_j48679159333670_1_alg».proof.Proof.KI.Reg4
import proofs.«404161_j48679159333670_1_alg».proof.Proof.KI.Reg5
import proofs.«404161_j48679159333670_1_alg».proof.Proof.KI.Reg6
import proofs.«404161_j48679159333670_1_alg».proof.Proof.KI.Reg7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: fourteen items from the launch to the return

## What every unscoped buffer of a core holds between two items: a fold through @main

A host stretch rewrites the buffers its operations write (`StableHlo.after`). A kernel region rewrites its windows'
arrays to what its pipeline leaves (`Dat.arrAt … N`: an input array as entered, an output array with every block's
write-back folded in) and no other buffer (`Pipeline.withArrays`). `WJ` is the contents after item `J - 1`; `VJ` is
`WJ` read at the TensorCore's references, the form a region's proof data take their entry contents in. -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After region 0 (x · W₁ into `main_v29`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 winFacts0.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 writes `main_v29` alone: an input window's array is never written back, a buffer that is no window's
    array is not touched. -/
theorem W2_keep (c : Dev nD) (b : Ref sig .tc) (hb : b ≠ main_v29) :
    W2 m ρ c (Proc.devRef .tc b) = W1 m ρ c (Proc.devRef .tc b) := by
  by_cases h : ∃ w, Pipeline.arrRef spec0 w = b
  · obtain ⟨w, rfl⟩ := h
    have hin : (cfg0.win w).isOut = false := by revert hb; revert w; decide
    exact (W2_arr m ρ c w).trans (((dat0 (V1 m ρ) c).arrAt_in w hin _).trans (A_eq0 (V1 m ρ) c w))
  · exact W2_of_ne m ρ c b fun w e => h ⟨w, e⟩

/-- After the second host stretch: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After region 1 (the first layer's combine into `main_v43`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 winFacts1.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 writes `main_v43` alone. -/
theorem W4_keep (c : Dev nD) (b : Ref sig .tc) (hb : b ≠ main_v43) :
    W4 m ρ c (Proc.devRef .tc b) = W3 m ρ c (Proc.devRef .tc b) := by
  by_cases h : ∃ w, Pipeline.arrRef spec1 w = b
  · obtain ⟨w, rfl⟩ := h
    have hin : (cfg1.win w).isOut = false := by revert hb; revert w; decide
    exact (W4_arr m ρ c w).trans (((dat1 (V3 m ρ) c).arrAt_in w hin _).trans (A_eq1 (V3 m ρ) c w))
  · exact W4_of_ne m ρ c b fun w e => h ⟨w, e⟩

/-- After region 2 (h₁ · W₂ into `main_v44`); region 2 is entered straight from region 1's exit. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 winFacts2.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- Region 2 writes `main_v44` alone. -/
theorem W5_keep (c : Dev nD) (b : Ref sig .tc) (hb : b ≠ main_v44) :
    W5 m ρ c (Proc.devRef .tc b) = W4 m ρ c (Proc.devRef .tc b) := by
  by_cases h : ∃ w, Pipeline.arrRef spec2 w = b
  · obtain ⟨w, rfl⟩ := h
    have hin : (cfg2.win w).isOut = false := by revert hb; revert w; decide
    exact (W5_arr m ρ c w).trans (((dat2 (V4 m ρ) c).arrAt_in w hin _).trans (A_eq2 (V4 m ρ) c w))
  · exact W5_of_ne m ρ c b fun w e => h ⟨w, e⟩

/-- After the third host stretch: region 3's entry. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

/-- After region 3 (the second layer's combine into `main_v58`). -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 winFacts3.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- Region 3 writes `main_v58` alone. -/
theorem W7_keep (c : Dev nD) (b : Ref sig .tc) (hb : b ≠ main_v58) :
    W7 m ρ c (Proc.devRef .tc b) = W6 m ρ c (Proc.devRef .tc b) := by
  by_cases h : ∃ w, Pipeline.arrRef spec3 w = b
  · obtain ⟨w, rfl⟩ := h
    have hin : (cfg3.win w).isOut = false := by revert hb; revert w; decide
    exact (W7_arr m ρ c w).trans (((dat3 (V6 m ρ) c).arrAt_in w hin _).trans (A_eq3 (V6 m ρ) c w))
  · exact W7_of_ne m ρ c b fun w e => h ⟨w, e⟩

/-- After region 4 (h₂ · W₃ into `main_v59`); region 4 is entered straight from region 3's exit. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 winFacts4.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- Region 4 writes `main_v59` alone. -/
theorem W8_keep (c : Dev nD) (b : Ref sig .tc) (hb : b ≠ main_v59) :
    W8 m ρ c (Proc.devRef .tc b) = W7 m ρ c (Proc.devRef .tc b) := by
  by_cases h : ∃ w, Pipeline.arrRef spec4 w = b
  · obtain ⟨w, rfl⟩ := h
    have hin : (cfg4.win w).isOut = false := by revert hb; revert w; decide
    exact (W8_arr m ρ c w).trans (((dat4 (V7 m ρ) c).arrAt_in w hin _).trans (A_eq4 (V7 m ρ) c w))
  · exact W8_of_ne m ρ c b fun w e => h ⟨w, e⟩

/-- After the fourth host stretch: region 5's entry. -/
abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b

/-- After region 5 (the third layer's combine into `main_v73`). -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 winFacts5.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)
/-- Region 5 writes `main_v73` alone. -/
theorem W10_keep (c : Dev nD) (b : Ref sig .tc) (hb : b ≠ main_v73) :
    W10 m ρ c (Proc.devRef .tc b) = W9 m ρ c (Proc.devRef .tc b) := by
  by_cases h : ∃ w, Pipeline.arrRef spec5 w = b
  · obtain ⟨w, rfl⟩ := h
    have hin : (cfg5.win w).isOut = false := by revert hb; revert w; decide
    exact (W10_arr m ρ c w).trans (((dat5 (V9 m ρ) c).arrAt_in w hin _).trans (A_eq5 (V9 m ρ) c w))
  · exact W10_of_ne m ρ c b fun w e => h ⟨w, e⟩

/-- After the fifth host stretch (the graph index as a column): region 6's entry. -/
abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b

/-- After region 6 (the per-graph sums into `main_v75`). -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 winFacts6.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev V12 : (c : Dev nD) → (b : Ref sig .tc) → Buf (Elt F) ((c : Thread nD τ).loc b) := fun c b => W12 m ρ c b
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)
/-- Region 6 writes `main_v75` alone. -/
theorem W12_keep (c : Dev nD) (b : Ref sig .tc) (hb : b ≠ main_v75) :
    W12 m ρ c (Proc.devRef .tc b) = W11 m ρ c (Proc.devRef .tc b) := by
  by_cases h : ∃ w, Pipeline.arrRef spec6 w = b
  · obtain ⟨w, rfl⟩ := h
    have hin : (cfg6.win w).isOut = false := by revert hb; revert w; decide
    exact (W12_arr m ρ c w).trans (((dat6 (V11 m ρ) c).arrAt_in w hin _).trans (A_eq6 (V11 m ρ) c w))
  · exact W12_of_ne m ρ c b fun w e => h ⟨w, e⟩

/-- After the sixth host stretch (the graphs' sizes, the biases as rows): region 7's entry. -/
abbrev W13 : Dev nD → Valuation τ sig (Elt F) := fun c => StableHlo.after hostOps7 (W12 m ρ c)
abbrev V13 : (c : Dev nD) → (b : Ref sig .tc) → Buf (Elt F) ((c : Thread nD τ).loc b) := fun c b => W13 m ρ c b

/-- After region 7 (the mean, the two dense layers and the log-softmax into `main_v83`): the contents @main returns at. -/
def W14 (c : Dev nD) : Valuation τ sig (Elt F) :=
  Pipeline.withArrays spec7 c (W13 m ρ c) fun w => (dat7 (V13 m ρ) c).arrAt w cfg7.N
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 winFacts7.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
abbrev V14 : (c : Dev nD) → (b : Ref sig .tc) → Buf (Elt F) ((c : Thread nD τ).loc b) := fun c b => W14 m ρ c b
theorem hF7 (c : Dev nD) (w : Fin cfg7.W) : (dat7 (V13 m ρ) c).arrAt w cfg7.N = V14 m ρ c (Pipeline.arrRef spec7 w) :=
  (W14_arr m ρ c w).symm
theorem hrest7 (c : Dev nD) : ∀ b, b ∉ Finset.univ.image (Pipeline.arrRef spec7) → V14 m ρ c b = V13 m ρ c b :=
  fun b hb => W14_of_ne m ρ c b fun w e => hb (Finset.mem_image.mpr ⟨w, Finset.mem_univ _, e⟩)
/-- Region 7 writes `main_v83` alone. -/
theorem W14_keep (c : Dev nD) (b : Ref sig .tc) (hb : b ≠ main_v83) :
    W14 m ρ c (Proc.devRef .tc b) = W13 m ρ c (Proc.devRef .tc b) := by
  by_cases h : ∃ w, Pipeline.arrRef spec7 w = b
  · obtain ⟨w, rfl⟩ := h
    have hin : (cfg7.win w).isOut = false := by revert hb; revert w; decide
    exact (W14_arr m ρ c w).trans (((dat7 (V13 m ρ) c).arrAt_in w hin _).trans (A_eq7 (V13 m ρ) c w))
  · exact W14_of_ne m ρ c b fun w e => h ⟨w, e⟩

/-! ### A buffer no item writes ends as launched

No host operation's result and no region's output array: the fold at such a buffer walks back, item by item, to
the launch memory. Every argument of @main is one. -/

theorem W14_launch (c : Dev nD) (b : Ref sig .tc)
    (h0 : b ∉ hostOps0_W) (h1 : b ∉ hostOps1_W) (h3 : b ∉ hostOps3_W) (h5 : b ∉ hostOps5_W)
    (h6 : b ∉ hostOps6_W) (h7 : b ∉ hostOps7_W)
    (e0 : b ≠ main_v29) (e1 : b ≠ main_v43) (e2 : b ≠ main_v44) (e3 : b ≠ main_v58)
    (e4 : b ≠ main_v59) (e5 : b ≠ main_v73) (e6 : b ≠ main_v75) (e7 : b ≠ main_v83) :
    W14 m ρ c (Proc.devRef .tc b) = m ((c : Thread nD τ).loc b) :=
  calc W14 m ρ c (Proc.devRef .tc b)
    _ = W13 m ρ c (Proc.devRef .tc b) := W14_keep m ρ c b e7
    _ = W12 m ρ c (Proc.devRef .tc b) := StableHlo.after_of_writes_sub hostOps7 _ hostOps7_writes h7
    _ = W11 m ρ c (Proc.devRef .tc b) := W12_keep m ρ c b e6
    _ = W10 m ρ c (Proc.devRef .tc b) := StableHlo.after_of_writes_sub hostOps6 _ hostOps6_writes h6
    _ = W9 m ρ c (Proc.devRef .tc b) := W10_keep m ρ c b e5
    _ = W8 m ρ c (Proc.devRef .tc b) := StableHlo.after_of_writes_sub hostOps5 _ hostOps5_writes h5
    _ = W7 m ρ c (Proc.devRef .tc b) := W8_keep m ρ c b e4
    _ = W6 m ρ c (Proc.devRef .tc b) := W7_keep m ρ c b e3
    _ = W5 m ρ c (Proc.devRef .tc b) := StableHlo.after_of_writes_sub hostOps3 _ hostOps3_writes h3
    _ = W4 m ρ c (Proc.devRef .tc b) := W5_keep m ρ c b e2
    _ = W3 m ρ c (Proc.devRef .tc b) := W4_keep m ρ c b e1
    _ = W2 m ρ c (Proc.devRef .tc b) := StableHlo.after_of_writes_sub hostOps1 _ hostOps1_writes h1
    _ = W1 m ρ c (Proc.devRef .tc b) := W2_keep m ρ c b e0
    _ = W0 m ρ c (Proc.devRef .tc b) := StableHlo.after_of_writes_sub hostOps0 _ hostOps0_writes h0
    _ = m ((c : Thread nD τ).loc b) := rfl

theorem W14_main_arg0 (c : Dev nD) : W14 m ρ c (Proc.devRef .tc main_arg0) = m ((c : Thread nD τ).loc main_arg0) :=
  W14_launch m ρ c main_arg0 (by decide) (by decide) (by decide) (by decide) (by decide) (by decide)
    (by decide) (by decide) (by decide) (by decide) (by decide) (by decide) (by decide) (by decide)
theorem W14_main_arg1 (c : Dev nD) : W14 m ρ c (Proc.devRef .tc main_arg1) = m ((c : Thread nD τ).loc main_arg1) :=
  W14_launch m ρ c main_arg1 (by decide) (by decide) (by decide) (by decide) (by decide) (by decide)
    (by decide) (by decide) (by decide) (by decide) (by decide) (by decide) (by decide) (by decide)
theorem W14_main_arg2 (c : Dev nD) : W14 m ρ c (Proc.devRef .tc main_arg2) = m ((c : Thread nD τ).loc main_arg2) :=
  W14_launch m ρ c main_arg2 (by decide) (by decide) (by decide) (by decide) (by decide) (by decide)
    (by decide) (by decide) (by decide) (by decide) (by decide) (by decide) (by decide) (by decide)
theorem W14_main_arg3 (c : Dev nD) : W14 m ρ c (Proc.devRef .tc main_arg3) = m ((c : Thread nD τ).loc main_arg3) :=
  W14_launch m ρ c main_arg3 (by decide) (by decide) (by decide) (by decide) (by decide) (by decide)
    (by decide) (by decide) (by decide) (by decide) (by decide) (by decide) (by decide) (by decide)
theorem W14_main_arg4 (c : Dev nD) : W14 m ρ c (Proc.devRef .tc main_arg4) = m ((c : Thread nD τ).loc main_arg4) :=
  W14_launch m ρ c main_arg4 (by decide) (by decide) (by decide) (by decide) (by decide) (by decide)
    (by decide) (by decide) (by decide) (by decide) (by decide) (by decide) (by decide) (by decide)
theorem W14_main_arg5 (c : Dev nD) : W14 m ρ c (Proc.devRef .tc main_arg5) = m ((c : Thread nD τ).loc main_arg5) :=
  W14_launch m ρ c main_arg5 (by decide) (by decide) (by decide) (by decide) (by decide) (by decide)
    (by decide) (by decide) (by decide) (by decide) (by decide) (by decide) (by decide) (by decide)
theorem W14_main_arg6 (c : Dev nD) : W14 m ρ c (Proc.devRef .tc main_arg6) = m ((c : Thread nD τ).loc main_arg6) :=
  W14_launch m ρ c main_arg6 (by decide) (by decide) (by decide) (by decide) (by decide) (by decide)
    (by decide) (by decide) (by decide) (by decide) (by decide) (by decide) (by decide) (by decide)
theorem W14_main_arg7 (c : Dev nD) : W14 m ρ c (Proc.devRef .tc main_arg7) = m ((c : Thread nD τ).loc main_arg7) :=
  W14_launch m ρ c main_arg7 (by decide) (by decide) (by decide) (by decide) (by decide) (by decide)
    (by decide) (by decide) (by decide) (by decide) (by decide) (by decide) (by decide) (by decide)
theorem W14_main_arg8 (c : Dev nD) : W14 m ρ c (Proc.devRef .tc main_arg8) = m ((c : Thread nD τ).loc main_arg8) :=
  W14_launch m ρ c main_arg8 (by decide) (by decide) (by decide) (by decide) (by decide) (by decide)
    (by decide) (by decide) (by decide) (by decide) (by decide) (by decide) (by decide) (by decide)
theorem W14_main_arg9 (c : Dev nD) : W14 m ρ c (Proc.devRef .tc main_arg9) = m ((c : Thread nD τ).loc main_arg9) :=
  W14_launch m ρ c main_arg9 (by decide) (by decide) (by decide) (by decide) (by decide) (by decide)
    (by decide) (by decide) (by decide) (by decide) (by decide) (by decide) (by decide) (by decide)
theorem W14_main_arg10 (c : Dev nD) : W14 m ρ c (Proc.devRef .tc main_arg10) = m ((c : Thread nD τ).loc main_arg10) :=
  W14_launch m ρ c main_arg10 (by decide) (by decide) (by decide) (by decide) (by decide) (by decide)
    (by decide) (by decide) (by decide) (by decide) (by decide) (by decide) (by decide) (by decide)
theorem W14_main_arg11 (c : Dev nD) : W14 m ρ c (Proc.devRef .tc main_arg11) = m ((c : Thread nD τ).loc main_arg11) :=
  W14_launch m ρ c main_arg11 (by decide) (by decide) (by decide) (by decide) (by decide) (by decide)
    (by decide) (by decide) (by decide) (by decide) (by decide) (by decide) (by decide) (by decide)
theorem W14_main_arg12 (c : Dev nD) : W14 m ρ c (Proc.devRef .tc main_arg12) = m ((c : Thread nD τ).loc main_arg12) :=
  W14_launch m ρ c main_arg12 (by decide) (by decide) (by decide) (by decide) (by decide) (by decide)
    (by decide) (by decide) (by decide) (by decide) (by decide) (by decide) (by decide) (by decide)

/-! ## The proof data family and the thread state -/

/-- Every pipeline's proof data, each at its region's entry contents: a literal `match`, so that the configuration
    pinned at a numeral reduces to the printed one. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V11 m ρ) c
  | ⟨7, _⟩ => fun c => dat7 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents `W14`, the generator
    register at some state. -/
abbrev Tₙ (c : Dev nD) : sProp 𝕄 := iprop(StableHlo.held (c : Thread nD τ) (Pipeline.ucRefs τ sig) (W14 m ρ c) ∗ ∃ r, prngReg c r)

/-! ### The same, stated for `simp`

Each item's "this buffer is unchanged" with the reference un-indexed and the side condition a hypothesis `decide` closes:
one `simp (disch := decide) only [W14_keep', …, W1_keep']` then walks the contents of a buffer back to the last item
that wrote it. -/

theorem W0_apply (c : Dev nD) (b : Ref sig .tc) : W0 m ρ c (Proc.devRef .tc b) = m ((c : Thread nD τ).loc b) := rfl
theorem W1_keep' (c : Dev nD) {b : Ref sig .tc} (hb : b ∉ hostOps0_W) :
    W1 m ρ c (no_index (Proc.devRef .tc b)) = W0 m ρ c (Proc.devRef .tc b) :=
  StableHlo.after_of_writes_sub hostOps0 _ hostOps0_writes hb
theorem W2_keep' (c : Dev nD) {b : Ref sig .tc} (hb : b ≠ main_v29) :
    W2 m ρ c (no_index (Proc.devRef .tc b)) = W1 m ρ c (Proc.devRef .tc b) := W2_keep m ρ c b hb
theorem W3_keep' (c : Dev nD) {b : Ref sig .tc} (hb : b ∉ hostOps1_W) :
    W3 m ρ c (no_index (Proc.devRef .tc b)) = W2 m ρ c (Proc.devRef .tc b) :=
  StableHlo.after_of_writes_sub hostOps1 _ hostOps1_writes hb
theorem W4_keep' (c : Dev nD) {b : Ref sig .tc} (hb : b ≠ main_v43) :
    W4 m ρ c (no_index (Proc.devRef .tc b)) = W3 m ρ c (Proc.devRef .tc b) := W4_keep m ρ c b hb
theorem W5_keep' (c : Dev nD) {b : Ref sig .tc} (hb : b ≠ main_v44) :
    W5 m ρ c (no_index (Proc.devRef .tc b)) = W4 m ρ c (Proc.devRef .tc b) := W5_keep m ρ c b hb
theorem W6_keep' (c : Dev nD) {b : Ref sig .tc} (hb : b ∉ hostOps3_W) :
    W6 m ρ c (no_index (Proc.devRef .tc b)) = W5 m ρ c (Proc.devRef .tc b) :=
  StableHlo.after_of_writes_sub hostOps3 _ hostOps3_writes hb
theorem W7_keep' (c : Dev nD) {b : Ref sig .tc} (hb : b ≠ main_v58) :
    W7 m ρ c (no_index (Proc.devRef .tc b)) = W6 m ρ c (Proc.devRef .tc b) := W7_keep m ρ c b hb
theorem W8_keep' (c : Dev nD) {b : Ref sig .tc} (hb : b ≠ main_v59) :
    W8 m ρ c (no_index (Proc.devRef .tc b)) = W7 m ρ c (Proc.devRef .tc b) := W8_keep m ρ c b hb
theorem W9_keep' (c : Dev nD) {b : Ref sig .tc} (hb : b ∉ hostOps5_W) :
    W9 m ρ c (no_index (Proc.devRef .tc b)) = W8 m ρ c (Proc.devRef .tc b) :=
  StableHlo.after_of_writes_sub hostOps5 _ hostOps5_writes hb
theorem W10_keep' (c : Dev nD) {b : Ref sig .tc} (hb : b ≠ main_v73) :
    W10 m ρ c (no_index (Proc.devRef .tc b)) = W9 m ρ c (Proc.devRef .tc b) := W10_keep m ρ c b hb
theorem W11_keep' (c : Dev nD) {b : Ref sig .tc} (hb : b ∉ hostOps6_W) :
    W11 m ρ c (no_index (Proc.devRef .tc b)) = W10 m ρ c (Proc.devRef .tc b) :=
  StableHlo.after_of_writes_sub hostOps6 _ hostOps6_writes hb
theorem W12_keep' (c : Dev nD) {b : Ref sig .tc} (hb : b ≠ main_v75) :
    W12 m ρ c (no_index (Proc.devRef .tc b)) = W11 m ρ c (Proc.devRef .tc b) := W12_keep m ρ c b hb
theorem W13_keep' (c : Dev nD) {b : Ref sig .tc} (hb : b ∉ hostOps7_W) :
    W13 m ρ c (no_index (Proc.devRef .tc b)) = W12 m ρ c (Proc.devRef .tc b) :=
  StableHlo.after_of_writes_sub hostOps7 _ hostOps7_writes hb
theorem W14_keep' (c : Dev nD) {b : Ref sig .tc} (hb : b ≠ main_v83) :
    W14 m ρ c (no_index (Proc.devRef .tc b)) = W13 m ρ c (Proc.devRef .tc b) := W14_keep m ρ c b hb

/-! ## The regions as segments

Each region runs over the thread state: entered from every unscoped buffer at its entry contents, left at its exit
contents. Its windows' arrays are split out of the unscoped buffers at the entry and put back, at what the pipeline
leaves, at the exit; the generator register and the scoped buffers no window stages go into the region's invariant at
the first point and come back at the last (through the region's own `hinK` / `houtK`); nothing is owed; no region has a
semaphore of its own. -/

set_option backward.isDefEq.respectTransparency.types false in
/-- REGION 0: from `W1` to `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: from `W3` to `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2: from `W4` (region 1's exit) to `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun w => A_eq2 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine BIBase.Entails.trans (hout2 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3: from `W6` to `W7`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun w => A_eq3 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V6 m ρ) c)
    unfold Pipeline.ΦA
    iintro ⟨Hp, -, Hr⟩
    isplitl [Hr]; · iexact Hr
    iexact Hp
  hout c := by
    rw [Pipeline.ownSems0_none]
    refine BIBase.Entails.trans (hout3 (V6 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4: from `W7` (region 3's exit) to `W8`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun w => A_eq4 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V7 m ρ) c)
    unfold Pipeline.ΦA
    iintro ⟨Hp, -, Hr⟩
    isplitl [Hr]; · iexact Hr
    iexact Hp
  hout c := by
    rw [Pipeline.ownSems0_none]
    refine BIBase.Entails.trans (hout4 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5: from `W9` to `W10`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun w => A_eq5 (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (V9 m ρ) c)
    unfold Pipeline.ΦA
    iintro ⟨Hp, -, Hr⟩
    isplitl [Hr]; · iexact Hr
    iexact Hp
  hout c := by
    rw [Pipeline.ownSems0_none]
    refine BIBase.Entails.trans (hout5 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6: from `W11` to `W12`. Its invariant carries the kernel's accumulator between the points; what the
    segment hands it and takes back is the class's all the same, through `hin6` / `hout6`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun w => A_eq6 (V11 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (V11 m ρ) c)
    unfold Pipeline.ΦA
    iintro ⟨Hp, -, Hr⟩
    isplitl [Hr]; · iexact Hr
    iexact Hp
  hout c := by
    rw [Pipeline.ownSems0_none]
    refine BIBase.Entails.trans (hout6 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7: from `W13` to `W14`, the last item: it leaves the last thread state beside the core owing nothing. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V13 m ρ) c).loose
  hwaits := Pipeline.hwaits_of_owed_zero _ _ _ _ L lv 7 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V13 m ρ c) fun w => A_eq7 (V13 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (V13 m ρ) c)
    unfold Pipeline.ΦA
    iintro ⟨Hp, -, Hr⟩
    isplitl [Hr]; · iexact Hr
    iexact Hp
  hout c := by
    rw [Pipeline.ownSems0_none]
    refine BIBase.Entails.trans (hout7 (V13 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V13 m ρ c) (V14 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 14 items in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)),
    .region (reg6 m ρ),
    .host (hseg hostOps7 hostOps7_sub hostOps7_fresh (W12 m ρ)),
    .region (reg7 m ρ) ]

set_option backward.isDefEq.respectTransparency.types false in
/-- THE RUN. At the compiled mesh, from any memory with zero counters, every weakly fair execution of @main on the
    TensorCores terminates, nothing faulting, and in every final state each unscoped buffer of each core holds what the
    fold says: the last contents `W14`. @main is the chain of its items and so is the segments' run; the thread states
    chain by name; the launch deals the first one; the last is read against the final state buffer by buffer. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun _ h => h)

/-- THE FRAME: every argument array of @main ends as launched — `run_all` read at the thirteen arguments, each of
    which no item writes (`W14_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c)⟩) (run_all m ρ)

/-- THE VALUE'S RUN: the same run read at the result array `main_v83` as well — it ends at the last contents `W14`
    there — beside the thirteen arguments as launched. -/
theorem run_value : θ_run defs (onTc (τ := τ) (main (F := F))) ⟨m, fun _ => 0, ρ⟩ (fun r => ∀ c : Dev nD,
      r.2.mem ((c.tc : Thread nD τ).loc main_v83) = W14 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨h c _ (mem_uc main_v83 (by decide)),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c)⟩) (run_all m ρ)

end Cert.KernelIdeal.Hand

end
-- ==== Proof.RefImports.lean ====
import proofs.«404161_j48679159333670_1_alg».proof.Proof.Gen.ReferenceIdeal.Run
import proofs.«404161_j48679159333670_1_alg».proof.Proof.Gen.ReferenceIdeal.Read

/-! The reference's run and its stages read at an index are taken from the generated modules imported here. -/
-- ==== Proof.Val.Spec.lean ====
/-
  What each kernel region computes, as ONE function of whole arrays, index by index, on the extended reals.

  * mmSpec x w: the matrix product, entry (r, q) the sum over k of x[r, k] · w[k, q].
  * combineSpec agg lin d2 b: entry (r, q) is max((agg[r, q] + lin[r, q] · d2[r, 0]) + b[0, q], 0): the aggregated
    messages plus the node's own row scaled by its squared inverse-root degree, plus the bias, then the positive part.
  * poolSpec h batch: entry (g, q) is the sum of h[r, q] over the rows r whose graph id batch[r, 0], read as a signed
    integer, is g; a row whose id lies outside [0, 64) is counted nowhere.
-/
import Idealize.ShloMosaic.Lib.ValueIdx
import Idealize.ShloMosaic.PureOps.Ideal

noncomputable section

open scoped BigOperators

namespace Cert.KernelIdeal.Val

open Idealize.ShloMosaic Idealize.ShloMosaic.ValueIdx

/-- The matrix product of an [N, K] array and a [K, M] array. -/
def mmSpec {N K M : Nat} (x : (⟨2, ![N, K]⟩ : Shape).Idx → EReal) (w : (⟨2, ![K, M]⟩ : Shape).Idx → EReal) :
    (⟨2, ![N, M]⟩ : Shape).Idx → EReal :=
  fun i => ∑ k : Fin K, x (ix2 ⟨(i 0).val, idx2_lt0 i⟩ k) * w (ix2 k ⟨(i 1).val, idx2_lt1 i⟩)

theorem mmSpec_apply {N K M : Nat} (x : (⟨2, ![N, K]⟩ : Shape).Idx → EReal) (w : (⟨2, ![K, M]⟩ : Shape).Idx → EReal)
    (r : Fin N) (q : Fin M) : mmSpec x w (ix2 r q) = ∑ k : Fin K, x (ix2 r k) * w (ix2 k q) := rfl

/-- The layer's combine step: messages plus the scaled own row plus the bias, then the positive part. -/
def combineSpec {N C : Nat} (agg lin : (⟨2, ![N, C]⟩ : Shape).Idx → EReal) (d2 : (⟨2, ![N, 1]⟩ : Shape).Idx → EReal)
    (b : (⟨2, ![1, C]⟩ : Shape).Idx → EReal) : (⟨2, ![N, C]⟩ : Shape).Idx → EReal :=
  fun i => max ((agg i + lin i * d2 (ix2 ⟨(i 0).val, idx2_lt0 i⟩ (0 : Fin 1))) + b (ix2 (0 : Fin 1) ⟨(i 1).val, idx2_lt1 i⟩)) 0

theorem combineSpec_apply {N C : Nat} (agg lin : (⟨2, ![N, C]⟩ : Shape).Idx → EReal) (d2 : (⟨2, ![N, 1]⟩ : Shape).Idx → EReal)
    (b : (⟨2, ![1, C]⟩ : Shape).Idx → EReal) (r : Fin N) (q : Fin C) :
    combineSpec agg lin d2 b (ix2 r q)
      = max ((agg (ix2 r q) + lin (ix2 r q) * d2 (ix2 r (0 : Fin 1))) + b (ix2 (0 : Fin 1) q)) 0 := rfl

/-- The per-graph sums of the node rows: row r goes to graph batch[r, 0], read signed; out-of-range ids go nowhere. -/
def poolSpec (h : (⟨2, ![100000, 64]⟩ : Shape).Idx → EReal) (batch : IVec ⟨2, ![100000, 1]⟩ 32) :
    (⟨2, ![64, 64]⟩ : Shape).Idx → EReal :=
  fun i => ∑ r ∈ Finset.univ.filter (fun r : Fin 100000 => (batch (ix2 r (0 : Fin 1))).toInt = (((i 0).val : ℕ) : ℤ)),
    h (ix2 r ⟨(i 1).val, idx2_lt1 i⟩)

theorem poolSpec_apply (h : (⟨2, ![100000, 64]⟩ : Shape).Idx → EReal) (batch : IVec ⟨2, ![100000, 1]⟩ 32) (g q : Fin 64) :
    poolSpec h batch (ix2 g q)
      = ∑ r ∈ Finset.univ.filter (fun r : Fin 100000 => (batch (ix2 r (0 : Fin 1))).toInt = ((g.val : ℕ) : ℤ)), h (ix2 r q) := rfl

/-! ## The head: mean, two affine layers, row-wise log-softmax -/

/-- Entry (r, k) is sums[r, k] divided by max(cnts[r, 0], 1). -/
def headMean (sums : (⟨2, ![64, 64]⟩ : Shape).Idx → EReal) (cnts : (⟨2, ![64, 1]⟩ : Shape).Idx → EReal) :
    (⟨2, ![64, 64]⟩ : Shape).Idx → EReal :=
  fun i => Ideal.div (sums i) (max (cnts (ix2 ⟨(i 0).val, idx2_lt0 i⟩ (0 : Fin 1))) 1)

theorem headMean_apply (sums : (⟨2, ![64, 64]⟩ : Shape).Idx → EReal) (cnts : (⟨2, ![64, 1]⟩ : Shape).Idx → EReal)
    (r k : Fin 64) : headMean sums cnts (ix2 r k) = Ideal.div (sums (ix2 r k)) (max (cnts (ix2 r (0 : Fin 1))) 1) := rfl

/-- Entry (r, q) is (∑ k, x[r, k] · w[k, q]) + b[0, q]. -/
def headAffine {N K M : Nat} (x : (⟨2, ![N, K]⟩ : Shape).Idx → EReal) (w : (⟨2, ![K, M]⟩ : Shape).Idx → EReal)
    (b : (⟨2, ![1, M]⟩ : Shape).Idx → EReal) : (⟨2, ![N, M]⟩ : Shape).Idx → EReal :=
  fun i => (∑ k : Fin K, x (ix2 ⟨(i 0).val, idx2_lt0 i⟩ k) * w (ix2 k ⟨(i 1).val, idx2_lt1 i⟩))
    + b (ix2 (0 : Fin 1) ⟨(i 1).val, idx2_lt1 i⟩)

theorem headAffine_apply {N K M : Nat} (x : (⟨2, ![N, K]⟩ : Shape).Idx → EReal) (w : (⟨2, ![K, M]⟩ : Shape).Idx → EReal)
    (b : (⟨2, ![1, M]⟩ : Shape).Idx → EReal) (r : Fin N) (q : Fin M) :
    headAffine x w b (ix2 r q) = (∑ k : Fin K, x (ix2 r k) * w (ix2 k q)) + b (ix2 (0 : Fin 1) q) := rfl

/-- Entry (r, q) is max((∑ k, x[r, k] · w[k, q]) + b[0, q], 0). -/
def headAffineRelu {N K M : Nat} (x : (⟨2, ![N, K]⟩ : Shape).Idx → EReal) (w : (⟨2, ![K, M]⟩ : Shape).Idx → EReal)
    (b : (⟨2, ![1, M]⟩ : Shape).Idx → EReal) : (⟨2, ![N, M]⟩ : Shape).Idx → EReal :=
  fun i => max (headAffine x w b i) 0

theorem headAffineRelu_apply {N K M : Nat} (x : (⟨2, ![N, K]⟩ : Shape).Idx → EReal) (w : (⟨2, ![K, M]⟩ : Shape).Idx → EReal)
    (b : (⟨2, ![1, M]⟩ : Shape).Idx → EReal) (r : Fin N) (q : Fin M) :
    headAffineRelu x w b (ix2 r q) = max ((∑ k : Fin K, x (ix2 r k) * w (ix2 k q)) + b (ix2 (0 : Fin 1) q)) 0 := rfl

/-- The maximum of row r of x: the fold of max from ⊥ over the row's entries. -/
def headRowMax {N M : Nat} (x : (⟨2, ![N, M]⟩ : Shape).Idx → EReal) (r : Fin N) : EReal :=
  (Finset.univ : Finset (Fin M)).fold max ⊥ (fun q => x (ix2 r q))

/-- Entry (r, q) is (x[r, q] − m) − log(∑ q', exp(x[r, q'] − m)), m the maximum of row r. -/
def headLogSoftmax {N M : Nat} (x : (⟨2, ![N, M]⟩ : Shape).Idx → EReal) : (⟨2, ![N, M]⟩ : Shape).Idx → EReal :=
  fun i => (x i - headRowMax x ⟨(i 0).val, idx2_lt0 i⟩)
    - Ideal.log (∑ q : Fin M, Ideal.exp (x (ix2 ⟨(i 0).val, idx2_lt0 i⟩ q) - headRowMax x ⟨(i 0).val, idx2_lt0 i⟩))

theorem headLogSoftmax_apply {N M : Nat} (x : (⟨2, ![N, M]⟩ : Shape).Idx → EReal) (r : Fin N) (q : Fin M) :
    headLogSoftmax x (ix2 r q)
      = (x (ix2 r q) - headRowMax x r) - Ideal.log (∑ q' : Fin M, Ideal.exp (x (ix2 r q') - headRowMax x r)) := rfl

/-- The head as one function: g = sums / max(cnts, 1) row by row; h = max(g · w1 + b1, 0); l = h · w2 + b2; the result is
    the row-wise log-softmax of l, computed through the row maximum. -/
def headSpec (sums : (⟨2, ![64, 64]⟩ : Shape).Idx → EReal) (cnts : (⟨2, ![64, 1]⟩ : Shape).Idx → EReal)
    (w1 : (⟨2, ![64, 32]⟩ : Shape).Idx → EReal) (b1 : (⟨2, ![1, 32]⟩ : Shape).Idx → EReal)
    (w2 : (⟨2, ![32, 16]⟩ : Shape).Idx → EReal) (b2 : (⟨2, ![1, 16]⟩ : Shape).Idx → EReal) :
    (⟨2, ![64, 16]⟩ : Shape).Idx → EReal :=
  headLogSoftmax (headAffine (headAffineRelu (headMean sums cnts) w1 b1) w2 b2)

end Cert.KernelIdeal.Val

end
-- ==== Proof.Val.Glue.lean ====
/-
  The host stretches of the kernel's program between its regions, read as functions of the buffers they start from.

  Every stretch is a list of array operations; its result buffers are the operations' functions composed, applied to
  whatever the buffers held when the stretch began (a valuation W). Three chains recur:
  * wrapIdx v: an index vector with its negative entries moved up by the table's height (100000);
  * invSqrtDeg dst: one over the square root of (number of edges into a node + 1);
  * aggOf lin src dst ncol: the rows of lin gathered at the (wrapped) sources, each scaled by its edge's weight ncol,
    and summed into the rows named by the destinations.
-/
import proofs.«404161_j48679159333670_1_alg».proof.Proof.Gen.KernelIdeal.Launch
import Idealize.ShloMosaic.Lib.StableHlo.Run

set_option maxRecDepth 8192

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]

/-- Row `r` (0: sources, 1: destinations) of the edge list as a vector. -/
def srcRow (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000
def dstRow (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- Negative indices moved up by 100000. -/
def wrapIdx (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 100000#32))) v

/-- One over the square root of the in-degree plus one. -/
def invSqrtDeg (dst : (⟨S1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- An edge's weight: the product of its endpoints' inverse root degrees. -/
def edgeNorm (src dst : (⟨S1600000, .i32⟩ : BufTy).Contents (Elt F)) : (⟨S1600000, .f32⟩ : BufTy).Contents (Elt F) :=
  mulf
    (Host.gather gather_S100000_S1600000x1_S1600000_n_0_n_n_0_1_1 (invSqrtDeg dst)
      (broadcastInDim S1600000x1 ![0] bcast_S1600000_S1600000x1_0 (wrapIdx src)))
    (Host.gather gather_S100000_S1600000x1_S1600000_n_0_n_n_0_1_1 (invSqrtDeg dst)
      (broadcastInDim S1600000x1 ![0] bcast_S1600000_S1600000x1_0 (wrapIdx dst)))

/-- The messages of one layer summed at their destinations. -/
def aggOf (lin : (⟨S100000x64, .f32⟩ : BufTy).Contents (Elt F)) (src dst : (⟨S1600000, .i32⟩ : BufTy).Contents (Elt F))
    (ncol : (⟨S1600000x1, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf
      (Host.gather gather_S100000x64_S1600000x1_S1600000x64_1_0_n_n_0_1_164 lin
        (broadcastInDim S1600000x1 ![0] bcast_S1600000_S1600000x1_0 (wrapIdx src)))
      (broadcastInDim S1600000x64 ![0, 1] bcast_S1600000x1_S1600000x64_0_1 ncol))

/-- The number of nodes of each graph id. -/
def graphCount (batch : (⟨S100000, .i32⟩ : BufTy).Contents (Elt F)) : (⟨S64, .f32⟩ : BufTy).Contents (Elt F) :=
  Host.scatterAdd scatter_S64_S100000x1_S100000_n_0_0_1
    (broadcastInDim S64 ![] bcast_S_S64 (constant S_ .f32 0x00000000#32))
    (broadcastInDim S100000x1 ![0] bcast_S100000_S100000x1_0 batch)
    (broadcastInDim S100000 ![] bcast_S_S100000 (constant S_ .f32 0x3F800000#32))

variable (W : Valuation τ sig (Elt F))

/-! ## The first stretch: the edge list's rows, the squared inverse root degree as a column, the edge weights as a column -/

set_option maxHeartbeats 4000000 in
theorem s0_v1 : StableHlo.after (hostOps0 (F := F)) W (Proc.devRef .tc main_v1) = srcRow (W (Proc.devRef .tc main_arg1)) := by
  after_results_simp <;> rfl
set_option maxHeartbeats 4000000 in
theorem s0_v3 : StableHlo.after (hostOps0 (F := F)) W (Proc.devRef .tc main_v3) = dstRow (W (Proc.devRef .tc main_arg1)) := by
  after_results_simp <;> rfl
set_option maxHeartbeats 4000000 in
theorem s0_v12 : StableHlo.after (hostOps0 (F := F)) W (Proc.devRef .tc main_v12)
    = shapeCast S100000x1 (mulf (invSqrtDeg (dstRow (W (Proc.devRef .tc main_arg1)))) (invSqrtDeg (dstRow (W (Proc.devRef .tc main_arg1)))))
        shapeCasts_S100000_S100000x1 := by
  after_results_simp <;> rfl
set_option maxHeartbeats 4000000 in
theorem s0_v28 : StableHlo.after (hostOps0 (F := F)) W (Proc.devRef .tc main_v28)
    = shapeCast S1600000x1 (edgeNorm (srcRow (W (Proc.devRef .tc main_arg1))) (dstRow (W (Proc.devRef .tc main_arg1))))
        shapeCasts_S1600000_S1600000x1 := by
  after_results_simp <;> rfl

/-! ## The stretches before the three combine regions: the aggregated messages and the bias as a row -/

set_option maxHeartbeats 4000000 in
theorem s1_v41 : StableHlo.after (hostOps1 (F := F)) W (Proc.devRef .tc main_v41)
    = aggOf (W (Proc.devRef .tc main_v29)) (W (Proc.devRef .tc main_v1)) (W (Proc.devRef .tc main_v3)) (W (Proc.devRef .tc main_v28)) := by
  unfold aggOf wrapIdx
  after_results_simp <;> rfl
theorem s1_v42 : StableHlo.after (hostOps1 (F := F)) W (Proc.devRef .tc main_v42)
    = shapeCast S1x64 (W (Proc.devRef .tc main_arg4)) shapeCasts_S64_S1x64 := by
  after_results; rfl
set_option maxHeartbeats 4000000 in
theorem s3_v56 : StableHlo.after (hostOps3 (F := F)) W (Proc.devRef .tc main_v56)
    = aggOf (W (Proc.devRef .tc main_v44)) (W (Proc.devRef .tc main_v1)) (W (Proc.devRef .tc main_v3)) (W (Proc.devRef .tc main_v28)) := by
  unfold aggOf wrapIdx
  after_results_simp <;> rfl
theorem s3_v57 : StableHlo.after (hostOps3 (F := F)) W (Proc.devRef .tc main_v57)
    = shapeCast S1x64 (W (Proc.devRef .tc main_arg6)) shapeCasts_S64_S1x64 := by
  after_results; rfl
set_option maxHeartbeats 4000000 in
theorem s5_v71 : StableHlo.after (hostOps5 (F := F)) W (Proc.devRef .tc main_v71)
    = aggOf (W (Proc.devRef .tc main_v59)) (W (Proc.devRef .tc main_v1)) (W (Proc.devRef .tc main_v3)) (W (Proc.devRef .tc main_v28)) := by
  unfold aggOf wrapIdx
  after_results_simp <;> rfl
theorem s5_v72 : StableHlo.after (hostOps5 (F := F)) W (Proc.devRef .tc main_v72)
    = shapeCast S1x64 (W (Proc.devRef .tc main_arg8)) shapeCasts_S64_S1x64 := by
  after_results; rfl

/-! ## Before the pool and the head: the graph ids as a column, the graph sizes as a column, the head's biases as rows -/

theorem s6_v74 : StableHlo.after (hostOps6 (F := F)) W (Proc.devRef .tc main_v74)
    = shapeCast S100000x1 (W (Proc.devRef .tc main_arg2)) shapeCasts_S100000_S100000x1 := by
  after_results; rfl
theorem s7_v80 : StableHlo.after (hostOps7 (F := F)) W (Proc.devRef .tc main_v80)
    = shapeCast S64x1 (graphCount (W (Proc.devRef .tc main_arg2))) shapeCasts_S64_S64x1 := by
  after_results; rfl
theorem s7_v81 : StableHlo.after (hostOps7 (F := F)) W (Proc.devRef .tc main_v81)
    = shapeCast S1x32 (W (Proc.devRef .tc main_arg10)) shapeCasts_S32_S1x32 := by
  after_results; rfl
theorem s7_v82 : StableHlo.after (hostOps7 (F := F)) W (Proc.devRef .tc main_v82)
    = shapeCast S1x16 (W (Proc.devRef .tc main_arg12)) shapeCasts_S16_S1x16 := by
  after_results; rfl

end Cert.KernelIdeal.Glue

end
-- ==== Proof.Val.Reshape.lean ====
import Idealize.ShloMosaic.Lib.Pipeline.Value
import Idealize.ShloMosaic.Lib.ValueIdx
import Idealize.ShloMosaic.Lib.ValueLayout

/-! # A vector reshaped to a column or a row is the vector broadcast along that axis

A reshape keeps the elements in row-major order. In a column `[n, 1]` the row-major position of `(r, 0)` is `r`, and
in a row `[1, n]` the position of `(0, q)` is `q`; so either reshape of a vector `x` of length `n` reads `x` at the
long coordinate. A broadcast that sends the vector's one axis to the long axis reads `x` at that same coordinate
(when `n = 1` the vector's axis is a unit axis and the broadcast reads position `0`, which is the long coordinate
again, the only value it can take). Hence the two arrays are equal, for any element type and any evidence of the two
operations' side conditions. -/

namespace Cert.KernelIdeal.Val

open Idealize.ShloMosaic Idealize.ShloMosaic.ValueIdx

variable {α : Type}

/-! ## The reshapes read at an index -/

/-- A vector reshaped to a column reads, at any index `j`, the vector at `j`'s row: the row-major position of `j` in
    `[n, 1]` is `j 0 * 1 + j 1` with `j 1 < 1`. -/
theorem shapeCast_col_apply_idx {n : Nat} (x : (⟨1, ![n]⟩ : Shape).Idx → α)
    (hs : (⟨1, ![n]⟩ : Shape).ShapeCasts ⟨2, ![n, 1]⟩) (j : (⟨2, ![n, 1]⟩ : Shape).Idx) :
    shapeCast (⟨2, ![n, 1]⟩ : Shape) x hs j = x (ix1 (j 0)) :=
  shapeCast_apply x hs j (ix1 (j 0)) (by
    have h1 : (j 1).val = 0 := by have := idx2_lt1 j; omega
    rw [Shape.rowMajor_val_one, Shape.rowMajor_val_two]
    show (j 0).val = (j 0).val * 1 + (j 1).val
    rw [h1, Nat.mul_one, Nat.add_zero])

/-- The column at `(r, 0)` is the vector at `r`. -/
theorem shapeCast_col_apply {n : Nat} (x : (⟨1, ![n]⟩ : Shape).Idx → α)
    (hs : (⟨1, ![n]⟩ : Shape).ShapeCasts ⟨2, ![n, 1]⟩) (r : Fin n) :
    shapeCast (⟨2, ![n, 1]⟩ : Shape) x hs (ix2 r (0 : Fin 1)) = x (ix1 r) :=
  shapeCast_col_apply_idx x hs (ix2 r (0 : Fin 1))

/-- A vector reshaped to a row reads, at any index `j`, the vector at `j`'s column: every index is `(u, q)` with
    `u < 1`, and the row at `(u, q)` is the vector at `q`. -/
theorem shapeCast_row_apply_idx {n : Nat} (x : (⟨1, ![n]⟩ : Shape).Idx → α)
    (hs : (⟨1, ![n]⟩ : Shape).ShapeCasts ⟨2, ![1, n]⟩) (j : (⟨2, ![1, n]⟩ : Shape).Idx) :
    shapeCast (⟨2, ![1, n]⟩ : Shape) x hs j = x (ix1 (j 1)) := by
  rw [eq_ix2 j]
  exact shapeCast_a_1a_apply x hs (j 0) (j 1)

/-- The row at `(0, q)` is the vector at `q`. -/
theorem shapeCast_row_apply {n : Nat} (x : (⟨1, ![n]⟩ : Shape).Idx → α)
    (hs : (⟨1, ![n]⟩ : Shape).ShapeCasts ⟨2, ![1, n]⟩) (q : Fin n) :
    shapeCast (⟨2, ![1, n]⟩ : Shape) x hs (ix2 (0 : Fin 1) q) = x (ix1 q) :=
  shapeCast_a_1a_apply x hs 0 q

/-! ## The reshape is the broadcast -/

/-- A vector reshaped to a column is the vector broadcast along axis 0 of the column. -/
theorem shapeCast_col_eq_bcast {n : Nat} (x : (⟨1, ![n]⟩ : Shape).Idx → α)
    (hs : (⟨1, ![n]⟩ : Shape).ShapeCasts ⟨2, ![n, 1]⟩)
    (hb : (⟨1, ![n]⟩ : Shape).BroadcastsInDim ⟨2, ![n, 1]⟩ ![0]) :
    shapeCast (⟨2, ![n, 1]⟩ : Shape) x hs = broadcastInDim (⟨2, ![n, 1]⟩ : Shape) ![0] hb x := by
  funext j
  rw [shapeCast_col_apply_idx x hs j]
  refine (broadcastInDim_apply ![0] hb x j (ix1 (j 0)) fun a => ?_).symm
  match a with
  | ⟨0, _⟩ =>
    show (j 0).val = if n = 1 then 0 else (j 0).val
    have h0 := idx2_lt0 j
    split
    · omega
    · rfl

/-- A vector reshaped to a row is the vector broadcast along axis 1 of the row. -/
theorem shapeCast_row_eq_bcast {n : Nat} (x : (⟨1, ![n]⟩ : Shape).Idx → α)
    (hs : (⟨1, ![n]⟩ : Shape).ShapeCasts ⟨2, ![1, n]⟩)
    (hb : (⟨1, ![n]⟩ : Shape).BroadcastsInDim ⟨2, ![1, n]⟩ ![1]) :
    shapeCast (⟨2, ![1, n]⟩ : Shape) x hs = broadcastInDim (⟨2, ![1, n]⟩ : Shape) ![1] hb x := by
  funext j
  rw [shapeCast_row_apply_idx x hs j]
  refine (broadcastInDim_apply ![1] hb x j (ix1 (j 1)) fun a => ?_).symm
  match a with
  | ⟨0, _⟩ =>
    show (j 1).val = if n = 1 then 0 else (j 1).val
    have h1 := idx2_lt1 j
    split
    · omega
    · rfl

end Cert.KernelIdeal.Val
-- ==== Proof.Val.Mat.lean ====
import proofs.«404161_j48679159333670_1_alg».proof.Proof.KI.Reg0
import proofs.«404161_j48679159333670_1_alg».proof.Proof.Val.Spec
import Idealize.ShloMosaic.Lib.Pipeline.Value
import Idealize.ShloMosaic.Lib.ValueIdx
import Idealize.ShloMosaic.PureOps.Ideal.Laws

/-!
# The matmul regions, read as values on the extended reals

Each of the regions 0, 2 and 4 multiplies a `100000 × K` array by a `K × 64` array in twenty row blocks of 5000.
First each region's block product is read at an entry as a plain sum of products; then, for region 0, the twenty
write-backs are assembled into the whole output array, which is the matrix product `mmSpec` of the two arrays the
region was entered with. Regions 2 and 4 are assembled the same way in their own modules.
-/

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

/-! ## The matmul payloads read at an entry

A `tpu.matmul` with dimension numbers "contract axis 1 of the left operand with axis 0 of the right" into a zero
accumulator is, on the extended reals, the plain sum of products. The dot's operand indices at output entry `j` and
contraction index `q` are `(j 0, q)` on the left and `(q, j 1)` on the right; the four axis facts are kept apart. -/

/-! ### The 5000×128 by 128×64 product -/

/-- Left operand, row axis: the output's row. -/
theorem mat_lhsA_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- Left operand, column axis: the contraction coordinate. -/
theorem mat_lhsA_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- Right operand, row axis: the contraction coordinate. -/
theorem mat_rhsA_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- Right operand, column axis: the output's column. -/
theorem mat_rhsA_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The first layer's block product at entry `(p, q)`: the sum over the 128 features. -/
theorem k0_pay1_apply (x : Vec Ideal S5000x128 .f32) (w : Vec Ideal S128x64 .f32) (p : Fin 5000) (q : Fin 64) :
    Gen.k0_pay1 (F := Ideal) x w (ix2 p q) = ∑ k : Fin 128, x (ix2 p k) * w (ix2 k q) := by
  unfold Gen.k0_pay1
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact mat_lhsA_0 _ _
    | ⟨1, _⟩ => exact (mat_lhsA_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (mat_rhsA_0 _ _).trans hk
    | ⟨1, _⟩ => exact mat_rhsA_1 _ _)
  rw [el, er]

/-! ### The 5000×64 by 64×64 product (layers two and three) -/

/-- Left operand, row axis: the output's row. -/
theorem mat_lhsB_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- Left operand, column axis: the contraction coordinate. -/
theorem mat_lhsB_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- Right operand, row axis: the contraction coordinate. -/
theorem mat_rhsB_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- Right operand, column axis: the output's column. -/
theorem mat_rhsB_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The 64-feature block product at entry `(p, q)`, for any left operand. -/
theorem mm64_apply (x : FVec Ideal S5000x64 .f32) (w : FVec Ideal S64x64 .f32) (p : Fin 5000) (q : Fin 64) :
    matmul (F := Ideal) (φ₁ := .f32) (φ₂ := .f32) dot_S5000x64_S64x64_S5000x64_1_0_0_1_n_n none x w (constant S5000x64 .f32 0x00000000#32) (ix2 p q)
      = ∑ k : Fin 64, x (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact mat_lhsB_0 _ _
    | ⟨1, _⟩ => exact (mat_lhsB_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (mat_rhsB_0 _ _).trans hk
    | ⟨1, _⟩ => exact mat_rhsB_1 _ _)
  rw [el, er]

/-- The second layer's block product at entry `(p, q)`: a shape cast between equal shapes is the identity. -/
theorem k2_pay1_apply (x : Vec Ideal S5000x64 .f32) (w : Vec Ideal S64x64 .f32) (p : Fin 5000) (q : Fin 64) :
    Gen.k2_pay1 (F := Ideal) x w (ix2 p q) = ∑ k : Fin 64, x (ix2 p k) * w (ix2 k q) := by
  unfold Gen.k2_pay1
  simp only [matmul]
  rw [shapeCast_self]
  exact mm64_apply x w p q

/-- The third layer's block product at entry `(p, q)`. -/
theorem k4_pay1_apply (x : Vec Ideal S5000x64 .f32) (w : Vec Ideal S64x64 .f32) (p : Fin 5000) (q : Fin 64) :
    Gen.k4_pay1 (F := Ideal) x w (ix2 p q) = ∑ k : Fin 64, x (ix2 p k) * w (ix2 k q) := by
  unfold Gen.k4_pay1
  simp only [matmul]
  rw [shapeCast_self]
  exact mm64_apply x w p q

/-! ## From the blocks to the arrays

Each matmul region runs twenty points; point `t` multiplies rows `5000 t … 5000 t + 4999` of the left array by the
whole right array and writes rows `5000 t … 5000 t + 4999` of the output. The statements below hold for any contents
`V` the region is entered with. -/

variable (V : (c : Dev nD) → (b : Ref sig .tc) → Buf (Elt Ideal) ((c : Thread nD τ).loc b))

/-- The zero offsets, as a constant function. -/
theorem mat_hz : (![0, 0] : Fin 2 → Nat) = fun _ => 0 := funext fun a => by fin_cases a <;> rfl

/-! ### Region 0: the first layer's product `x · W₁` -/

/-- The three index maps over the twenty grid points, decided: the left operand's and the output's row blocks are
    the point's own, every other block index is zero. -/
theorem mat_idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- An entry of the output array lies in point `t`'s block iff each coordinate lies in the block's range. -/
theorem mat_mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v29).slice (win0_2.rect t)).set ↔ _
  rw [View.set_slice_whole, Rect.mem_set_unit]
  exact Iff.rfl

/-- What point `t` writes back is block `t` of the product of the two whole arrays: entry `(p, q)` of the block
    product sums over the same 128 terms as entry `(5000 t + p, q)` of the whole product, because the left block is
    rows `5000 t … 5000 t + 4999` of the left array and the right block is the whole right array. -/
theorem mat_flushed0_eq (c : Dev nD) (t : Fin cfg0.N) :
    (Hand.dat0 V c).flushed 2 t
      = ((cfg0.win 2).blk t).view.read (Elt Ideal) (mmSpec (N := 100000) (K := 128) (M := 64) (V c main_arg0) (V c main_arg3)) := by
  show (cfg0.win 2).cut (grid0.coords t) ((Hand.dat0 V c).after 2 t) = _
  rw [Hand.after0_2]
  unfold Hand.out0_2
  rw [View.canon_unit_zero mat_hz]
  simp only [View.ld_unit_zero (S := S5000x128) mat_hz, View.ld_unit_zero (S := S128x64) mat_hz]
  obtain ⟨e0, e1, e2, e3, e4, e5⟩ := mat_idx_facts0 t
  funext j
  have hj : ∃ (p : Fin 5000) (q : Fin 64), (j : S5000x64.Idx) = ix2 p q := ⟨j 0, j 1, eq_ix2 j⟩
  obtain ⟨p, q, rfl⟩ := hj
  show Gen.k0_pay1 (Hand.iblk0 V c 0 t) (Hand.iblk0 V c 1 t) (ix2 p q)
    = mmSpec (N := 100000) (K := 128) (M := 64) (V c main_arg0) (V c main_arg3) (((cfg0.win 2).blk t).view.emb (ix2 p q))
  rw [k0_pay1_apply]
  unfold mmSpec
  refine Finset.sum_congr rfl fun k _ => ?_
  show (show EReal from V c main_arg0 (((cfg0.win 0).blk t).view.emb (ix2 p k))) * (show EReal from V c main_arg3 (((cfg0.win 1).blk t).view.emb (ix2 k q))) = _
  have h0 : ((cfg0.win 0).blk t).view.emb (ix2 p k)
      = (ix2 ⟨((((cfg0.win 2).blk t).view.emb (ix2 p q)) 0).val, idx2_lt0 _⟩ k : S100000x128.Idx) := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q)
      = (ix2 k ⟨((((cfg0.win 2).blk t).view.emb (ix2 p q)) 1).val, idx2_lt1 _⟩ : S128x64.Idx) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [h0, h1]

/-- After the region the output array holds the product of the two arrays as the region found them: every row
    `r` lies in the block of point `r / 5000`, so the twenty blocks cover the array. -/
theorem reg0_value (c : Dev nD) :
    (Hand.dat0 V c).arrAt 2 cfg0.N = mmSpec (N := 100000) (K := 128) (M := 64) (V c main_arg0) (V c main_arg3) :=
  (Hand.dat0 V c).arrAt_eq_of_cover 2 _ (fun t _ => mat_flushed0_eq V c t) fun i => by
    have hi0 : (i 0).val < 100000 := idx2_lt0 (n0 := 100000) (n1 := 64) i
    have hi1 : (i 1).val < 64 := idx2_lt1 (n0 := 100000) (n1 := 64) i
    have hN : cfg0.N = 20 := N_0
    refine ⟨⟨(i 0).val / 5000, by rw [hN]; omega⟩, flush0_2 _, ?_⟩
    rw [mat_mem_blk0]
    obtain ⟨e0, e1, e2, e3, e4, e5⟩ := mat_idx_facts0 ⟨(i 0).val / 5000, by rw [hN]; omega⟩
    intro a
    match a with
    | ⟨0, _⟩ =>
      show win0_2.index _ (0 : Fin 2) * 5000 ≤ (i 0).val ∧ (i 0).val < win0_2.index _ (0 : Fin 2) * 5000 + 5000
      rw [e4]; show (i 0).val / 5000 * 5000 ≤ (i 0).val ∧ (i 0).val < (i 0).val / 5000 * 5000 + 5000; omega
    | ⟨1, _⟩ =>
      show win0_2.index _ (1 : Fin 2) * 64 ≤ (i 1).val ∧ (i 1).val < win0_2.index _ (1 : Fin 2) * 64 + 64
      rw [e5]; omega

end Cert.KernelIdeal.Val

end
-- ==== Proof.Val.Comb.lean ====
/-
  The output array of combine region 1 (the first layer's combine), as ONE function of the arrays the region finds, on
  the extended reals.

  The region runs over twenty grid points. Point t loads rows 5000·t … 5000·t + 4999 of the aggregate, of the linear term
  and of the one-column row factor, and the whole one-row bias, and stores over the same rows of the output
  max((agg + lin · factor) + bias, 0). Element (p, q) of the stored payload is that expression of the loaded blocks at
  (p, q), (p, 0) and (0, q) (k1_pay1_apply). Block element (p, q) of a row-blocked window is array element (5000·t + p, q),
  and the bias block is the bias array (comb1_blk0 … comb1_blk3, from the index maps decided over the grid, comb1_idx). So
  what point t writes back is block t of combineSpec of the four arrays (comb1_flushed); the twenty blocks cover the output,
  row r lying in the block of point r / 5000 (comb1_cover); hence the array after the run is combineSpec of the four arrays
  (reg1_value).
-/
import proofs.«404161_j48679159333670_1_alg».proof.Proof.KI.Reg1
import proofs.«404161_j48679159333670_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

/-! ## The payload at an index -/

/-- The first layer's combine payload at an index: the aggregate plus the linear term scaled by the row's factor, plus
    the column's bias, then the positive part. The same-shape casts are identities, the two broadcasts read row p of the
    one-column factor and column q of the one-row bias, and the scalar constant is zero. -/
theorem k1_pay1_apply (a l : Vec Ideal S5000x64 .f32) (d : Vec Ideal S5000x1 .f32) (b : Vec Ideal S1x64 .f32)
    (p : Fin 5000) (q : Fin 64) :
    Gen.k1_pay1 (F := Ideal) a l d b (ix2 p q)
      = max ((a (ix2 p q) + l (ix2 p q) * d (ix2 p 0)) + b (ix2 0 q)) 0 := by
  unfold Gen.k1_pay1
  rw [maximumf_apply, addf_apply, addf_apply, mulf_apply, broadcast_apply]
  rw [shapeCast_self, shapeCast_self, shapeCast_self, shapeCast_self]
  rw [broadcastTo_apply d _ (ix2 p q) (ix2 p 0) (by
        intro x; match x with
        | ⟨0, _⟩ => rfl
        | ⟨1, _⟩ => rfl)]
  rw [broadcastTo_apply b _ (ix2 p q) (ix2 0 q) (by
        intro x; match x with
        | ⟨0, _⟩ => rfl
        | ⟨1, _⟩ => rfl)]
  rw [show (Scalar.ofBits .f32 0x00000000#32 : Ideal .f32) = 0 from Ideal.ofBits_zero_f32]

variable (V : (c : Dev nD) → (b : Ref sig .tc) → Buf (Elt Ideal) ((c : Thread nD τ).loc b))

/-- The zero offsets of a whole-buffer access, as the constant function. -/
theorem comb1_hz : (![0, 0] : Fin 2 → Nat) = fun _ => 0 := funext fun a => by fin_cases a <;> rfl

/-! ## Combine region 1 -/

/-- The index maps of region 1 over its twenty points, decided: the four row-blocked windows sit at block row t, column
    block 0; the bias window stays at block (0, 0). -/
theorem comb1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point t is rows 5000·t … 5000·t + 4999 of its array. -/
theorem comb1_blk0 (c : Dev nD) (t : Fin cfg1.N) (p : Fin 5000) (q : Fin 64) (h : 5000 * t.val + p.val < 100000) :
    (Hand.iblk1 V c 0 t : Vec Ideal S5000x64 .f32) (ix2 p q)
      = (V c main_v41 : S100000x64.Idx → Elt Ideal .f32) (ix2 ⟨5000 * t.val + p.val, h⟩ q) := by
  obtain ⟨e0, e1, -⟩ := comb1_idx t
  unfold Hand.iblk1
  rw [View.read_apply]
  show V c main_v41 _ = V c main_v41 _
  congr 1
  funext a; apply Fin.ext
  match a with
  | ⟨0, _⟩ => show win1_0.index t (0 : Fin 2) * 5000 + 1 * p.val = 5000 * t.val + p.val; rw [e0]; omega
  | ⟨1, _⟩ => show win1_0.index t (1 : Fin 2) * 64 + 1 * q.val = q.val; rw [e1]; omega

/-- The linear term's block at point t is the same rows of its array. -/
theorem comb1_blk1 (c : Dev nD) (t : Fin cfg1.N) (p : Fin 5000) (q : Fin 64) (h : 5000 * t.val + p.val < 100000) :
    (Hand.iblk1 V c 1 t : Vec Ideal S5000x64 .f32) (ix2 p q)
      = (V c main_v29 : S100000x64.Idx → Elt Ideal .f32) (ix2 ⟨5000 * t.val + p.val, h⟩ q) := by
  obtain ⟨-, -, e0, e1, -⟩ := comb1_idx t
  unfold Hand.iblk1
  rw [View.read_apply]
  show V c main_v29 _ = V c main_v29 _
  congr 1
  funext a; apply Fin.ext
  match a with
  | ⟨0, _⟩ => show win1_1.index t (0 : Fin 2) * 5000 + 1 * p.val = 5000 * t.val + p.val; rw [e0]; omega
  | ⟨1, _⟩ => show win1_1.index t (1 : Fin 2) * 64 + 1 * q.val = q.val; rw [e1]; omega

/-- The row factor's block at point t is the same rows of the one-column array. -/
theorem comb1_blk2 (c : Dev nD) (t : Fin cfg1.N) (p : Fin 5000) (h : 5000 * t.val + p.val < 100000) :
    (Hand.iblk1 V c 2 t : Vec Ideal S5000x1 .f32) (ix2 p 0)
      = (V c main_v12 : S100000x1.Idx → Elt Ideal .f32) (ix2 ⟨5000 * t.val + p.val, h⟩ 0) := by
  obtain ⟨-, -, -, -, e0, e1, -⟩ := comb1_idx t
  unfold Hand.iblk1
  rw [View.read_apply]
  show V c main_v12 _ = V c main_v12 _
  congr 1
  funext a; apply Fin.ext
  match a with
  | ⟨0, _⟩ => show win1_2.index t (0 : Fin 2) * 5000 + 1 * p.val = 5000 * t.val + p.val; rw [e0]; omega
  | ⟨1, _⟩ => show win1_2.index t (1 : Fin 2) * 1 + 1 * 0 = 0; rw [e1]

/-- The bias window's block at every point is the whole one-row array. -/
theorem comb1_blk3 (c : Dev nD) (t : Fin cfg1.N) (q : Fin 64) :
    (Hand.iblk1 V c 3 t : Vec Ideal S1x64 .f32) (ix2 0 q)
      = (V c main_v42 : S1x64.Idx → Elt Ideal .f32) (ix2 0 q) := by
  obtain ⟨-, -, -, -, -, -, e0, e1, -⟩ := comb1_idx t
  unfold Hand.iblk1
  rw [View.read_apply]
  show V c main_v42 _ = V c main_v42 _
  congr 1
  funext a; apply Fin.ext
  match a with
  | ⟨0, _⟩ => show win1_3.index t (0 : Fin 2) * 1 + 1 * 0 = 0; rw [e0]
  | ⟨1, _⟩ => show win1_3.index t (1 : Fin 2) * 64 + 1 * q.val = q.val; rw [e1]; omega

/-- What point t writes back is block t of the combine of the four whole arrays: the one store covers the staging
    buffer with the payload of the four loaded blocks, and block element (p, q) sits at row 5000·t + p, column q. -/
theorem comb1_flushed (c : Dev nD) (t : Fin cfg1.N) :
    (Hand.dat1 V c).flushed 4 t = ((cfg1.win 4).blk t).view.read (Elt Ideal)
      (combineSpec (N := 100000) (C := 64) (V c main_v41) (V c main_v29) (V c main_v12) (V c main_v42)) := by
  show (cfg1.win 4).cut (grid1.coords t) ((Hand.dat1 V c).after 4 t) = _
  rw [Hand.after1_4]
  unfold Hand.out1_4
  rw [View.canon_unit_zero comb1_hz]
  simp only [View.ld_unit_zero (S := S5000x64) comb1_hz, View.ld_unit_zero (S := S5000x1) comb1_hz,
    View.ld_unit_zero (S := S1x64) comb1_hz]
  funext j
  obtain ⟨-, -, -, -, -, -, -, -, e0, e1⟩ := comb1_idx t
  have hN : t.val < 20 := lt_of_lt_of_eq t.isLt N_1
  have hj0 : (j 0).val < 5000 := (j 0).isLt
  have hj1 : (j 1).val < 64 := (j 1).isLt
  have hr : 5000 * t.val + (j 0).val < 100000 := by omega
  have hx : ((cfg1.win 4).xinj (grid1.coords t) j : S5000x64.Idx) = ix2 ⟨(j 0).val, hj0⟩ ⟨(j 1).val, hj1⟩ := by
    funext a
    match a with
    | ⟨0, _⟩ => rfl
    | ⟨1, _⟩ => rfl
  have hy : (((cfg1.win 4).blk t).view.emb j : S100000x64.Idx)
      = ix2 ⟨5000 * t.val + (j 0).val, hr⟩ ⟨(j 1).val, hj1⟩ := by
    funext a; apply Fin.ext
    match a with
    | ⟨0, _⟩ => show win1_4.index t (0 : Fin 2) * 5000 + 1 * (j 0).val = 5000 * t.val + (j 0).val; rw [e0]; omega
    | ⟨1, _⟩ => show win1_4.index t (1 : Fin 2) * 64 + 1 * (j 1).val = (j 1).val; rw [e1]; omega
  show Gen.k1_pay1 (F := Ideal) _ _ _ _ ((cfg1.win 4).xinj (grid1.coords t) j)
    = combineSpec _ _ _ _ (((cfg1.win 4).blk t).view.emb j)
  rw [hx, hy, k1_pay1_apply, combineSpec_apply, comb1_blk0 V c t ⟨(j 0).val, hj0⟩ ⟨(j 1).val, hj1⟩ hr,
    comb1_blk1 V c t ⟨(j 0).val, hj0⟩ ⟨(j 1).val, hj1⟩ hr, comb1_blk2 V c t ⟨(j 0).val, hj0⟩ hr,
    comb1_blk3 V c t ⟨(j 1).val, hj1⟩]

/-- Every row of the output array lies in the block of point row / 5000. -/
theorem comb1_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (b := 20) (by omega) N_1.symm⟩, rfl⟩
  obtain ⟨-, -, -, -, -, -, -, -, e0, e1⟩ := comb1_idx t
  refine ⟨t, flush1_4 t, ?_⟩
  show i ∈ ((View.whole main_v43).slice (win1_4.rect t)).set
  rw [View.set_slice_whole, Rect.mem_set_unit]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 64 ≤ (i 1).val ∧ (i 1).val < win1_4.index t (1 : Fin 2) * 64 + 64
    rw [e1]; omega

/-- The region's output array after the run is the combine of the four arrays as the region finds them. -/
theorem reg1_value (c : Dev nD) :
    (Hand.dat1 V c).arrAt 4 cfg1.N
      = combineSpec (N := 100000) (C := 64) (V c main_v41) (V c main_v29) (V c main_v12) (V c main_v42) :=
  (Hand.dat1 V c).arrAt_eq_of_cover 4 _ (fun t _ => comb1_flushed V c t) comb1_cover

end Cert.KernelIdeal.Val

end
-- ==== Proof.Val.Comb3.lean ====
/-
  The output array of combine region 3 (the second layer's combine), as ONE function of the arrays the region finds, on
  the extended reals.

  The region runs over twenty grid points. Point t loads rows 5000·t … 5000·t + 4999 of the aggregate, of the linear term
  and of the one-column row factor, and the whole one-row bias, and stores over the same rows of the output
  max((agg + lin · factor) + bias, 0). Element (p, q) of the stored payload is that expression of the loaded blocks at
  (p, q), (p, 0) and (0, q) (k3_pay1_apply). Block element (p, q) of a row-blocked window is array element (5000·t + p, q),
  and the bias block is the bias array (comb3_blk0 … comb3_blk3, from the index maps decided over the grid, comb3_idx). So
  what point t writes back is block t of combineSpec of the four arrays (comb3_flushed); the twenty blocks cover the output,
  row r lying in the block of point r / 5000 (comb3_cover); hence the array after the run is combineSpec of the four arrays
  (reg3_value).
-/
import proofs.«404161_j48679159333670_1_alg».proof.Proof.KI.Reg3
import proofs.«404161_j48679159333670_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

/-! ## The payload at an index -/

/-- The second layer's combine payload at an index: the aggregate plus the linear term scaled by the row's factor, plus
    the column's bias, then the positive part. The same-shape casts are identities, the two broadcasts read row p of the
    one-column factor and column q of the one-row bias, and the scalar constant is zero. -/
theorem k3_pay1_apply (a l : Vec Ideal S5000x64 .f32) (d : Vec Ideal S5000x1 .f32) (b : Vec Ideal S1x64 .f32)
    (p : Fin 5000) (q : Fin 64) :
    Gen.k3_pay1 (F := Ideal) a l d b (ix2 p q)
      = max ((a (ix2 p q) + l (ix2 p q) * d (ix2 p 0)) + b (ix2 0 q)) 0 := by
  unfold Gen.k3_pay1
  rw [maximumf_apply, addf_apply, addf_apply, mulf_apply, broadcast_apply]
  rw [shapeCast_self, shapeCast_self, shapeCast_self, shapeCast_self]
  rw [broadcastTo_apply d _ (ix2 p q) (ix2 p 0) (by
        intro x; match x with
        | ⟨0, _⟩ => rfl
        | ⟨1, _⟩ => rfl)]
  rw [broadcastTo_apply b _ (ix2 p q) (ix2 0 q) (by
        intro x; match x with
        | ⟨0, _⟩ => rfl
        | ⟨1, _⟩ => rfl)]
  rw [show (Scalar.ofBits .f32 0x00000000#32 : Ideal .f32) = 0 from Ideal.ofBits_zero_f32]

variable (V : (c : Dev nD) → (b : Ref sig .tc) → Buf (Elt Ideal) ((c : Thread nD τ).loc b))

/-- The zero offsets of a whole-buffer access, as the constant function. -/
theorem comb3_hz : (![0, 0] : Fin 2 → Nat) = fun _ => 0 := funext fun a => by fin_cases a <;> rfl

/-! ## Combine region 3 -/

/-- The index maps of region 3 over its twenty points, decided: the four row-blocked windows sit at block row t, column
    block 0; the bias window stays at block (0, 0). -/
theorem comb3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point t is rows 5000·t … 5000·t + 4999 of its array. -/
theorem comb3_blk0 (c : Dev nD) (t : Fin cfg3.N) (p : Fin 5000) (q : Fin 64) (h : 5000 * t.val + p.val < 100000) :
    (Hand.iblk3 V c 0 t : Vec Ideal S5000x64 .f32) (ix2 p q)
      = (V c main_v56 : S100000x64.Idx → Elt Ideal .f32) (ix2 ⟨5000 * t.val + p.val, h⟩ q) := by
  obtain ⟨e0, e1, -⟩ := comb3_idx t
  unfold Hand.iblk3
  rw [View.read_apply]
  show V c main_v56 _ = V c main_v56 _
  congr 1
  funext a; apply Fin.ext
  match a with
  | ⟨0, _⟩ => show win3_0.index t (0 : Fin 2) * 5000 + 1 * p.val = 5000 * t.val + p.val; rw [e0]; omega
  | ⟨1, _⟩ => show win3_0.index t (1 : Fin 2) * 64 + 1 * q.val = q.val; rw [e1]; omega

/-- The linear term's block at point t is the same rows of its array. -/
theorem comb3_blk1 (c : Dev nD) (t : Fin cfg3.N) (p : Fin 5000) (q : Fin 64) (h : 5000 * t.val + p.val < 100000) :
    (Hand.iblk3 V c 1 t : Vec Ideal S5000x64 .f32) (ix2 p q)
      = (V c main_v44 : S100000x64.Idx → Elt Ideal .f32) (ix2 ⟨5000 * t.val + p.val, h⟩ q) := by
  obtain ⟨-, -, e0, e1, -⟩ := comb3_idx t
  unfold Hand.iblk3
  rw [View.read_apply]
  show V c main_v44 _ = V c main_v44 _
  congr 1
  funext a; apply Fin.ext
  match a with
  | ⟨0, _⟩ => show win3_1.index t (0 : Fin 2) * 5000 + 1 * p.val = 5000 * t.val + p.val; rw [e0]; omega
  | ⟨1, _⟩ => show win3_1.index t (1 : Fin 2) * 64 + 1 * q.val = q.val; rw [e1]; omega

/-- The row factor's block at point t is the same rows of the one-column array. -/
theorem comb3_blk2 (c : Dev nD) (t : Fin cfg3.N) (p : Fin 5000) (h : 5000 * t.val + p.val < 100000) :
    (Hand.iblk3 V c 2 t : Vec Ideal S5000x1 .f32) (ix2 p 0)
      = (V c main_v12 : S100000x1.Idx → Elt Ideal .f32) (ix2 ⟨5000 * t.val + p.val, h⟩ 0) := by
  obtain ⟨-, -, -, -, e0, e1, -⟩ := comb3_idx t
  unfold Hand.iblk3
  rw [View.read_apply]
  show V c main_v12 _ = V c main_v12 _
  congr 1
  funext a; apply Fin.ext
  match a with
  | ⟨0, _⟩ => show win3_2.index t (0 : Fin 2) * 5000 + 1 * p.val = 5000 * t.val + p.val; rw [e0]; omega
  | ⟨1, _⟩ => show win3_2.index t (1 : Fin 2) * 1 + 1 * 0 = 0; rw [e1]

/-- The bias window's block at every point is the whole one-row array. -/
theorem comb3_blk3 (c : Dev nD) (t : Fin cfg3.N) (q : Fin 64) :
    (Hand.iblk3 V c 3 t : Vec Ideal S1x64 .f32) (ix2 0 q)
      = (V c main_v57 : S1x64.Idx → Elt Ideal .f32) (ix2 0 q) := by
  obtain ⟨-, -, -, -, -, -, e0, e1, -⟩ := comb3_idx t
  unfold Hand.iblk3
  rw [View.read_apply]
  show V c main_v57 _ = V c main_v57 _
  congr 1
  funext a; apply Fin.ext
  match a with
  | ⟨0, _⟩ => show win3_3.index t (0 : Fin 2) * 1 + 1 * 0 = 0; rw [e0]
  | ⟨1, _⟩ => show win3_3.index t (1 : Fin 2) * 64 + 1 * q.val = q.val; rw [e1]; omega

/-- What point t writes back is block t of the combine of the four whole arrays: the one store covers the staging
    buffer with the payload of the four loaded blocks, and block element (p, q) sits at row 5000·t + p, column q. -/
theorem comb3_flushed (c : Dev nD) (t : Fin cfg3.N) :
    (Hand.dat3 V c).flushed 4 t = ((cfg3.win 4).blk t).view.read (Elt Ideal)
      (combineSpec (N := 100000) (C := 64) (V c main_v56) (V c main_v44) (V c main_v12) (V c main_v57)) := by
  show (cfg3.win 4).cut (grid3.coords t) ((Hand.dat3 V c).after 4 t) = _
  rw [Hand.after3_4]
  unfold Hand.out3_4
  rw [View.canon_unit_zero comb3_hz]
  simp only [View.ld_unit_zero (S := S5000x64) comb3_hz, View.ld_unit_zero (S := S5000x1) comb3_hz,
    View.ld_unit_zero (S := S1x64) comb3_hz]
  funext j
  obtain ⟨-, -, -, -, -, -, -, -, e0, e1⟩ := comb3_idx t
  have hN : t.val < 20 := lt_of_lt_of_eq t.isLt N_3
  have hj0 : (j 0).val < 5000 := (j 0).isLt
  have hj1 : (j 1).val < 64 := (j 1).isLt
  have hr : 5000 * t.val + (j 0).val < 100000 := by omega
  have hx : ((cfg3.win 4).xinj (grid3.coords t) j : S5000x64.Idx) = ix2 ⟨(j 0).val, hj0⟩ ⟨(j 1).val, hj1⟩ := by
    funext a
    match a with
    | ⟨0, _⟩ => rfl
    | ⟨1, _⟩ => rfl
  have hy : (((cfg3.win 4).blk t).view.emb j : S100000x64.Idx)
      = ix2 ⟨5000 * t.val + (j 0).val, hr⟩ ⟨(j 1).val, hj1⟩ := by
    funext a; apply Fin.ext
    match a with
    | ⟨0, _⟩ => show win3_4.index t (0 : Fin 2) * 5000 + 1 * (j 0).val = 5000 * t.val + (j 0).val; rw [e0]; omega
    | ⟨1, _⟩ => show win3_4.index t (1 : Fin 2) * 64 + 1 * (j 1).val = (j 1).val; rw [e1]; omega
  show Gen.k3_pay1 (F := Ideal) _ _ _ _ ((cfg3.win 4).xinj (grid3.coords t) j)
    = combineSpec _ _ _ _ (((cfg3.win 4).blk t).view.emb j)
  rw [hx, hy, k3_pay1_apply, combineSpec_apply, comb3_blk0 V c t ⟨(j 0).val, hj0⟩ ⟨(j 1).val, hj1⟩ hr,
    comb3_blk1 V c t ⟨(j 0).val, hj0⟩ ⟨(j 1).val, hj1⟩ hr, comb3_blk2 V c t ⟨(j 0).val, hj0⟩ hr,
    comb3_blk3 V c t ⟨(j 1).val, hj1⟩]

/-- Every row of the output array lies in the block of point row / 5000. -/
theorem comb3_cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, lt_of_lt_of_eq (b := 20) (by omega) N_3.symm⟩, rfl⟩
  obtain ⟨-, -, -, -, -, -, -, -, e0, e1⟩ := comb3_idx t
  refine ⟨t, flush3_4 t, ?_⟩
  show i ∈ ((View.whole main_v58).slice (win3_4.rect t)).set
  rw [View.set_slice_whole, Rect.mem_set_unit]
  intro a
  match a with
  | ⟨0, _⟩ =>
    show win3_4.index t (0 : Fin 2) * 5000 ≤ (i 0).val ∧ (i 0).val < win3_4.index t (0 : Fin 2) * 5000 + 5000
    rw [e0, ht]; omega
  | ⟨1, _⟩ =>
    show win3_4.index t (1 : Fin 2) * 64 ≤ (i 1).val ∧ (i 1).val < win3_4.index t (1 : Fin 2) * 64 + 64
    rw [e1]; omega

/-- The region's output array after the run is the combine of the four arrays as the region finds them. -/
theorem reg3_value (c : Dev nD) :
    (Hand.dat3 V c).arrAt 4 cfg3.N
      = combineSpec (N := 100000) (C := 64) (V c main_v56) (V c main_v44) (V c main_v12) (V c main_v57) :=
  (Hand.dat3 V c).arrAt_eq_of_cover 4 _ (fun t _ => comb3_flushed V c t) comb3_cover

end Cert.KernelIdeal.Val

end
-- ==== Proof.Val.Comb5.lean ====
/-
  The output array of combine region 5 (the third layer's combine), as ONE function of the arrays the region finds, on
  the extended reals.

  The region runs over twenty grid points. Point t loads rows 5000·t … 5000·t + 4999 of the aggregate, of the linear term
  and of the one-column row factor, and the whole one-row bias, and stores over the same rows of the output
  max((agg + lin · factor) + bias, 0). Element (p, q) of the stored payload is that expression of the loaded blocks at
  (p, q), (p, 0) and (0, q) (k5_pay1_apply). Block element (p, q) of a row-blocked window is array element (5000·t + p, q),
  and the bias block is the bias array (comb5_blk0 … comb5_blk3, from the index maps decided over the grid, comb5_idx). So
  what point t writes back is block t of combineSpec of the four arrays (comb5_flushed); the twenty blocks cover the output,
  row r lying in the block of point r / 5000 (comb5_cover); hence the array after the run is combineSpec of the four arrays
  (reg5_value).
-/
import proofs.«404161_j48679159333670_1_alg».proof.Proof.KI.Reg5
import proofs.«404161_j48679159333670_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

/-! ## The payload at an index -/

/-- The third layer's combine payload at an index: the aggregate plus the linear term scaled by the row's factor, plus
    the column's bias, then the positive part. The same-shape casts are identities, the two broadcasts read row p of the
    one-column factor and column q of the one-row bias, and the scalar constant is zero. -/
theorem k5_pay1_apply (a l : Vec Ideal S5000x64 .f32) (d : Vec Ideal S5000x1 .f32) (b : Vec Ideal S1x64 .f32)
    (p : Fin 5000) (q : Fin 64) :
    Gen.k5_pay1 (F := Ideal) a l d b (ix2 p q)
      = max ((a (ix2 p q) + l (ix2 p q) * d (ix2 p 0)) + b (ix2 0 q)) 0 := by
  unfold Gen.k5_pay1
  rw [maximumf_apply, addf_apply, addf_apply, mulf_apply, broadcast_apply]
  rw [shapeCast_self, shapeCast_self, shapeCast_self, shapeCast_self]
  rw [broadcastTo_apply d _ (ix2 p q) (ix2 p 0) (by
        intro x; match x with
        | ⟨0, _⟩ => rfl
        | ⟨1, _⟩ => rfl)]
  rw [broadcastTo_apply b _ (ix2 p q) (ix2 0 q) (by
        intro x; match x with
        | ⟨0, _⟩ => rfl
        | ⟨1, _⟩ => rfl)]
  rw [show (Scalar.ofBits .f32 0x00000000#32 : Ideal .f32) = 0 from Ideal.ofBits_zero_f32]

variable (V : (c : Dev nD) → (b : Ref sig .tc) → Buf (Elt Ideal) ((c : Thread nD τ).loc b))

/-- The zero offsets of a whole-buffer access, as the constant function. -/
theorem comb5_hz : (![0, 0] : Fin 2 → Nat) = fun _ => 0 := funext fun a => by fin_cases a <;> rfl

/-! ## Combine region 5 -/

/-- The index maps of region 5 over its twenty points, decided: the four row-blocked windows sit at block row t, column
    block 0; the bias window stays at block (0, 0). -/
theorem comb5_idx : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The aggregate's block at point t is rows 5000·t … 5000·t + 4999 of its array. -/
theorem comb5_blk0 (c : Dev nD) (t : Fin cfg5.N) (p : Fin 5000) (q : Fin 64) (h : 5000 * t.val + p.val < 100000) :
    (Hand.iblk5 V c 0 t : Vec Ideal S5000x64 .f32) (ix2 p q)
      = (V c main_v71 : S100000x64.Idx → Elt Ideal .f32) (ix2 ⟨5000 * t.val + p.val, h⟩ q) := by
  obtain ⟨e0, e1, -⟩ := comb5_idx t
  unfold Hand.iblk5
  rw [View.read_apply]
  show V c main_v71 _ = V c main_v71 _
  congr 1
  funext a; apply Fin.ext
  match a with
  | ⟨0, _⟩ => show win5_0.index t (0 : Fin 2) * 5000 + 1 * p.val = 5000 * t.val + p.val; rw [e0]; omega
  | ⟨1, _⟩ => show win5_0.index t (1 : Fin 2) * 64 + 1 * q.val = q.val; rw [e1]; omega

/-- The linear term's block at point t is the same rows of its array. -/
theorem comb5_blk1 (c : Dev nD) (t : Fin cfg5.N) (p : Fin 5000) (q : Fin 64) (h : 5000 * t.val + p.val < 100000) :
    (Hand.iblk5 V c 1 t : Vec Ideal S5000x64 .f32) (ix2 p q)
      = (V c main_v59 : S100000x64.Idx → Elt Ideal .f32) (ix2 ⟨5000 * t.val + p.val, h⟩ q) := by
  obtain ⟨-, -, e0, e1, -⟩ := comb5_idx t
  unfold Hand.iblk5
  rw [View.read_apply]
  show V c main_v59 _ = V c main_v59 _
  congr 1
  funext a; apply Fin.ext
  match a with
  | ⟨0, _⟩ => show win5_1.index t (0 : Fin 2) * 5000 + 1 * p.val = 5000 * t.val + p.val; rw [e0]; omega
  | ⟨1, _⟩ => show win5_1.index t (1 : Fin 2) * 64 + 1 * q.val = q.val; rw [e1]; omega

/-- The row factor's block at point t is the same rows of the one-column array. -/
theorem comb5_blk2 (c : Dev nD) (t : Fin cfg5.N) (p : Fin 5000) (h : 5000 * t.val + p.val < 100000) :
    (Hand.iblk5 V c 2 t : Vec Ideal S5000x1 .f32) (ix2 p 0)
      = (V c main_v12 : S100000x1.Idx → Elt Ideal .f32) (ix2 ⟨5000 * t.val + p.val, h⟩ 0) := by
  obtain ⟨-, -, -, -, e0, e1, -⟩ := comb5_idx t
  unfold Hand.iblk5
  rw [View.read_apply]
  show V c main_v12 _ = V c main_v12 _
  congr 1
  funext a; apply Fin.ext
  match a with
  | ⟨0, _⟩ => show win5_2.index t (0 : Fin 2) * 5000 + 1 * p.val = 5000 * t.val + p.val; rw [e0]; omega
  | ⟨1, _⟩ => show win5_2.index t (1 : Fin 2) * 1 + 1 * 0 = 0; rw [e1]

/-- The bias window's block at every point is the whole one-row array. -/
theorem comb5_blk3 (c : Dev nD) (t : Fin cfg5.N) (q : Fin 64) :
    (Hand.iblk5 V c 3 t : Vec Ideal S1x64 .f32) (ix2 0 q)
      = (V c main_v72 : S1x64.Idx → Elt Ideal .f32) (ix2 0 q) := by
  obtain ⟨-, -, -, -, -, -, e0, e1, -⟩ := comb5_idx t
  unfold Hand.iblk5
  rw [View.read_apply]
  show V c main_v72 _ = V c main_v72 _
  congr 1
  funext a; apply Fin.ext
  match a with
  | ⟨0, _⟩ => show win5_3.index t (0 : Fin 2) * 1 + 1 * 0 = 0; rw [e0]
  | ⟨1, _⟩ => show win5_3.index t (1 : Fin 2) * 64 + 1 * q.val = q.val; rw [e1]; omega

/-- What point t writes back is block t of the combine of the four whole arrays: the one store covers the staging
    buffer with the payload of the four loaded blocks, and block element (p, q) sits at row 5000·t + p, column q. -/
theorem comb5_flushed (c : Dev nD) (t : Fin cfg5.N) :
    (Hand.dat5 V c).flushed 4 t = ((cfg5.win 4).blk t).view.read (Elt Ideal)
      (combineSpec (N := 100000) (C := 64) (V c main_v71) (V c main_v59) (V c main_v12) (V c main_v72)) := by
  show (cfg5.win 4).cut (grid5.coords t) ((Hand.dat5 V c).after 4 t) = _
  rw [Hand.after5_4]
  unfold Hand.out5_4
  rw [View.canon_unit_zero comb5_hz]
  simp only [View.ld_unit_zero (S := S5000x64) comb5_hz, View.ld_unit_zero (S := S5000x1) comb5_hz,
    View.ld_unit_zero (S := S1x64) comb5_hz]
  funext j
  obtain ⟨-, -, -, -, -, -, -, -, e0, e1⟩ := comb5_idx t
  have hN : t.val < 20 := lt_of_lt_of_eq t.isLt N_5
  have hj0 : (j 0).val < 5000 := (j 0).isLt
  have hj1 : (j 1).val < 64 := (j 1).isLt
  have hr : 5000 * t.val + (j 0).val < 100000 := by omega
  have hx : ((cfg5.win 4).xinj (grid5.coords t) j : S5000x64.Idx) = ix2 ⟨(j 0).val, hj0⟩ ⟨(j 1).val, hj1⟩ := by
    funext a
    match a with
    | ⟨0, _⟩ => rfl
    | ⟨1, _⟩ => rfl
  have hy : (((cfg5.win 4).blk t).view.emb j : S100000x64.Idx)
      = ix2 ⟨5000 * t.val + (j 0).val, hr⟩ ⟨(j 1).val, hj1⟩ := by
    funext a; apply Fin.ext
    match a with
    | ⟨0, _⟩ => show win5_4.index t (0 : Fin 2) * 5000 + 1 * (j 0).val = 5000 * t.val + (j 0).val; rw [e0]; omega
    | ⟨1, _⟩ => show win5_4.index t (1 : Fin 2) * 64 + 1 * (j 1).val = (j 1).val; rw [e1]; omega
  show Gen.k5_pay1 (F := Ideal) _ _ _ _ ((cfg5.win 4).xinj (grid5.coords t) j)
    = combineSpec _ _ _ _ (((cfg5.win 4).blk t).view.emb j)
  rw [hx, hy, k5_pay1_apply, combineSpec_apply, comb5_blk0 V c t ⟨(j 0).val, hj0⟩ ⟨(j 1).val, hj1⟩ hr,
    comb5_blk1 V c t ⟨(j 0).val, hj0⟩ ⟨(j 1).val, hj1⟩ hr, comb5_blk2 V c t ⟨(j 0).val, hj0⟩ hr,
    comb5_blk3 V c t ⟨(j 1).val, hj1⟩]

/-- Every row of the output array lies in the block of point row / 5000. -/
theorem comb5_cover (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ : ∃ t : Fin cfg5.N, t.val = (i 0).val / 5000 :=
    ⟨⟨(i 0).val / 5000, lt_of_lt_of_eq (b := 20) (by omega) N_5.symm⟩, rfl⟩
  obtain ⟨-, -, -, -, -, -, -, -, e0, e1⟩ := comb5_idx t
  refine ⟨t, flush5_4 t, ?_⟩
  show i ∈ ((View.whole main_v73).slice (win5_4.rect t)).set
  rw [View.set_slice_whole, Rect.mem_set_unit]
  intro a
  match a with
  | ⟨0, _⟩ =>
    show win5_4.index t (0 : Fin 2) * 5000 ≤ (i 0).val ∧ (i 0).val < win5_4.index t (0 : Fin 2) * 5000 + 5000
    rw [e0, ht]; omega
  | ⟨1, _⟩ =>
    show win5_4.index t (1 : Fin 2) * 64 ≤ (i 1).val ∧ (i 1).val < win5_4.index t (1 : Fin 2) * 64 + 64
    rw [e1]; omega

/-- The region's output array after the run is the combine of the four arrays as the region finds them. -/
theorem reg5_value (c : Dev nD) :
    (Hand.dat5 V c).arrAt 4 cfg5.N
      = combineSpec (N := 100000) (C := 64) (V c main_v71) (V c main_v59) (V c main_v12) (V c main_v72) :=
  (Hand.dat5 V c).arrAt_eq_of_cover 4 _ (fun t _ => comb5_flushed V c t) comb5_cover

end Cert.KernelIdeal.Val

end
-- ==== Proof.Val.Pool.lean ====
/-
  The value of the pooling region.

  Part 1: the kernel's two payloads read at an index. The reset payload is the zero block; the accumulate payload at
  (g, q) is the scratch there plus the sum, over the rows r of the point's block whose graph id is the word g, of
  h[r, q]: the one-hot matrix (the broadcast id column compared with the column number, widened and converted) has
  the real 1 at (r, g) exactly there, and the block product contracts the rows.

  Part 2: the accumulation. Block t's row y is row 5000 t + y of the array, so by induction on the point the scratch
  after point n holds the terms of the blocks 0 … n; the twenty blocks tile the 100000 rows (a bijection of
  Fin 20 × Fin 5000 with Fin 100000), a word is the word of g < 64 exactly when it reads signed as g, and 1 · x = x,
  0 · x = 0 hold for every extended real: the scratch after the last point is the pooled sums. The last point copies
  it to the output's one block, the only write-back, which covers the result array.
-/
import proofs.«404161_j48679159333670_1_alg».proof.Proof.KI.Reg6
import proofs.«404161_j48679159333670_1_alg».proof.Proof.Val.Spec
import Idealize.ShloMosaic.Lib.Pipeline.Value
import Idealize.ShloMosaic.Lib.ValueIdx
import Idealize.ShloMosaic.PureOps.Ideal.Laws

noncomputable section

open scoped BigOperators

namespace Cert.KernelIdeal.Val

open Idealize.ShloMosaic Idealize.ShloMosaic.TcCoe Idealize.ShloMosaic.ValueIdx Cert.KernelIdeal Cert.KernelIdeal.Gen
open Idealize.SL.Sem
open Idealize.ShloMosaic.Pipeline (Dat)

/-! ## The payloads of the pooling kernel, read at an index -/

/-- The reset payload is the zero block. -/
theorem k6_pay1_apply (i : S64x64.Idx) : Gen.k6_pay1 (F := Ideal) i = 0 := by
  unfold Gen.k6_pay1
  rw [shapeCast_self]
  show Ideal.ofBits .f32 0x00000000#32 = 0
  exact Ideal.ofBits_zero_f32

namespace Pool

/-- The block product contracts axis 0 of both operands: its left operand is read at (k, g), -/
theorem lhs_pool_0 (i : S64x64.Idx) (q : dot_S5000x64_S5000x64_S64x64_0_0_1_1_n_n.contr.Idx) :
    (dot_S5000x64_S5000x64_S64x64_0_0_1_1_n_n.lhsIdx i q 0).val = (q ⟨0, by decide⟩).val :=
  dot_S5000x64_S5000x64_S64x64_0_0_1_1_n_n.lhsIdx_val_of_single rfl i q
theorem lhs_pool_1 (i : S64x64.Idx) (q : dot_S5000x64_S5000x64_S64x64_0_0_1_1_n_n.contr.Idx) :
    (dot_S5000x64_S5000x64_S64x64_0_0_1_1_n_n.lhsIdx i q 1).val = (i 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl
/-- and its right operand at (k, c). -/
theorem rhs_pool_0 (i : S64x64.Idx) (q : dot_S5000x64_S5000x64_S64x64_0_0_1_1_n_n.contr.Idx) :
    (dot_S5000x64_S5000x64_S64x64_0_0_1_1_n_n.rhsIdx i q 0).val = (q ⟨0, by decide⟩).val :=
  dot_S5000x64_S5000x64_S64x64_0_0_1_1_n_n.rhsIdx_val_of_single rfl i q
theorem rhs_pool_1 (i : S64x64.Idx) (q : dot_S5000x64_S5000x64_S64x64_0_0_1_1_n_n.contr.Idx) :
    (dot_S5000x64_S5000x64_S64x64_0_0_1_1_n_n.rhsIdx i q 1).val = (i 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

/-- A condition bit widened to a word and converted signed is the real 1 where the bit is set, 0 where it is clear. -/
theorem sitofp_bit (p : Bool) :
    (FloatOps.sitofp (F := Ideal) .f32 ((BitVec.ofBool p).setWidth 32) : EReal) = if p then 1 else 0 := by
  cases p
  · show ((((0#32 : BitVec 32).toInt : ℤ) : ℝ) : EReal) = 0
    simp
  · show ((((1#32 : BitVec 32).toInt : ℤ) : ℝ) : EReal) = 1
    simp

/-- The one-hot matrix at (r, g): 1 where row r's graph id is the word g, else 0. -/
theorem onehot_apply (bt : Vec Ideal S5000x1 .i32) (r : Fin 5000) (g : Fin 64) :
    (sitofp .f32 (extui 32 (cmpi .eq (broadcastTo S5000x64 bt broadcasts_S5000x1_S5000x64)
        (iota .tc S5000x64 32 [1] iota_S5000x64_d1_w32)) natLt_1_32) : FVec Ideal S5000x64 .f32) (ix2 r g)
      = if bt (ix2 r 0) = BitVec.ofNat 32 g.val then (1 : EReal) else 0 := by
  rw [sitofp_apply, extui_apply]
  show FloatOps.sitofp .f32 ((BitVec.ofBool (broadcastTo S5000x64 bt broadcasts_S5000x1_S5000x64 (ix2 r g)
      == iota .tc S5000x64 32 [1] iota_S5000x64_d1_w32 (ix2 r g))).setWidth 32) = _
  rw [sitofp_bit, iota_single_apply,
    broadcastTo_apply bt broadcasts_S5000x1_S5000x64 (ix2 r g) (ix2 r 0) (fun a => match a with
      | ⟨0, _⟩ => by show r.val = if (5000 : Nat) = 1 then 0 else r.val; rw [if_neg (by decide)]
      | ⟨1, _⟩ => by show (0 : Nat) = if (1 : Nat) = 1 then 0 else g.val; rw [if_pos rfl])]
  show (if (bt (ix2 r 0) == BitVec.ofNat 32 g.val) = true then (1 : EReal) else 0) = _
  simp only [beq_iff_eq]

end Pool

open Pool

/-- The accumulate payload at (g, c): the scratch there plus the rows of the block whose graph id is g, summed in column c. -/
theorem k6_pay2_apply (bt : Vec Ideal S5000x1 .i32) (acc : Vec Ideal S64x64 .f32) (h : Vec Ideal S5000x64 .f32) (g c : Fin 64) :
    Gen.k6_pay2 (F := Ideal) bt acc h (ix2 g c)
      = acc (ix2 g c) + ∑ r : Fin 5000, (if bt (ix2 r 0) = BitVec.ofNat 32 g.val then (1 : EReal) else 0) * h (ix2 r c) := by
  unfold Gen.k6_pay2
  simp only [shapeCast_self]
  rw [addf_apply]
  simp only [matmul]
  rw [Ideal.matmul_constant_zero_apply, ← Equiv.sum_comp (contrEquiv1 dot_S5000x64_S5000x64_S64x64_0_0_1_1_n_n 5000 rfl rfl).symm]
  congr 1
  refine Finset.sum_congr rfl fun r _ => ?_
  have hk := contrEquiv1_symm_val dot_S5000x64_S5000x64_S64x64_0_0_1_1_n_n 5000 rfl rfl r
  have el : dot_S5000x64_S5000x64_S64x64_0_0_1_1_n_n.lhsIdx (ix2 g c) ((contrEquiv1 dot_S5000x64_S5000x64_S64x64_0_0_1_1_n_n 5000 rfl rfl).symm r) = ix2 r g := funext fun a => Fin.ext (by
    match a with
    | ⟨0, _⟩ => exact (lhs_pool_0 _ _).trans hk
    | ⟨1, _⟩ => exact lhs_pool_1 _ _)
  have er : dot_S5000x64_S5000x64_S64x64_0_0_1_1_n_n.rhsIdx (ix2 g c) ((contrEquiv1 dot_S5000x64_S5000x64_S64x64_0_0_1_1_n_n 5000 rfl rfl).symm r) = ix2 r c := funext fun a => Fin.ext (by
    match a with
    | ⟨0, _⟩ => exact (rhs_pool_0 _ _).trans hk
    | ⟨1, _⟩ => exact rhs_pool_1 _ _)
  rw [el, er, onehot_apply]

variable (V : (c : Dev nD) → (b : Ref sig .tc) → Buf (Elt Ideal) ((c : Thread nD τ).loc b))

namespace Pool

/-! ## The blocks of the two input windows, read at an index -/

/-- The block index of each window at point t: the node rows' and the graph ids' blocks move down axis 0 with the point; -/
theorem index6_0 : ∀ t : Fin cfg6.N, win6_0.index t 0 = t.val ∧ win6_0.index t 1 = 0 :=
  (by decide +kernel : ∀ t : Fin grid6.N, win6_0.index t 0 = t.val ∧ win6_0.index t 1 = 0)
theorem index6_1 : ∀ t : Fin cfg6.N, win6_1.index t 0 = t.val ∧ win6_1.index t 1 = 0 :=
  (by decide +kernel : ∀ t : Fin grid6.N, win6_1.index t 0 = t.val ∧ win6_1.index t 1 = 0)
/-- the output's one block never moves. -/
theorem index6_2 : ∀ t : Fin cfg6.N, win6_2.index t 0 = 0 ∧ win6_2.index t 1 = 0 :=
  (by decide +kernel : ∀ t : Fin grid6.N, win6_2.index t 0 = 0 ∧ win6_2.index t 1 = 0)

/-- Row r of the node array at column q, as a function of a natural number (zero past the array's end), -/
def hRow (H : S100000x64.Idx → EReal) (r : ℕ) (q : Fin 64) : EReal := if hr : r < 100000 then H (ix2 ⟨r, hr⟩ q) else 0
/-- and row r's graph id. -/
def bRow (B : IVec S100000x1 32) (r : ℕ) : BitVec 32 := if hr : r < 100000 then B (ix2 ⟨r, hr⟩ 0) else 0#32

/-- Block t of the node array: its row y is the array's row 5000 t + y. -/
theorem iblk6_0_apply (c : Dev nD) (t : Fin cfg6.N) (y : Fin 5000) (q : Fin 64) :
    (Hand.iblk6 V c 0 t : Vec Ideal S5000x64 .f32) (ix2 y q) = hRow (V c main_v73) (t.val * 5000 + y.val) q := by
  have hN : cfg6.N = 20 := N_6
  have hr : t.val * 5000 + y.val < 100000 := by have := t.isLt; have := y.isLt; omega
  unfold hRow
  rw [dif_pos hr]
  unfold Hand.iblk6
  rw [View.read_apply]
  show V c main_v73 _ = V c main_v73 _
  congr 1
  funext a
  apply Fin.ext
  match a with
  | ⟨0, _⟩ => show win6_0.index t 0 * 5000 + 1 * y.val = t.val * 5000 + y.val; rw [(index6_0 t).1]; omega
  | ⟨1, _⟩ => show win6_0.index t 1 * 64 + 1 * q.val = q.val; rw [(index6_0 t).2]; omega

/-- Block t of the graph ids likewise. -/
theorem iblk6_1_apply (c : Dev nD) (t : Fin cfg6.N) (y : Fin 5000) :
    (Hand.iblk6 V c 1 t : Vec Ideal S5000x1 .i32) (ix2 y 0) = bRow (V c main_v74) (t.val * 5000 + y.val) := by
  have hN : cfg6.N = 20 := N_6
  have hr : t.val * 5000 + y.val < 100000 := by have := t.isLt; have := y.isLt; omega
  unfold bRow
  rw [dif_pos hr]
  unfold Hand.iblk6
  rw [View.read_apply]
  show V c main_v74 _ = V c main_v74 _
  congr 1
  funext a
  apply Fin.ext
  match a with
  | ⟨0, _⟩ => show win6_1.index t 0 * 5000 + 1 * y.val = t.val * 5000 + y.val; rw [(index6_1 t).1]; omega
  | ⟨1, _⟩ => show win6_1.index t 1 * 1 + 1 * 0 = 0; rw [(index6_1 t).2]

/-! ## The accumulation over the grid -/

/-- A word is the word of a graph number g < 64 exactly when it reads, signed, as g. -/
theorem word_eq_iff (w : BitVec 32) (g : Fin 64) : w = BitVec.ofNat 32 g.val ↔ w.toInt = ((g.val : ℕ) : ℤ) := by
  have h1 : (BitVec.ofNat 32 g.val).toInt = ((g.val : ℕ) : ℤ) := by
    have := g.isLt
    have e : g.val % 2 ^ 32 = g.val := Nat.mod_eq_of_lt (by omega)
    rw [BitVec.toInt_eq_toNat_cond, BitVec.toNat_ofNat, e, if_pos (by omega)]
  exact ⟨fun h => h ▸ h1, fun h => BitVec.eq_of_toInt_eq (h.trans h1.symm)⟩

/-- What point t adds at (g, q): the rows of block t whose graph id is the word g, summed in column q. -/
def blockTerm (H : S100000x64.Idx → EReal) (B : IVec S100000x1 32) (t : ℕ) (g q : Fin 64) : EReal :=
  ∑ y : Fin 5000, (if bRow B (t * 5000 + y.val) = BitVec.ofNat 32 g.val then (1 : EReal) else 0) * hRow H (t * 5000 + y.val) q

/-- The twenty blocks tile the 100000 rows: their terms add up to the sum over the rows whose id reads as g. -/
theorem sum_blocks (H : S100000x64.Idx → EReal) (B : IVec S100000x1 32) (g q : Fin 64) :
    ∑ t ∈ Finset.range 20, blockTerm H B t g q = poolSpec H B (ix2 g q) := by
  rw [poolSpec_apply, Finset.sum_filter, ← Fin.sum_univ_eq_sum_range (fun t => blockTerm H B t g q) 20]
  unfold blockTerm
  rw [← Fintype.sum_prod_type (f := fun p : Fin 20 × Fin 5000 =>
    (if bRow B (p.1.val * 5000 + p.2.val) = BitVec.ofNat 32 g.val then (1 : EReal) else 0) * hRow H (p.1.val * 5000 + p.2.val) q)]
  refine Fintype.sum_equiv finProdFinEquiv _ _ fun p => ?_
  have hr : p.1.val * 5000 + p.2.val < 100000 := by have := p.1.isLt; have := p.2.isLt; omega
  have ep : (finProdFinEquiv p : Fin (20 * 5000)) = (⟨p.1.val * 5000 + p.2.val, hr⟩ : Fin 100000) :=
    Fin.ext (by show p.2.val + 5000 * p.1.val = p.1.val * 5000 + p.2.val; omega)
  rw [ep]
  unfold bRow hRow
  rw [dif_pos hr, dif_pos hr]
  by_cases hb : B (ix2 ⟨p.1.val * 5000 + p.2.val, hr⟩ 0) = BitVec.ofNat 32 g.val
  · rw [if_pos hb, if_pos ((word_eq_iff _ g).mp hb), one_mul]
  · rw [if_neg hb, if_neg (fun h => hb ((word_eq_iff _ g).mpr h)), zero_mul]

/-- The scratch after point n, at (g, q): the terms of the points 0 … n. The reset at point 0 puts the zero block
    under the first term; every later point adds its own onto what the point before left. -/
theorem scr6_apply (c : Dev nD) : ∀ (n : ℕ) (hn : n < cfg6.N) (g q : Fin 64),
    (Hand.outsAt6 V c n hn).2 (ix2 g q) = ∑ t ∈ Finset.range (n + 1), blockTerm (V c main_v73) (V c main_v74) t g q
  | 0, hn, g, q => by
    rw [Hand.scr6_zero, k6_pay2_apply, k6_pay1_apply, zero_add, Finset.sum_range_one]
    unfold blockTerm
    refine Finset.sum_congr rfl fun y _ => ?_
    rw [iblk6_1_apply, iblk6_0_apply]
  | n + 1, hn, g, q => by
    rw [Hand.scr6_succ, k6_pay2_apply, scr6_apply c n (Nat.lt_of_succ_lt hn) g q, Finset.sum_range_succ _ (n + 1)]
    congr 1
    unfold blockTerm
    refine Finset.sum_congr rfl fun y _ => ?_
    rw [iblk6_1_apply, iblk6_0_apply]

/-! ## The result array -/

/-- The last point, the one that writes the output's block back. -/
abbrev t19 : Fin cfg6.N := ⟨19, by decide⟩

/-- What the last point leaves in the output's buffer is the pooled sums. -/
theorem out_last (c : Dev nD) : (Hand.outsAt6 V c t19.val t19.isLt).1 = poolSpec (V c main_v73) (V c main_v74) := by
  rw [Hand.outsAt6_last]
  funext i
  obtain ⟨g, q, rfl⟩ : ∃ g q : Fin 64, i = ix2 g q := ⟨i 0, i 1, eq_ix2 i⟩
  rw [scr6_apply, sum_blocks]

/-- The one write-back writes them: the output's block (0, 0) read through zero offsets is the whole array. -/
theorem flushed6_eq (c : Dev nD) (t : Fin cfg6.N) (hf : (cfg6.win 2).flush t = true) :
    (Hand.dat6 V c).flushed 2 t = ((cfg6.win 2).blk t).view.read (Elt Ideal) (poolSpec (V c main_v73) (V c main_v74)) := by
  have hN : cfg6.N = 20 := N_6
  have h19 : t.val = 19 := by have := (flush6_2 t).mp hf; have := t.isLt; omega
  obtain rfl : t = t19 := Fin.ext h19
  show (cfg6.win 2).cut (grid6.coords t19) ((Hand.dat6 V c).after 2 t19) = _
  rw [Hand.after6_2, out_last]
  have hz' : (fun a => win6_2.index t19 a * main_v75.ty.shape.size a) = fun _ => 0 := funext fun a => by fin_cases a <;> decide +kernel
  exact (Memref.read_access_unit_zero (Elt Ideal) main_v75 hz' (fun a => by rw [congrFun hz' a]; simp) _).symm

end Pool

/-- So the region leaves the pooled sums in its result array: its one block covers it. -/
theorem reg6_value (c : Dev nD) : (Hand.dat6 V c).arrAt 2 cfg6.N = poolSpec (V c main_v73) (V c main_v74) :=
  (Hand.dat6 V c).arrAt_eq_of_cover 2 (poolSpec (V c main_v73) (V c main_v74)) (flushed6_eq V c) fun i =>
    ⟨t19, (flush6_2 t19).mpr rfl, by
      show i ∈ ((View.whole main_v75).slice (win6_2.rect t19)).set
      rw [View.set_slice_whole, Rect.mem_set_unit]
      intro a
      have h0 : (i 0 : Nat) < 64 := (i 0).isLt
      have h1 : (i 1 : Nat) < 64 := (i 1).isLt
      match a with
      | ⟨0, _⟩ => show win6_2.index t19 0 * win6_2.size 0 ≤ (i 0 : Nat) ∧ (i 0 : Nat) < win6_2.index t19 0 * win6_2.size 0 + win6_2.xsize (grid6.coords t19) 0
                  rw [show win6_2.index t19 0 * win6_2.size 0 = 0 from by decide +kernel, show win6_2.xsize (grid6.coords t19) 0 = 64 from by decide +kernel]; omega
      | ⟨1, _⟩ => show win6_2.index t19 1 * win6_2.size 1 ≤ (i 1 : Nat) ∧ (i 1 : Nat) < win6_2.index t19 1 * win6_2.size 1 + win6_2.xsize (grid6.coords t19) 1
                  rw [show win6_2.index t19 1 * win6_2.size 1 = 0 from by decide +kernel, show win6_2.xsize (grid6.coords t19) 1 = 64 from by decide +kernel]; omega⟩

end Cert.KernelIdeal.Val

end
-- ==== Proof.Val.Head.lean ====
/-
  The value of the head region at the exact instance: the payload of its one store is headSpec of the six arrays it loads.

  The payload is read stage by stage as whole arrays: the quotient by the broadcast column max(cnts, 1) is headMean; a
  product into the zero array plus a broadcast row is headAffine, and its maximum with the zero array headAffineRelu; the
  last stage (subtract the broadcast row maximum, then the broadcast logarithm of the row's sum of exponentials) is
  headLogSoftmax. Each stage is proved at an index (r, q): a column broadcast reads (r, 0), a row broadcast reads (0, q), a
  vector cast to one column reads entry r, the product is the sum over the contraction coordinate, the row-wise
  maximum reduction from −∞ is the fold of max from ⊥ over the row and the row-wise sum reduction from 0 the row's sum.

  The reference's head is headSpec as well, of the pooled sums, the count vector as one column and the two bias vectors
  as rows: its stages are read at an index the same way; its row maximum is taken once more against ⊥, and max ⊥ m = m.

  The region has one grid point whose seven blocks are the whole arrays, so what its one write-back leaves in the result
  array is the payload of the six arrays the region was entered with.
-/
import proofs.«404161_j48679159333670_1_alg».proof.Proof.Gen.KernelIdeal.Skeleton
import proofs.«404161_j48679159333670_1_alg».proof.Proof.RefImports
import proofs.«404161_j48679159333670_1_alg».proof.Proof.KI.Reg7
import proofs.«404161_j48679159333670_1_alg».proof.Proof.Val.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KernelIdeal.Val

open Idealize.ShloMosaic Idealize.ShloMosaic.ValueIdx

/-! ## Layout operations and reductions at an index -/

section Layout
variable {α : Type}

/-- A vector of length a read as one column: entry (r, 0) is entry r. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) := by
  refine shapeCast_apply x h (ix2 r u) (ix1 r) ?_
  rw [Shape.rowMajor_val_one, Shape.rowMajor_val_two]
  show r.val = r.val * 1 + u.val
  have := u.isLt; omega

/-- One column broadcast over many: entry (p, c) is the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The source index over row r with column k inserted is (r, k). -/
theorem head_lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The exponential and the logarithm of an array, read at an index. -/
theorem vexp_apply {s : Shape} {φ : FTy} (a : FVec Ideal s φ) (i : s.Idx) : exp a i = Ideal.exp (a i) := rfl
theorem vlog_apply {s : Shape} {φ : FTy} (a : FVec Ideal s φ) (i : s.Idx) : log a i = Ideal.log (a i) := rfl

/-- The product of an [N, K] array and a [K, M] array accumulated into the zero array: entry (a, b) is the sum over c
    of A[a, c] · B[c, b]. -/
theorem matmul_plain_zero_apply {N K M : ℕ} {φ₁ φ₂ : FTy}
    (w : DotDims.WF ⟨2, ![N, K]⟩ ⟨2, ![K, M]⟩ ⟨2, ![N, M]⟩ [1] [0] [0] [1] [] [])
    (prec : Option ContractPrecision) (A : FVec Ideal ⟨2, ![N, K]⟩ φ₁) (B : FVec Ideal ⟨2, ![K, M]⟩ φ₂) (a : Fin N) (b : Fin M) :
    FloatOps.matmul (⟨[1], [0], [0], [1], [], [], w⟩ : DotDims _ _ _) prec A B (constant _ .f32 0x00000000#32) (ix2 a b)
      = ∑ c : Fin K, A (ix2 a c) * B (ix2 c b) := by
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![N, K]⟩ ⟨2, ![K, M]⟩ ⟨2, ![N, M]⟩) K rfl rfl c
  have l2 : (⟨[1], [0], [0], [1], [], [], w⟩ : DotDims ⟨2, ![N, K]⟩ ⟨2, ![K, M]⟩ ⟨2, ![N, M]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![N, K]⟩ ⟨2, ![K, M]⟩ ⟨2, ![N, M]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The bit pattern of −∞ denotes ⊥. -/
theorem ofBits_neg_inf_f32 : FloatOps.ofBits (F := Ideal) .f32 0xFF800000#32 = (⊥ : EReal) := by
  show Ideal.ofBits .f32 0xFF800000#32 = ⊥
  simp [Ideal.ofBits, Ideal.ieee]

/-- A row-wise maximum reduction from −∞ of an [m, n] array, at row r, is the row's maximum. -/
theorem multiReduction_maximumf_rows {m n : ℕ} (L : FVec Ideal ⟨2, ![m, n]⟩ .f32)
    (h : (⟨2, ![m, n]⟩ : Shape).Reduces [1] (⟨1, ![m]⟩ : Shape)) (hφ : FKind.Formats .f32)
    (hacc : (0xFF800000#32 : BitVec 32) = FKind.maximumf.neutral .f32 hφ) (r : Fin m) :
    multiReduction .maximumf [1] ⟨1, ![m]⟩ L 0xFF800000#32 h hφ hacc (ix1 r) = headRowMax L r := by
  rw [Ideal.multiReduction_maximumf_single, ofBits_neg_inf_f32]
  show (Finset.univ : Finset (Fin n)).fold max ⊥ (fun k => L (h.lift (ix1 r) k)) = _
  unfold headRowMax
  exact congrArg (fun f => Finset.fold max (⊥ : EReal) f (Finset.univ : Finset (Fin n)))
    (funext fun k => congrArg L (head_lift_row h r k))

/-- A row-wise sum reduction from zero of an [m, n] array, at row r, is the sum of the row's entries. -/
theorem multiReduction_add_rows {m n : ℕ} (L : FVec Ideal ⟨2, ![m, n]⟩ .f32)
    (h : (⟨2, ![m, n]⟩ : Shape).Reduces [1] (⟨1, ![m]⟩ : Shape)) (hφ : FKind.Formats .f32)
    (hacc : (0x00000000#32 : BitVec 32) = FKind.add.neutral .f32 hφ) (r : Fin m) :
    multiReduction .add [1] ⟨1, ![m]⟩ L 0x00000000#32 h hφ hacc (ix1 r) = ∑ k : Fin n, L (ix2 r k) := by
  rw [Ideal.multiReduction_add_single]
  show ∑ k : Fin n, L (h.lift (ix1 r) k) = _
  exact Finset.sum_congr rfl fun k _ => congrArg L (head_lift_row h r k)

/-! ## The stages as whole arrays -/

/-- The first stage: the quotient by the column max(cnts, 1) broadcast along the rows. -/
theorem head_mean_eq (x0 : FVec Ideal ⟨2, ![64, 64]⟩ .f32) (x1 : FVec Ideal ⟨2, ![64, 1]⟩ .f32)
    (h : (⟨2, ![64, 1]⟩ : Shape).Broadcasts ⟨2, ![64, 64]⟩) :
    divf x0 (broadcastTo ⟨2, ![64, 64]⟩ (maximumf x1 (broadcast ⟨2, ![64, 1]⟩ (FloatOps.ofBits (F := Ideal) .f32 0x3F800000#32))) h)
      = headMean x0 x1 := by
  funext i
  obtain ⟨r, k, rfl⟩ : ∃ (r k : Fin 64), i = ix2 r k := ⟨i 0, i 1, eq_ix2 i⟩
  rw [divf_apply, broadcastTo_a1_ab_apply, maximumf_apply, broadcast_apply, headMean_apply]
  show Ideal.div _ (max _ (Ideal.ofBits .f32 0x3F800000#32)) = _
  rw [Ideal.ofBits_one_f32]

/-- A product into the zero array plus a broadcast row. -/
theorem head_affine_eq {N K M : ℕ} (d : DotDims ⟨2, ![N, K]⟩ ⟨2, ![K, M]⟩ ⟨2, ![N, M]⟩)
    (w : DotDims.WF ⟨2, ![N, K]⟩ ⟨2, ![K, M]⟩ ⟨2, ![N, M]⟩ [1] [0] [0] [1] [] [])
    (hd : d = ⟨[1], [0], [0], [1], [], [], w⟩) (prec : Option ContractPrecision)
    (G : FVec Ideal ⟨2, ![N, K]⟩ .f32) (W : FVec Ideal ⟨2, ![K, M]⟩ .f32) (b : FVec Ideal ⟨2, ![1, M]⟩ .f32)
    (h : (⟨2, ![1, M]⟩ : Shape).Broadcasts ⟨2, ![N, M]⟩) :
    addf (matmul d prec G W (constant ⟨2, ![N, M]⟩ .f32 0x00000000#32)) (broadcastTo ⟨2, ![N, M]⟩ b h) = headAffine G W b := by
  subst hd
  funext i
  obtain ⟨r, q, rfl⟩ : ∃ (r : Fin N) (q : Fin M), i = ix2 r q := ⟨i 0, i 1, eq_ix2 i⟩
  rw [addf_apply, broadcastTo_1b_ab_apply]
  show FloatOps.matmul _ prec G W _ (ix2 r q) + _ = _
  rw [matmul_plain_zero_apply]
  rfl

/-- The same followed by the maximum with the zero array. -/
theorem head_affineRelu_eq {N K M : ℕ} (d : DotDims ⟨2, ![N, K]⟩ ⟨2, ![K, M]⟩ ⟨2, ![N, M]⟩)
    (w : DotDims.WF ⟨2, ![N, K]⟩ ⟨2, ![K, M]⟩ ⟨2, ![N, M]⟩ [1] [0] [0] [1] [] [])
    (hd : d = ⟨[1], [0], [0], [1], [], [], w⟩) (prec : Option ContractPrecision)
    (G : FVec Ideal ⟨2, ![N, K]⟩ .f32) (W : FVec Ideal ⟨2, ![K, M]⟩ .f32) (b : FVec Ideal ⟨2, ![1, M]⟩ .f32)
    (h : (⟨2, ![1, M]⟩ : Shape).Broadcasts ⟨2, ![N, M]⟩) :
    maximumf (addf (matmul d prec G W (constant ⟨2, ![N, M]⟩ .f32 0x00000000#32)) (broadcastTo ⟨2, ![N, M]⟩ b h))
        (broadcast ⟨2, ![N, M]⟩ (FloatOps.ofBits (F := Ideal) .f32 0x00000000#32))
      = headAffineRelu G W b := by
  rw [head_affine_eq d w hd]
  funext i
  rw [maximumf_apply, broadcast_apply]
  show max _ (Ideal.ofBits .f32 0x00000000#32) = _
  rw [Ideal.ofBits_zero_f32]
  rfl

/-- The last stage: subtract the row maximum, then the logarithm of the row's sum of exponentials. -/
theorem head_logSoftmax_eq {N M : ℕ} (L : FVec Ideal ⟨2, ![N, M]⟩ .f32)
    (hr : (⟨2, ![N, M]⟩ : Shape).Reduces [1] (⟨1, ![N]⟩ : Shape)) (hφ hφ' : FKind.Formats .f32)
    (hmax : (0xFF800000#32 : BitVec 32) = FKind.maximumf.neutral .f32 hφ)
    (hadd : (0x00000000#32 : BitVec 32) = FKind.add.neutral .f32 hφ')
    (hsc : (⟨1, ![N]⟩ : Shape).ShapeCasts ⟨2, ![N, 1]⟩) (hb : (⟨2, ![N, 1]⟩ : Shape).Broadcasts ⟨2, ![N, M]⟩) :
    subf (subf L (broadcastTo ⟨2, ![N, M]⟩ (shapeCast ⟨2, ![N, 1]⟩ (multiReduction .maximumf [1] ⟨1, ![N]⟩ L 0xFF800000#32 hr hφ hmax) hsc) hb))
        (broadcastTo ⟨2, ![N, M]⟩ (log (shapeCast ⟨2, ![N, 1]⟩ (multiReduction .add [1] ⟨1, ![N]⟩
          (exp (subf L (broadcastTo ⟨2, ![N, M]⟩ (shapeCast ⟨2, ![N, 1]⟩ (multiReduction .maximumf [1] ⟨1, ![N]⟩ L 0xFF800000#32 hr hφ hmax) hsc) hb)))
          0x00000000#32 hr hφ' hadd) hsc)) hb)
      = headLogSoftmax L := by
  have hsh : ∀ (r : Fin N) (q : Fin M),
      subf L (broadcastTo ⟨2, ![N, M]⟩ (shapeCast ⟨2, ![N, 1]⟩ (multiReduction .maximumf [1] ⟨1, ![N]⟩ L 0xFF800000#32 hr hφ hmax) hsc) hb) (ix2 r q)
        = L (ix2 r q) - headRowMax L r := fun r q => by
    rw [subf_apply, broadcastTo_a1_ab_apply, shapeCast_a_a1_apply, multiReduction_maximumf_rows]
  funext i
  obtain ⟨r, q, rfl⟩ : ∃ (r : Fin N) (q : Fin M), i = ix2 r q := ⟨i 0, i 1, eq_ix2 i⟩
  rw [subf_apply, hsh, broadcastTo_a1_ab_apply, vlog_apply, shapeCast_a_a1_apply, multiReduction_add_rows]
  simp only [vexp_apply, hsh]
  rfl

/-! ## The payload -/

/-- The payload of the head region's one store is headSpec of the six loaded arrays. -/
theorem k7_pay1_eq (x0 : Vec Ideal S64x64 .f32) (x1 : Vec Ideal S64x1 .f32) (x2 : Vec Ideal S64x32 .f32)
    (x3 : Vec Ideal S1x32 .f32) (x4 : Vec Ideal S32x16 .f32) (x5 : Vec Ideal S1x16 .f32) :
    Gen.k7_pay1 (F := Ideal) x0 x1 x2 x3 x4 x5 = headSpec x0 x1 x2 x3 x4 x5 := by
  unfold Gen.k7_pay1
  simp only [shapeCast_self]
  rw [head_mean_eq, head_affineRelu_eq dot_S64x64_S64x32_S64x32_1_0_0_1_n_n _ rfl, head_affine_eq dot_S64x32_S32x16_S64x16_1_0_0_1_n_n _ rfl]
  exact head_logSoftmax_eq (N := 64) (M := 16) (headAffine (headAffineRelu (headMean x0 x1) x2 x3) x4 x5) _ _ _ _ _ _ _

/-! ## The reference's head -/

/-- A vector of length n as one column and as one row. -/
def headCol {α : Type} {n : ℕ} (v : (⟨1, ![n]⟩ : Shape).Idx → α) : (⟨2, ![n, 1]⟩ : Shape).Idx → α :=
  fun i => v (ix1 ⟨(i 0).val, idx2_lt0 i⟩)
def headRow {α : Type} {n : ℕ} (v : (⟨1, ![n]⟩ : Shape).Idx → α) : (⟨2, ![1, n]⟩ : Shape).Idx → α :=
  fun i => v (ix1 ⟨(i 1).val, idx2_lt1 i⟩)

theorem headCol_apply {α : Type} {n : ℕ} (v : (⟨1, ![n]⟩ : Shape).Idx → α) (r : Fin n) (u : Fin 1) :
    headCol v (ix2 r u) = v (ix1 r) := rfl
theorem headRow_apply {α : Type} {n : ℕ} (v : (⟨1, ![n]⟩ : Shape).Idx → α) (u : Fin 1) (c : Fin n) :
    headRow v (ix2 u c) = v (ix1 c) := rfl

/-- The casts of a vector to one column and to one row are headCol and headRow of it. -/
theorem shapeCast_col_eq_headCol {α : Type} {n : ℕ} (v : (⟨1, ![n]⟩ : Shape).Idx → α)
    (h : (⟨1, ![n]⟩ : Shape).ShapeCasts ⟨2, ![n, 1]⟩) : shapeCast ⟨2, ![n, 1]⟩ v h = headCol v := by
  funext i
  obtain ⟨r, u, rfl⟩ : ∃ (r : Fin n) (u : Fin 1), i = ix2 r u := ⟨i 0, i 1, eq_ix2 i⟩
  rw [shapeCast_a_a1_apply, headCol_apply]
theorem shapeCast_row_eq_headRow {α : Type} {n : ℕ} (v : (⟨1, ![n]⟩ : Shape).Idx → α)
    (h : (⟨1, ![n]⟩ : Shape).ShapeCasts ⟨2, ![1, n]⟩) : shapeCast ⟨2, ![1, n]⟩ v h = headRow v := by
  funext i
  obtain ⟨u, c, rfl⟩ : ∃ (u : Fin 1) (c : Fin n), i = ix2 u c := ⟨i 0, i 1, eq_ix2 i⟩
  rw [shapeCast_a_1a_apply, headRow_apply]

/-- The host's row-wise maximum reduce of an [m, n] array from an initial value that is ⊥, at row r, is the row's maximum. -/
theorem hostReduce_maximumf_rows {m n : ℕ} {u : Shape} (L : FVec Ideal ⟨2, ![m, n]⟩ .f32) (init : u.Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < u.numel) (hinit : init (Shape.Idx.first hu) = (⊥ : EReal)) (r : Fin m) :
    Host.reduce FloatOps.maximumf L init h' hu (ix1 r) = headRowMax L r := by
  rw [Host.reduce_eq_fold_single FloatOps.maximumf L init h' h hu, hinit]
  show (Finset.univ : Finset (Fin n)).fold max ⊥ (fun k => L (h.lift (ix1 r) k)) = _
  unfold headRowMax
  exact congrArg (fun f => Finset.fold max (⊥ : EReal) f (Finset.univ : Finset (Fin n)))
    (funext fun k => congrArg L (head_lift_row h r k))

section Ref
open Cert.ReferenceIdeal.Read

variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S100000, .i32⟩ : BufTy).Contents (Elt Ideal))
  (x3 : (⟨Cert.ReferenceIdeal.S128x64, .f32⟩ : BufTy).Contents (Elt Ideal))
  (x4 : (⟨Cert.ReferenceIdeal.S64, .f32⟩ : BufTy).Contents (Elt Ideal))
  (x5 : (⟨Cert.ReferenceIdeal.S64x64, .f32⟩ : BufTy).Contents (Elt Ideal))
  (x6 : (⟨Cert.ReferenceIdeal.S64, .f32⟩ : BufTy).Contents (Elt Ideal))
  (x7 : (⟨Cert.ReferenceIdeal.S64x64, .f32⟩ : BufTy).Contents (Elt Ideal))
  (x8 : (⟨Cert.ReferenceIdeal.S64, .f32⟩ : BufTy).Contents (Elt Ideal))
  (x9 : (⟨Cert.ReferenceIdeal.S64x32, .f32⟩ : BufTy).Contents (Elt Ideal))
  (x10 : (⟨Cert.ReferenceIdeal.S32, .f32⟩ : BufTy).Contents (Elt Ideal))
  (x11 : (⟨Cert.ReferenceIdeal.S32x16, .f32⟩ : BufTy).Contents (Elt Ideal))
  (x12 : (⟨Cert.ReferenceIdeal.S16, .f32⟩ : BufTy).Contents (Elt Ideal))

/-- The reference's quotient by the broadcast counts, a count below one read as one. -/
theorem ref_mean_eq :
    val_main_v136 (F := Ideal) x0 x1 x2 x3 x4 x5 x6 x7 x8
      = headMean (val_main_v127 (F := Ideal) x0 x1 x2 x3 x4 x5 x6 x7 x8) (headCol (val_main_v131 (F := Ideal) x2)) := by
  funext i
  obtain ⟨r, k, rfl⟩ : ∃ (r k : Fin 64), i = ix2 r k := ⟨i 0, i 1, eq_ix2 i⟩
  have e : idx_main_v134 (idx_main_v135 (ix2 r k)) = ix1 r := funext fun a => match a with | ⟨0, _⟩ => rfl
  rw [val_main_v136_apply, val_main_v135_apply, val_main_v134_apply, e, val_main_v133_apply, val_main_v132_apply,
    val_main_cst_25_apply, headMean_apply, headCol_apply]
  show Ideal.div _ (max _ (Ideal.ofBits .f32 0x3F800000#32)) = _
  rw [Ideal.ofBits_one_f32]

/-- The reference's first layer. -/
theorem ref_hidden_eq :
    val_main_v141 (F := Ideal) x0 x1 x2 x3 x4 x5 x6 x7 x8 x9 x10
      = headAffineRelu (val_main_v136 (F := Ideal) x0 x1 x2 x3 x4 x5 x6 x7 x8) x9 (headRow x10) := by
  funext i
  obtain ⟨r, q, rfl⟩ : ∃ (r : Fin 64) (q : Fin 32), i = ix2 r q := ⟨i 0, i 1, eq_ix2 i⟩
  have el : ∀ k, lidx_main_v137 (ix2 r q) k = ix2 r k := fun k => Shape.idx_ext₂ rfl rfl
  have er : ∀ k, ridx_main_v137 (ix2 r q) k = ix2 k q := fun k => Shape.idx_ext₂ rfl rfl
  have eb : idx_main_v138 (idx_main_v139 (ix2 r q)) = ix1 q := funext fun a => match a with | ⟨0, _⟩ => rfl
  rw [val_main_v141_apply, val_main_v140_apply, val_main_v137_apply, val_main_v139_apply, val_main_v138_apply, eb,
    val_main_call3_v0_apply, val_main_call3_cst_apply, headAffineRelu_apply, headRow_apply]
  simp only [el, er]
  show max (_ + _) (Ideal.ofBits .f32 0x00000000#32) = _
  rw [Ideal.ofBits_zero_f32]

/-- The reference's second layer. -/
theorem ref_logits_eq :
    val_main_v145 (F := Ideal) x0 x1 x2 x3 x4 x5 x6 x7 x8 x9 x10 x11 x12
      = headAffine (val_main_v141 (F := Ideal) x0 x1 x2 x3 x4 x5 x6 x7 x8 x9 x10) x11 (headRow x12) := by
  funext i
  obtain ⟨r, q, rfl⟩ : ∃ (r : Fin 64) (q : Fin 16), i = ix2 r q := ⟨i 0, i 1, eq_ix2 i⟩
  have el : ∀ k, lidx_main_v142 (ix2 r q) k = ix2 r k := fun k => Shape.idx_ext₂ rfl rfl
  have er : ∀ k, ridx_main_v142 (ix2 r q) k = ix2 k q := fun k => Shape.idx_ext₂ rfl rfl
  have eb : idx_main_v143 (idx_main_v144 (ix2 r q)) = ix1 q := funext fun a => match a with | ⟨0, _⟩ => rfl
  rw [val_main_v145_apply, val_main_v142_apply, val_main_v144_apply, val_main_v143_apply, eb, headAffine_apply, headRow_apply]
  simp only [el, er]
  rfl

/-- The reference's log-softmax: its row maximum is taken once more against ⊥, which changes nothing. -/
theorem ref_logSoftmax_eq :
    val_main_v146 (F := Ideal) x0 x1 x2 x3 x4 x5 x6 x7 x8 x9 x10 x11 x12
      = headLogSoftmax (val_main_v145 (F := Ideal) x0 x1 x2 x3 x4 x5 x6 x7 x8 x9 x10 x11 x12) := by
  have hm : ∀ r : Fin 64, val_main_call4_v2 (F := Ideal) x0 x1 x2 x3 x4 x5 x6 x7 x8 x9 x10 x11 x12 (ix1 r)
      = headRowMax (val_main_v145 (F := Ideal) x0 x1 x2 x3 x4 x5 x6 x7 x8 x9 x10 x11 x12) r := fun r => by
    rw [val_main_call4_v2_apply, val_main_call4_v1_apply, val_main_call4_cst_0_apply]
    unfold val_main_call4_v0
    rw [hostReduce_maximumf_rows _ _ _ (by decide) _ ofBits_neg_inf_f32 r, ofBits_neg_inf_f32]
    exact max_eq_right bot_le
  have h5 : ∀ (r : Fin 64) (q : Fin 16), val_main_call4_v5 (F := Ideal) x0 x1 x2 x3 x4 x5 x6 x7 x8 x9 x10 x11 x12 (ix2 r q)
      = val_main_v145 (F := Ideal) x0 x1 x2 x3 x4 x5 x6 x7 x8 x9 x10 x11 x12 (ix2 r q)
        - headRowMax (val_main_v145 (F := Ideal) x0 x1 x2 x3 x4 x5 x6 x7 x8 x9 x10 x11 x12) r := fun r q => by
    have e : idx_main_call4_v3 (idx_main_call4_v4 (ix2 r q)) = ix1 r := funext fun a => match a with | ⟨0, _⟩ => rfl
    rw [val_main_call4_v5_apply, val_main_call4_v4_apply, val_main_call4_v3_apply, e, hm]
    rfl
  funext i
  obtain ⟨r, q, rfl⟩ : ∃ (r : Fin 64) (q : Fin 16), i = ix2 r q := ⟨i 0, i 1, eq_ix2 i⟩
  have e8 : idx_main_call4_v8 (idx_main_call4_v10 (ix2 r q)) = ix1 r := funext fun a => match a with | ⟨0, _⟩ => rfl
  have e7 : ∀ k, idx_main_call4_v7 (ix1 r) k = ix2 r k := fun k => Shape.idx_ext₂ rfl rfl
  rw [val_main_v146_apply, h5, val_main_call4_v10_apply, val_main_call4_v9_apply, val_main_call4_v8_apply, e8,
    val_main_call4_v7_apply, val_main_call4_cst_1_apply, headLogSoftmax_apply]
  simp only [e7, val_main_call4_v6_apply, h5]
  rw [Ideal.subf_def, Ideal.hostUnary_log_def, Ideal.ofBits_def, Ideal.ofBits_zero_f32, zero_add]
  simp only [Ideal.hostUnary_exp_def]

/-- The reference's head is headSpec of the pooled sums, the counts as one column, and the two bias vectors as rows. -/
theorem ref_head_eq :
    val_main_v146 (F := Ideal) x0 x1 x2 x3 x4 x5 x6 x7 x8 x9 x10 x11 x12
      = headSpec (val_main_v127 (F := Ideal) x0 x1 x2 x3 x4 x5 x6 x7 x8) (headCol (val_main_v131 (F := Ideal) x2))
          x9 (headRow x10) x11 (headRow x12) := by
  rw [ref_logSoftmax_eq, ref_logits_eq, ref_hidden_eq, ref_mean_eq]
  rfl

end Ref

/-! ## The head region's result array -/

section Reg7

open Idealize.ShloMosaic.TcCoe Cert.KernelIdeal Cert.KernelIdeal.Gen Idealize.SL.Sem
open Idealize.ShloMosaic.Pipeline (Dat)

variable {F : FTy → Type} [FloatOps F]
variable (V : (c : Dev nD) → (b : Ref sig .tc) → Buf (Elt F) ((c : Thread nD τ).loc b))

/-- The zero offsets of a rank-2 rectangle. -/
theorem head_offsets_zero : (![0, 0] : Fin 2 → Nat) = fun _ => 0 := funext fun a => by fin_cases a <;> rfl

/-- One store over the whole buffer, of a payload computed from whole-buffer loads, leaves the payload of the buffers'
    contents. -/
theorem out7_6_eq (x0 : Vec F S64x64 .f32) (x1 : Vec F S64x1 .f32) (x2 : Vec F S64x32 .f32) (x3 : Vec F S1x32 .f32)
    (x4 : Vec F S32x16 .f32) (x5 : Vec F S1x16 .f32) : Hand.out7_6 x0 x1 x2 x3 x4 x5 = Gen.k7_pay1 x0 x1 x2 x3 x4 x5 := by
  unfold Hand.out7_6
  rw [View.canon_unit_zero (Val := Elt F) head_offsets_zero, View.ld_unit_zero (Val := Elt F) head_offsets_zero,
    View.ld_unit_zero (Val := Elt F) head_offsets_zero, View.ld_unit_zero (Val := Elt F) head_offsets_zero,
    View.ld_unit_zero (Val := Elt F) head_offsets_zero, View.ld_unit_zero (Val := Elt F) head_offsets_zero,
    View.ld_unit_zero (Val := Elt F) head_offsets_zero]

/-! Each input window's block at the one grid point, block (0, 0) of the array's own sizes, is the whole array. -/
theorem iblk7_0_eq (c : Dev nD) (t : Fin cfg7.N) : Hand.iblk7 V c 0 t = V c main_v75 := by
  obtain rfl := fin_N7 t
  have hz' : (fun a => win7_0.index t7_0 a * main_v75.ty.shape.size a) = fun _ => 0 := funext fun a => by fin_cases a <;> decide +kernel
  exact Memref.read_access_unit_zero (Elt F) main_v75 hz' (fun a => by rw [congrFun hz' a]; simp) _
theorem iblk7_1_eq (c : Dev nD) (t : Fin cfg7.N) : Hand.iblk7 V c 1 t = V c main_v80 := by
  obtain rfl := fin_N7 t
  have hz' : (fun a => win7_1.index t7_0 a * main_v80.ty.shape.size a) = fun _ => 0 := funext fun a => by fin_cases a <;> decide +kernel
  exact Memref.read_access_unit_zero (Elt F) main_v80 hz' (fun a => by rw [congrFun hz' a]; simp) _
theorem iblk7_2_eq (c : Dev nD) (t : Fin cfg7.N) : Hand.iblk7 V c 2 t = V c main_arg9 := by
  obtain rfl := fin_N7 t
  have hz' : (fun a => win7_2.index t7_0 a * main_arg9.ty.shape.size a) = fun _ => 0 := funext fun a => by fin_cases a <;> decide +kernel
  exact Memref.read_access_unit_zero (Elt F) main_arg9 hz' (fun a => by rw [congrFun hz' a]; simp) _
theorem iblk7_3_eq (c : Dev nD) (t : Fin cfg7.N) : Hand.iblk7 V c 3 t = V c main_v81 := by
  obtain rfl := fin_N7 t
  have hz' : (fun a => win7_3.index t7_0 a * main_v81.ty.shape.size a) = fun _ => 0 := funext fun a => by fin_cases a <;> decide +kernel
  exact Memref.read_access_unit_zero (Elt F) main_v81 hz' (fun a => by rw [congrFun hz' a]; simp) _
theorem iblk7_4_eq (c : Dev nD) (t : Fin cfg7.N) : Hand.iblk7 V c 4 t = V c main_arg11 := by
  obtain rfl := fin_N7 t
  have hz' : (fun a => win7_4.index t7_0 a * main_arg11.ty.shape.size a) = fun _ => 0 := funext fun a => by fin_cases a <;> decide +kernel
  exact Memref.read_access_unit_zero (Elt F) main_arg11 hz' (fun a => by rw [congrFun hz' a]; simp) _
theorem iblk7_5_eq (c : Dev nD) (t : Fin cfg7.N) : Hand.iblk7 V c 5 t = V c main_v82 := by
  obtain rfl := fin_N7 t
  have hz' : (fun a => win7_5.index t7_0 a * main_v82.ty.shape.size a) = fun _ => 0 := funext fun a => by fin_cases a <;> decide +kernel
  exact Memref.read_access_unit_zero (Elt F) main_v82 hz' (fun a => by rw [congrFun hz' a]; simp) _

/-- The one write-back writes the payload of the six whole arrays: the output's block is its whole array too. -/
theorem flushed7_eq (c : Dev nD) (t : Fin cfg7.N) :
    (Hand.dat7 V c).flushed 6 t = ((cfg7.win 6).blk t).view.read (Elt F)
      (Gen.k7_pay1 (V c main_v75) (V c main_v80) (V c main_arg9) (V c main_v81) (V c main_arg11) (V c main_v82)) := by
  obtain rfl := fin_N7 t
  show (cfg7.win 6).cut (grid7.coords t7_0) ((Hand.dat7 V c).after 6 t7_0) = _
  rw [Hand.after7_6, out7_6_eq, iblk7_0_eq, iblk7_1_eq, iblk7_2_eq, iblk7_3_eq, iblk7_4_eq, iblk7_5_eq]
  have hz' : (fun a => win7_6.index t7_0 a * main_v83.ty.shape.size a) = fun _ => 0 := funext fun a => by fin_cases a <;> decide +kernel
  exact (Memref.read_access_unit_zero (Elt F) main_v83 hz' (fun a => by rw [congrFun hz' a]; simp) _).symm

/-- So the region leaves, in its result array, the payload of the six arrays it was entered with: the one block covers
    the array. Stated at any float instance. -/
theorem reg7_payload (c : Dev nD) :
    (Hand.dat7 V c).arrAt 6 cfg7.N
      = Gen.k7_pay1 (V c main_v75) (V c main_v80) (V c main_arg9) (V c main_v81) (V c main_arg11) (V c main_v82) :=
  (Hand.dat7 V c).arrAt_eq_of_cover 6 _ (fun t _ => flushed7_eq V c t) fun i =>
    ⟨t7_0, flush7_6 t7_0, by
      show i ∈ ((View.whole main_v83).slice (win7_6.rect t7_0)).set
      rw [View.set_slice_whole, Rect.mem_set_unit]
      intro a
      have h0 : (i 0 : Nat) < 64 := (i 0).isLt
      have h1 : (i 1 : Nat) < 16 := (i 1).isLt
      match a with
      | ⟨0, _⟩ =>
        show win7_6.index t7_0 0 * win7_6.size 0 ≤ (i 0 : Nat) ∧ (i 0 : Nat) < win7_6.index t7_0 0 * win7_6.size 0 + win7_6.xsize (grid7.coords t7_0) 0
        rw [show win7_6.index t7_0 0 * win7_6.size 0 = 0 from by decide +kernel, show win7_6.xsize (grid7.coords t7_0) 0 = 64 from by decide +kernel]
        omega
      | ⟨1, _⟩ =>
        show win7_6.index t7_0 1 * win7_6.size 1 ≤ (i 1 : Nat) ∧ (i 1 : Nat) < win7_6.index t7_0 1 * win7_6.size 1 + win7_6.xsize (grid7.coords t7_0) 1
        rw [show win7_6.index t7_0 1 * win7_6.size 1 = 0 from by decide +kernel, show win7_6.xsize (grid7.coords t7_0) 1 = 16 from by decide +kernel]
        omega⟩

/-- At the exact instance. -/
theorem reg7_value (V : (c : Dev nD) → (b : Ref sig .tc) → Buf (Elt Ideal) ((c : Thread nD τ).loc b)) (c : Dev nD) :
    (Hand.dat7 V c).arrAt 6 cfg7.N
      = Gen.k7_pay1 (F := Ideal) (V c main_v75) (V c main_v80) (V c main_arg9) (V c main_v81) (V c main_arg11) (V c main_v82) :=
  reg7_payload V c

end Reg7

end Cert.KernelIdeal.Val

end
-- ==== Proof.LibRowGatherScatter.lean ====
/-
  ROWS OF A TABLE, GATHERED AND SCATTER-ADDED, READ AT AN INDEX.

  For a table of shape [N, C] and E integer row indices (an [E, 1] array of words):

  * the row gather (dimension numbers: offset axis 1, collapsed axis 0, start index map [0], index vector on axis 1,
    slices of size [1, C]) has, at result position (e, j), the table's element at row idx[e, 0] — read as a signed
    integer and clamped into [0, N - 1] — and column j (gather_rows_apply);
  * the row scatter with an add body (window axis 1, inserted axis 0, scatter axis 0, index vector on axis 1) has, at
    the exact (extended-real) instance, at position (n, j) the operand's element plus the sum, over the rows e of the
    updates whose index idx[e, 0], read as a signed integer and NOT clamped, is exactly n, of upd[e, j]; a row whose
    index lies outside [0, N) contributes nowhere (scatterAdd_rows_apply);
  * both operations act column by column, so they commute with restricting every array to a block of columns
    c0, …, c0 + C' - 1 (gather_rows_cols, scatterAdd_rows_cols).
-/
import Idealize.ShloMosaic.Lib.ValueIdx
import Idealize.ShloMosaic.PureOps.Contract

noncomputable section

open scoped BigOperators

namespace Cert.LibRows

open Idealize.ShloMosaic Idealize.ShloMosaic.ValueIdx

/-! ## The row gather -/

section Gather
variable {α : Type}

/-- The row gather's dimension numbers for a table [N, C], start indices [E, 1] and result [E, C]; their conditions
    are decided on literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The conditions hold only of a table with at least one row: the size-1 slice must fit on axis 0. -/
theorem rowGather_pos {N E C : Nat}
    (wf : GatherDims.WF ⟨2, ![N, C]⟩ ⟨2, ![E, 1]⟩ ⟨2, ![E, C]⟩ [1] [0] [] [0] [] 1 ![1, C]) : 0 < N :=
  (rowGather N E C wf).slice_le 0

/-- THE ROW GATHER AT (e, j): the table at row idx[e, 0], read signed and clamped into [0, N - 1], and column j. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGather N E C wf) x idx (ix2 e j)
      = x (ix2 ⟨min (idx (ix2 e (0 : Fin 1))).toInt.toNat (N - 1), by omega⟩ j) := by
  have h10 : (1 : Fin 2) ∉ ([0] : List (Fin 2)) := by decide
  -- axis 0 is collapsed: no offset coordinate; its start is the clamped index
  have h0 : (rowGather N E C wf).start (ix2 e j) idx (0 : Fin 2) + (rowGather N E C wf).batchCoord (ix2 e j) (0 : Fin 2)
      + (rowGather N E C wf).offCoord (ix2 e j) (0 : Fin 2) = min (idx (ix2 e (0 : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e j) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1 is not indexed: its start is 0 and its offset coordinate the result's column
  have h1 : (rowGather N E C wf).start (ix2 e j) idx (1 : Fin 2) + (rowGather N E C wf).batchCoord (ix2 e j) (1 : Fin 2)
      + (rowGather N E C wf).offCoord (ix2 e j) (1 : Fin 2) = j.val := by
    have hs : (rowGather N E C wf).start (ix2 e j) idx (1 : Fin 2) = 0 := by
      unfold GatherDims.start
      rw [dif_neg (show (1 : Fin 2) ∉ (rowGather N E C wf).startIndexMap from h10)]
    have ho : (rowGather N E C wf).offCoord (ix2 e j) (1 : Fin 2) = j.val := by
      unfold GatherDims.offCoord
      rw [dif_pos (show (1 : Fin 2) ∈ (rowGather N E C wf).sKept from
        (GatherDims.mem_sKept _ _).mpr ⟨h10, List.not_mem_nil⟩)]
      rfl
    rw [GatherDims.batchCoord_eq_zero _ _ _ List.not_mem_nil, hs, ho]; omega
  unfold Host.gather
  congr 1
  funext a
  refine Fin.ext ?_
  match a with
  | ⟨0, _⟩ => exact h0
  | ⟨1, _⟩ => exact h1

end Gather

/-! ## The row scatter with an add body -/

section Scatter

/-- The row scatter's dimension numbers for an operand [N, C], scatter indices [E, 1] and updates [E, C]; their
    conditions are decided on literal shapes. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On axis 0 the window of update (e, j) starts at the index idx[e, 0], read signed. -/
theorem rowScatter_start0 (idx : IVec ⟨2, ![E, 1]⟩ w) (e : Fin E) (j : Fin C) :
    (rowScatter N E C wf).start (ix2 e j) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e j)
      ⟨List.idxOf (0 : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On axis 1, which no index names, it starts at 0. -/
theorem rowScatter_start1 (idx : IVec ⟨2, ![E, 1]⟩ w) (e : Fin E) (j : Fin C) :
    (rowScatter N E C wf).start (ix2 e j) idx (1 : Fin 2) = 0 := by
  unfold ScatterDims.start
  have h10 : (1 : Fin 2) ∉ ([0] : List (Fin 2)) := by decide
  rw [dif_neg (show (1 : Fin 2) ∉ (rowScatter N E C wf).scatterDimsToOperandDims from h10)]

/-- Axis 0 is an inserted axis: the window coordinate there is 0. -/
theorem rowScatter_window0 (e : Fin E) (j : Fin C) : (rowScatter N E C wf).window (ix2 e j) (0 : Fin 2) = 0 := by
  unfold ScatterDims.window
  rw [dif_neg (show (0 : Fin 2) ∉ (rowScatter N E C wf).sKept from by
    simp [ScatterDims.sKept, Shape.kept, List.mem_filter, List.mem_finRange])]

/-- On axis 1 the window coordinate is the update's column. -/
theorem rowScatter_window1 (e : Fin E) (j : Fin C) : (rowScatter N E C wf).window (ix2 e j) (1 : Fin 2) = j.val := by
  unfold ScatterDims.window
  rw [dif_pos (show (1 : Fin 2) ∈ (rowScatter N E C wf).sKept from by
    simp [ScatterDims.sKept, Shape.kept, List.mem_filter, List.mem_finRange])]
  rfl

/-- WHERE AN UPDATE LANDS: update (e, j') goes to operand position (n, j) exactly when its row index idx[e, 0], read
    signed, is n and j' = j. (An index outside [0, N) is no n : Fin N: that update lands nowhere.) -/
theorem rowScatter_resultIdx?_eq_some (idx : IVec ⟨2, ![E, 1]⟩ w) (e : Fin E) (j' : Fin C) (n : Fin N) (j : Fin C) :
    (rowScatter N E C wf).resultIdx? (ix2 e j') idx = some (ix2 n j)
      ↔ (idx (ix2 e (0 : Fin 1))).toInt = (n.val : ℤ) ∧ j' = j := by
  have hs0 := rowScatter_start0 wf idx e j'
  have hs1 := rowScatter_start1 wf idx e j'
  have hw0 := rowScatter_window0 wf e j'
  have hw1 := rowScatter_window1 wf e j'
  constructor
  · intro h
    unfold ScatterDims.resultIdx? at h
    split at h
    · rename_i hall
      have h' := Option.some.inj h
      have e0 : ((rowScatter N E C wf).start (ix2 e j') idx (0 : Fin 2)
          + ((rowScatter N E C wf).window (ix2 e j') (0 : Fin 2) : ℤ)).toNat = n.val :=
        congrArg (fun f => (f (0 : Fin 2)).val) h'
      have e1 : ((rowScatter N E C wf).start (ix2 e j') idx (1 : Fin 2)
          + ((rowScatter N E C wf).window (ix2 e j') (1 : Fin 2) : ℤ)).toNat = j.val :=
        congrArg (fun f => (f (1 : Fin 2)).val) h'
      have b0 := (hall (0 : Fin 2)).1
      rw [hs0, hw0] at e0 b0
      rw [hs1, hw1] at e1
      exact ⟨by omega, Fin.ext (by omega)⟩
    · exact absurd h (by simp)
  · rintro ⟨hn, rfl⟩
    unfold ScatterDims.resultIdx?
    have hall : ∀ a, 0 ≤ (rowScatter N E C wf).start (ix2 e j') idx a + ((rowScatter N E C wf).window (ix2 e j') a : ℤ)
        ∧ (rowScatter N E C wf).start (ix2 e j') idx a + ((rowScatter N E C wf).window (ix2 e j') a : ℤ)
          < (((⟨2, ![N, C]⟩ : Shape).size a : ℕ) : ℤ) := by
      intro a
      match a with
      | ⟨0, _⟩ =>
        show 0 ≤ (rowScatter N E C wf).start (ix2 e j') idx (0 : Fin 2)
            + ((rowScatter N E C wf).window (ix2 e j') (0 : Fin 2) : ℤ)
          ∧ (rowScatter N E C wf).start (ix2 e j') idx (0 : Fin 2)
            + ((rowScatter N E C wf).window (ix2 e j') (0 : Fin 2) : ℤ) < ((N : ℕ) : ℤ)
        rw [hs0, hw0, hn]; have := n.isLt; omega
      | ⟨1, _⟩ =>
        show 0 ≤ (rowScatter N E C wf).start (ix2 e j') idx (1 : Fin 2)
            + ((rowScatter N E C wf).window (ix2 e j') (1 : Fin 2) : ℤ)
          ∧ (rowScatter N E C wf).start (ix2 e j') idx (1 : Fin 2)
            + ((rowScatter N E C wf).window (ix2 e j') (1 : Fin 2) : ℤ) < ((C : ℕ) : ℤ)
        rw [hs1, hw1]; have := j'.isLt; omega
    rw [dif_pos hall]
    congr 1
    funext a
    refine Fin.ext ?_
    match a with
    | ⟨0, _⟩ =>
      show ((rowScatter N E C wf).start (ix2 e j') idx (0 : Fin 2)
          + ((rowScatter N E C wf).window (ix2 e j') (0 : Fin 2) : ℤ)).toNat = n.val
      rw [hs0, hw0, hn]; omega
    | ⟨1, _⟩ =>
      show ((rowScatter N E C wf).start (ix2 e j') idx (1 : Fin 2)
          + ((rowScatter N E C wf).window (ix2 e j') (1 : Fin 2) : ℤ)).toNat = j'.val
      rw [hs1, hw1]; omega

/-- THE ROW SCATTER-ADD AT (n, j), exact instance: the operand's element plus the sum of upd[e, j] over the update
    rows e whose index idx[e, 0], read signed and not clamped, is n. -/
theorem scatterAdd_rows_apply (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowScatter N E C wf) x idx upd (ix2 n j)
      = x (ix2 n j) + ∑ e ∈ Finset.univ.filter (fun e : Fin E => (idx (ix2 e (0 : Fin 1))).toInt = (n.val : ℤ)),
          upd (ix2 e j) := by
  unfold Ideal.hostScatterAdd
  congr 1
  -- the updates that land at (n, j) are the (e, j) with idx[e, 0] = n: re-index the sum by the row e
  refine Finset.sum_nbij' (fun u : (⟨2, ![E, C]⟩ : Shape).Idx => (u 0 : Fin E)) (fun e : Fin E => ix2 e j) ?_ ?_ ?_ ?_ ?_
  · intro u hu
    obtain ⟨e, j', rfl⟩ : ∃ (e : Fin E) (j' : Fin C), u = ix2 e j' := ⟨u 0, u 1, eq_ix2 u⟩
    exact Finset.mem_filter.mpr ⟨Finset.mem_univ _,
      ((rowScatter_resultIdx?_eq_some wf idx e j' n j).mp (Finset.mem_filter.mp hu).2).1⟩
  · intro e he
    exact Finset.mem_filter.mpr ⟨Finset.mem_univ _,
      (rowScatter_resultIdx?_eq_some wf idx e j n j).mpr ⟨(Finset.mem_filter.mp he).2, rfl⟩⟩
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl
  · intro e _
    rfl
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl

/-- The same of the host operation at the exact instance, for any float format. -/
theorem host_scatterAdd_rows_apply {φ : FTy} (x : FVec Ideal ⟨2, ![N, C]⟩ φ) (idx : IVec ⟨2, ![E, 1]⟩ w)
    (upd : FVec Ideal ⟨2, ![E, C]⟩ φ) (n : Fin N) (j : Fin C) :
    Host.scatterAdd (F := Ideal) (rowScatter N E C wf) x idx upd (ix2 n j)
      = x (ix2 n j) + ∑ e ∈ Finset.univ.filter (fun e : Fin E => (idx (ix2 e (0 : Fin 1))).toInt = (n.val : ℤ)),
          upd (ix2 e j) := by
  unfold Host.scatterAdd
  rw [Ideal.hostScatterAdd_def]
  exact scatterAdd_rows_apply wf x idx upd n j

end Scatter

/-! ## Restriction to a block of columns -/

section Cols

/-- The columns c0, …, c0 + C' - 1 of an [R, C] array, as an [R, C'] array. -/
def cols {α : Type} {R C C' : Nat} (c0 : Nat) (h : c0 + C' ≤ C) (X : (⟨2, ![R, C]⟩ : Shape).Idx → α) :
    (⟨2, ![R, C']⟩ : Shape).Idx → α :=
  fun i => X (ix2 ⟨(i 0).val, idx2_lt0 i⟩ ⟨c0 + (i 1).val, by have := idx2_lt1 i; omega⟩)

/-- Its element (r, c) is the array's element (r, c0 + c). -/
theorem cols_apply {α : Type} {R C C' : Nat} (c0 : Nat) (h : c0 + C' ≤ C) (X : (⟨2, ![R, C]⟩ : Shape).Idx → α)
    (r : Fin R) (c : Fin C') : cols c0 h X (ix2 r c) = X (ix2 r ⟨c0 + c.val, by omega⟩) := rfl

/-- THE ROW GATHER COMMUTES WITH TAKING COLUMNS: gathering rows of the column block is the column block of the
    gathered rows (the row chosen depends on the index only). -/
theorem gather_rows_cols {α : Type} {N E C C' w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (c0 : Nat) (h : c0 + C' ≤ C) (x : (⟨2, ![N, C]⟩ : Shape).Idx → α) (idx : IVec ⟨2, ![E, 1]⟩ w) :
    Host.gather (rowGather N E C' wf') (cols c0 h x) idx = cols c0 h (Host.gather (rowGather N E C wf) x idx) := by
  funext i
  obtain ⟨e, c, rfl⟩ : ∃ (e : Fin E) (c : Fin C'), i = ix2 e c := ⟨i 0, i 1, eq_ix2 i⟩
  rw [gather_rows_apply hN wf', cols_apply, cols_apply, gather_rows_apply hN wf]

/-- THE ROW SCATTER-ADD COMMUTES WITH TAKING COLUMNS (exact instance): column c0 + c of the result is made of column
    c0 + c of the operand and of the updates only. -/
theorem scatterAdd_rows_cols {φ : FTy} {N E C C' w : Nat}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (c0 : Nat) (h : c0 + C' ≤ C) (x : FVec Ideal ⟨2, ![N, C]⟩ φ) (idx : IVec ⟨2, ![E, 1]⟩ w)
    (upd : FVec Ideal ⟨2, ![E, C]⟩ φ) :
    Host.scatterAdd (F := Ideal) (rowScatter N E C' wf') (cols c0 h x) idx (cols c0 h upd)
      = cols c0 h (Host.scatterAdd (F := Ideal) (rowScatter N E C wf) x idx upd) := by
  funext i
  obtain ⟨n, c, rfl⟩ : ∃ (n : Fin N) (c : Fin C'), i = ix2 n c := ⟨i 0, i 1, eq_ix2 i⟩
  rw [host_scatterAdd_rows_apply wf', cols_apply, cols_apply, host_scatterAdd_rows_apply wf]
  rfl

end Cols

end Cert.LibRows

end
-- ==== Proof.Val.Ref.lean ====
/-
  THE REFERENCE'S STAGES AS WHOLE-ARRAY FUNCTIONS, on the extended reals.

  The reference computes three graph-convolution layers, each a matrix product followed by a combine step (the
  aggregated messages plus the node's own product row scaled by its squared inverse-root degree, plus the bias, then
  the positive part), and then sums the last layer's rows per graph. Read index by index at the exact instance, each
  of these stages is the corresponding whole-array function (mmSpec, combineSpec, poolSpec) of its operands:

  * the three products are mmSpec of their two operands;
  * the three combine results are combineSpec of the aggregate, the product, the squared scale column and the bias row;
  * the pooled array is poolSpec of the last layer and the graph-id column (the scatter's operand is the zero array);
  * the program's result is the last stage of this chain, as a function of the arguments.
-/
import proofs.«404161_j48679159333670_1_alg».proof.Proof.RefImports
import proofs.«404161_j48679159333670_1_alg».proof.Proof.Val.Spec
import proofs.«404161_j48679159333670_1_alg».proof.Proof.LibRowGatherScatter

noncomputable section

open scoped BigOperators

namespace Cert.ReferenceIdeal.RefValue

open Cert.ReferenceIdeal Cert.ReferenceIdeal.Gen Cert.ReferenceIdeal.Read Cert.KernelIdeal.Val Idealize.ShloMosaic
  Idealize.ShloMosaic.ValueIdx Idealize.ShloMosaic.TcCoe Idealize.SL.Sem Idealize.ShloMosaic.StableHlo

/-- A rank-2 index is determined by the values of its two coordinates. -/
theorem idx2_ext {n0 n1 : Nat} {j j' : (⟨2, ![n0, n1]⟩ : Shape).Idx} (h0 : (j 0).val = (j' 0).val)
    (h1 : (j 1).val = (j' 1).val) : j = j' := by
  funext a
  match a with
  | ⟨0, _⟩ => exact Fin.ext h0
  | ⟨1, _⟩ => exact Fin.ext h1

/-! ## The matrix products: entry (r, q) is the sum over k of left[r, k] · right[k, q] -/

/-- Layer 1's product of the node features and the first weight matrix. -/
theorem v11_eq (x0 : (⟨S100000x128, .f32⟩ : BufTy).Contents (Elt Ideal)) (x3 : (⟨S128x64, .f32⟩ : BufTy).Contents (Elt Ideal)) :
    val_main_v11 (F := Ideal) x0 x3 = mmSpec x0 x3 := by
  funext i
  obtain ⟨r, q, rfl⟩ : ∃ (r : Fin 100000) (q : Fin 64), i = ix2 r q := ⟨i 0, i 1, eq_ix2 i⟩
  rw [mmSpec_apply, val_main_v11_apply]
  refine Finset.sum_congr rfl fun k _ => ?_
  rw [show lidx_main_v11 (ix2 r q) k = ix2 r k from idx2_ext rfl rfl,
    show ridx_main_v11 (ix2 r q) k = ix2 k q from idx2_ext rfl rfl]

/-- Layer 2's product of layer 1's result and the second weight matrix. -/
theorem v49_eq (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) :
    val_main_v49 (F := Ideal) x0 x1 x3 x4 x5 = mmSpec (val_main_v48 (F := Ideal) x0 x1 x3 x4) x5 := by
  funext i
  obtain ⟨r, q, rfl⟩ : ∃ (r : Fin 100000) (q : Fin 64), i = ix2 r q := ⟨i 0, i 1, eq_ix2 i⟩
  rw [mmSpec_apply, val_main_v49_apply]
  refine Finset.sum_congr rfl fun k _ => ?_
  rw [show lidx_main_v49 (ix2 r q) k = ix2 r k from idx2_ext rfl rfl,
    show ridx_main_v49 (ix2 r q) k = ix2 k q from idx2_ext rfl rfl]

/-- Layer 3's product of layer 2's result and the third weight matrix. -/
theorem v87_eq (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v87 (F := Ideal) x0 x1 x3 x4 x5 x6 x7 = mmSpec (val_main_v86 (F := Ideal) x0 x1 x3 x4 x5 x6) x7 := by
  funext i
  obtain ⟨r, q, rfl⟩ : ∃ (r : Fin 100000) (q : Fin 64), i = ix2 r q := ⟨i 0, i 1, eq_ix2 i⟩
  rw [mmSpec_apply, val_main_v87_apply]
  refine Finset.sum_congr rfl fun k _ => ?_
  rw [show lidx_main_v87 (ix2 r q) k = ix2 r k from idx2_ext rfl rfl,
    show ridx_main_v87 (ix2 r q) k = ix2 k q from idx2_ext rfl rfl]

/-! ## The combine steps: entry (r, q) is max((agg[r, q] + lin[r, q] · d2[r, 0]) + b[0, q], 0)

  The scale column and the bias row reach the entry through two broadcasts each (the column along the rows' second
  axis, the row along the first); the positive part is the maximum with the zero constant. -/

/-- Layer 1's result. -/
theorem v48_eq (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) :
    val_main_v48 (F := Ideal) x0 x1 x3 x4
      = combineSpec (val_main_v39 (F := Ideal) x0 x1 x3) (val_main_v11 (F := Ideal) x0 x3) (val_main_v41 (F := Ideal) x1) (val_main_v45 (F := Ideal) x4) := by
  funext i
  obtain ⟨r, q, rfl⟩ : ∃ (r : Fin 100000) (q : Fin 64), i = ix2 r q := ⟨i 0, i 1, eq_ix2 i⟩
  rw [combineSpec_apply, val_main_v48_apply, val_main_v47_apply, val_main_v44_apply, val_main_v43_apply, val_main_v42_apply,
    val_main_v46_apply, val_main_call0_v0_apply, val_main_call0_cst_apply]
  simp only [Ideal.maximumf_def, Ideal.addf_def, Ideal.mulf_def, Ideal.ofBits_def, Ideal.ofBits_zero_f32]
  rw [show idx_main_v42 (ix2 r q) = ix2 r (0 : Fin 1) from idx2_ext rfl rfl,
    show idx_main_v46 (ix2 r q) = ix2 (0 : Fin 1) q from idx2_ext rfl rfl]

/-- Layer 2's result. -/
theorem v86_eq (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v86 (F := Ideal) x0 x1 x3 x4 x5 x6
      = combineSpec (val_main_v77 (F := Ideal) x0 x1 x3 x4 x5) (val_main_v49 (F := Ideal) x0 x1 x3 x4 x5) (val_main_v79 (F := Ideal) x1) (val_main_v83 (F := Ideal) x6) := by
  funext i
  obtain ⟨r, q, rfl⟩ : ∃ (r : Fin 100000) (q : Fin 64), i = ix2 r q := ⟨i 0, i 1, eq_ix2 i⟩
  rw [combineSpec_apply, val_main_v86_apply, val_main_v85_apply, val_main_v82_apply, val_main_v81_apply, val_main_v80_apply,
    val_main_v84_apply, val_main_call1_v0_apply, val_main_call1_cst_apply]
  simp only [Ideal.maximumf_def, Ideal.addf_def, Ideal.mulf_def, Ideal.ofBits_def, Ideal.ofBits_zero_f32]
  rw [show idx_main_v80 (ix2 r q) = ix2 r (0 : Fin 1) from idx2_ext rfl rfl,
    show idx_main_v84 (ix2 r q) = ix2 (0 : Fin 1) q from idx2_ext rfl rfl]

/-- Layer 3's result. -/
theorem v124_eq (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v124 (F := Ideal) x0 x1 x3 x4 x5 x6 x7 x8
      = combineSpec (val_main_v115 (F := Ideal) x0 x1 x3 x4 x5 x6 x7) (val_main_v87 (F := Ideal) x0 x1 x3 x4 x5 x6 x7) (val_main_v117 (F := Ideal) x1) (val_main_v121 (F := Ideal) x8) := by
  funext i
  obtain ⟨r, q, rfl⟩ : ∃ (r : Fin 100000) (q : Fin 64), i = ix2 r q := ⟨i 0, i 1, eq_ix2 i⟩
  rw [combineSpec_apply, val_main_v124_apply, val_main_v123_apply, val_main_v120_apply, val_main_v119_apply, val_main_v118_apply,
    val_main_v122_apply, val_main_call2_v0_apply, val_main_call2_cst_apply]
  simp only [Ideal.maximumf_def, Ideal.addf_def, Ideal.mulf_def, Ideal.ofBits_def, Ideal.ofBits_zero_f32]
  rw [show idx_main_v118 (ix2 r q) = ix2 r (0 : Fin 1) from idx2_ext rfl rfl,
    show idx_main_v122 (ix2 r q) = ix2 (0 : Fin 1) q from idx2_ext rfl rfl]

/-! ## The pooled array: entry (g, q) is the sum of h[r, q] over the rows r whose graph id, read signed, is g

  The stage is a row scatter-add of the last layer's rows into the zero array at the graph ids; its dimension
  numbers are the row scatter's, so its entry is the operand's entry, which is zero, plus that sum. -/

theorem v127_eq (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v127 (F := Ideal) x0 x1 x2 x3 x4 x5 x6 x7 x8
      = poolSpec (val_main_v124 (F := Ideal) x0 x1 x3 x4 x5 x6 x7 x8) (val_main_v126 (F := Ideal) x2) := by
  funext i
  obtain ⟨g, q, rfl⟩ : ∃ (g : Fin 64) (q : Fin 64), i = ix2 g q := ⟨i 0, i 1, eq_ix2 i⟩
  have hrec : scatter_S64x64_S100000x1_S100000x64_1_0_0_1
      = Cert.LibRows.rowScatter 64 100000 64 Facts₀.scatter_S64x64_S100000x1_S100000x64_1_0_0_1_wf := rfl
  unfold val_main_v127
  rw [hrec, Cert.LibRows.host_scatterAdd_rows_apply, poolSpec_apply, val_main_v125_apply, val_main_cst_22_apply,
    Ideal.ofBits_def, Ideal.ofBits_zero_f32, zero_add]

/-! ## The program's result -/

/-- The reference's result, as the run names it, is the last stage as a function of the arguments. -/
theorem res_eq (m : (ℓ : Loc nD τ sig) → Buf (Elt Ideal) ℓ) (c : Dev nD) :
    Cert.ReferenceIdeal.Value.res_main_v146 m c
      = val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  val_main_v146_eq m c

end Cert.ReferenceIdeal.RefValue

end
-- ==== Proof.Val.Bridge.lean ====
/-
  The host stretches of the kernel's program and the reference program compute the same arrays.

  Both programs spell the degree chain, the edge weights, the message aggregation, the bias rows and the graph sizes with
  the same operations on the same shapes. Two differences are bridged here. Where the reference broadcasts a vector
  along the long axis of a column or a row, the kernel's program reshapes it: the two arrays are equal, entry by entry.
  And the reference writes the wrapped index vectors, the edge weights and the squared inverse root degree anew in
  every layer: the copies are the same terms, so they are equal.
-/
import proofs.«404161_j48679159333670_1_alg».proof.Proof.RefImports
import proofs.«404161_j48679159333670_1_alg».proof.Proof.Val.Glue
import proofs.«404161_j48679159333670_1_alg».proof.Proof.Val.Reshape

set_option maxRecDepth 8192

noncomputable section

namespace Cert.KernelIdeal.Val

open Idealize.ShloMosaic Idealize.ShloMosaic.TcCoe Idealize.SL.Sem Idealize.ShloMosaic.StableHlo
open Cert.KernelIdeal Cert.KernelIdeal.Gen
open Cert.ReferenceIdeal.Read

/-! ## The edge list's two rows -/

/-- The sources: row 0 of the edge list, sliced out and flattened, in both programs. -/
theorem srcRow_eq (x1 : (⟨Cert.ReferenceIdeal.S2x1600000, .i32⟩ : BufTy).Contents (Elt Ideal)) : Glue.srcRow (F := Ideal) x1 = val_main_v1 x1 := by
  unfold Glue.srcRow val_main_v1 val_main_v0
  rfl

/-- The destinations: row 1 of the edge list. -/
theorem dstRow_eq (x1 : (⟨Cert.ReferenceIdeal.S2x1600000, .i32⟩ : BufTy).Contents (Elt Ideal)) : Glue.dstRow (F := Ideal) x1 = val_main_v3 x1 := by
  unfold Glue.dstRow val_main_v3 val_main_v2
  rfl

/-! ## The wrapped index vectors

The reference writes "where the index is negative, the index plus 100000, else the index" nine times: for the sources
and the destinations in each layer's edge weights and for the sources in each layer's gather. Every copy is the one
term `Glue.wrapIdx` at the sources or at the destinations. -/

theorem wrapIdx_v1_eq_v16 (x1 : (⟨Cert.ReferenceIdeal.S2x1600000, .i32⟩ : BufTy).Contents (Elt Ideal)) : Glue.wrapIdx (F := Ideal) (val_main_v1 x1) = val_main_v16 x1 := by
  unfold Glue.wrapIdx val_main_v16 val_main_v13 val_main_v15 val_main_v12 val_main_v14 val_main_c val_main_c_2
  rfl
theorem wrapIdx_v3_eq_v23 (x1 : (⟨Cert.ReferenceIdeal.S2x1600000, .i32⟩ : BufTy).Contents (Elt Ideal)) : Glue.wrapIdx (F := Ideal) (val_main_v3 x1) = val_main_v23 x1 := by
  unfold Glue.wrapIdx val_main_v23 val_main_v20 val_main_v22 val_main_v19 val_main_v21 val_main_c_3 val_main_c_4
  rfl
theorem wrapIdx_v1_eq_v31 (x1 : (⟨Cert.ReferenceIdeal.S2x1600000, .i32⟩ : BufTy).Contents (Elt Ideal)) : Glue.wrapIdx (F := Ideal) (val_main_v1 x1) = val_main_v31 x1 := by
  unfold Glue.wrapIdx val_main_v31 val_main_v28 val_main_v30 val_main_v27 val_main_v29 val_main_c_5 val_main_c_6
  rfl
theorem wrapIdx_v1_eq_v54 (x1 : (⟨Cert.ReferenceIdeal.S2x1600000, .i32⟩ : BufTy).Contents (Elt Ideal)) : Glue.wrapIdx (F := Ideal) (val_main_v1 x1) = val_main_v54 x1 := by
  unfold Glue.wrapIdx val_main_v54 val_main_v51 val_main_v53 val_main_v50 val_main_v52 val_main_c_8 val_main_c_9
  rfl
theorem wrapIdx_v3_eq_v61 (x1 : (⟨Cert.ReferenceIdeal.S2x1600000, .i32⟩ : BufTy).Contents (Elt Ideal)) : Glue.wrapIdx (F := Ideal) (val_main_v3 x1) = val_main_v61 x1 := by
  unfold Glue.wrapIdx val_main_v61 val_main_v58 val_main_v60 val_main_v57 val_main_v59 val_main_c_10 val_main_c_11
  rfl
theorem wrapIdx_v1_eq_v69 (x1 : (⟨Cert.ReferenceIdeal.S2x1600000, .i32⟩ : BufTy).Contents (Elt Ideal)) : Glue.wrapIdx (F := Ideal) (val_main_v1 x1) = val_main_v69 x1 := by
  unfold Glue.wrapIdx val_main_v69 val_main_v66 val_main_v68 val_main_v65 val_main_v67 val_main_c_12 val_main_c_13
  rfl
theorem wrapIdx_v1_eq_v92 (x1 : (⟨Cert.ReferenceIdeal.S2x1600000, .i32⟩ : BufTy).Contents (Elt Ideal)) : Glue.wrapIdx (F := Ideal) (val_main_v1 x1) = val_main_v92 x1 := by
  unfold Glue.wrapIdx val_main_v92 val_main_v89 val_main_v91 val_main_v88 val_main_v90 val_main_c_15 val_main_c_16
  rfl
theorem wrapIdx_v3_eq_v99 (x1 : (⟨Cert.ReferenceIdeal.S2x1600000, .i32⟩ : BufTy).Contents (Elt Ideal)) : Glue.wrapIdx (F := Ideal) (val_main_v3 x1) = val_main_v99 x1 := by
  unfold Glue.wrapIdx val_main_v99 val_main_v96 val_main_v98 val_main_v95 val_main_v97 val_main_c_17 val_main_c_18
  rfl
theorem wrapIdx_v1_eq_v107 (x1 : (⟨Cert.ReferenceIdeal.S2x1600000, .i32⟩ : BufTy).Contents (Elt Ideal)) : Glue.wrapIdx (F := Ideal) (val_main_v1 x1) = val_main_v107 x1 := by
  unfold Glue.wrapIdx val_main_v107 val_main_v104 val_main_v106 val_main_v103 val_main_v105 val_main_c_19 val_main_c_20
  rfl

/-! ## The inverse root degree and its square as a column -/

/-- One over the square root of (edges into the node, plus one): the same scatter-add of ones at the destinations,
    plus one, under the reciprocal square root, in both programs. -/
theorem invSqrtDeg_eq (x1 : (⟨Cert.ReferenceIdeal.S2x1600000, .i32⟩ : BufTy).Contents (Elt Ideal)) : Glue.invSqrtDeg (F := Ideal) (val_main_v3 x1) = val_main_v10 x1 := by
  unfold Glue.invSqrtDeg val_main_v10 val_main_v9 val_main_v7 val_main_v8 val_main_v5 val_main_v6 val_main_v4
    val_main_cst val_main_cst_0 val_main_cst_1
  rfl

/-- The squared inverse root degree: the kernel's program reshapes the vector to a column, the reference broadcasts it
    along the column's long axis. -/
theorem deg2col_eq_v41 (x1 : (⟨Cert.ReferenceIdeal.S2x1600000, .i32⟩ : BufTy).Contents (Elt Ideal)) :
    shapeCast S100000x1 (mulf (Glue.invSqrtDeg (F := Ideal) (Glue.dstRow x1)) (Glue.invSqrtDeg (Glue.dstRow x1)))
      shapeCasts_S100000_S100000x1 = val_main_v41 x1 := by
  rw [dstRow_eq, invSqrtDeg_eq]
  unfold val_main_v41 val_main_v40
  exact shapeCast_col_eq_bcast (n := 100000) _ _ _

/-- The reference's second and third layers write the same column again. -/
theorem val_main_v79_eq_v41 (x1 : (⟨Cert.ReferenceIdeal.S2x1600000, .i32⟩ : BufTy).Contents (Elt Ideal)) : val_main_v79 (F := Ideal) x1 = val_main_v41 x1 := by
  unfold val_main_v79 val_main_v78 val_main_v41 val_main_v40
  rfl
theorem val_main_v117_eq_v41 (x1 : (⟨Cert.ReferenceIdeal.S2x1600000, .i32⟩ : BufTy).Contents (Elt Ideal)) : val_main_v117 (F := Ideal) x1 = val_main_v41 x1 := by
  unfold val_main_v117 val_main_v116 val_main_v41 val_main_v40
  rfl

theorem deg2col_eq_v79 (x1 : (⟨Cert.ReferenceIdeal.S2x1600000, .i32⟩ : BufTy).Contents (Elt Ideal)) :
    shapeCast S100000x1 (mulf (Glue.invSqrtDeg (F := Ideal) (Glue.dstRow x1)) (Glue.invSqrtDeg (Glue.dstRow x1)))
      shapeCasts_S100000_S100000x1 = val_main_v79 x1 :=
  (deg2col_eq_v41 x1).trans (val_main_v79_eq_v41 x1).symm
theorem deg2col_eq_v117 (x1 : (⟨Cert.ReferenceIdeal.S2x1600000, .i32⟩ : BufTy).Contents (Elt Ideal)) :
    shapeCast S100000x1 (mulf (Glue.invSqrtDeg (F := Ideal) (Glue.dstRow x1)) (Glue.invSqrtDeg (Glue.dstRow x1)))
      shapeCasts_S100000_S100000x1 = val_main_v117 x1 :=
  (deg2col_eq_v41 x1).trans (val_main_v117_eq_v41 x1).symm

/-! ## The edge weights -/

/-- An edge's weight, the product of the inverse root degrees gathered at its wrapped source and at its wrapped
    destination: the reference's first-layer copy, -/
theorem edgeNorm_eq_v26 (x1 : (⟨Cert.ReferenceIdeal.S2x1600000, .i32⟩ : BufTy).Contents (Elt Ideal)) : Glue.edgeNorm (F := Ideal) (val_main_v1 x1) (val_main_v3 x1) = val_main_v26 x1 := by
  unfold Glue.edgeNorm
  rw [invSqrtDeg_eq, wrapIdx_v1_eq_v16, wrapIdx_v3_eq_v23]
  unfold val_main_v26 val_main_v18 val_main_v25 val_main_v17 val_main_v24
  rfl
/-- its second-layer copy, -/
theorem edgeNorm_eq_v64 (x1 : (⟨Cert.ReferenceIdeal.S2x1600000, .i32⟩ : BufTy).Contents (Elt Ideal)) : Glue.edgeNorm (F := Ideal) (val_main_v1 x1) (val_main_v3 x1) = val_main_v64 x1 := by
  unfold Glue.edgeNorm
  rw [invSqrtDeg_eq, wrapIdx_v1_eq_v54, wrapIdx_v3_eq_v61]
  unfold val_main_v64 val_main_v56 val_main_v63 val_main_v55 val_main_v62
  rfl
/-- and its third-layer copy. -/
theorem edgeNorm_eq_v102 (x1 : (⟨Cert.ReferenceIdeal.S2x1600000, .i32⟩ : BufTy).Contents (Elt Ideal)) : Glue.edgeNorm (F := Ideal) (val_main_v1 x1) (val_main_v3 x1) = val_main_v102 x1 := by
  unfold Glue.edgeNorm
  rw [invSqrtDeg_eq, wrapIdx_v1_eq_v92, wrapIdx_v3_eq_v99]
  unfold val_main_v102 val_main_v94 val_main_v101 val_main_v93 val_main_v100
  rfl

/-- The weights as a column: reshaped in the kernel's program, broadcast along the long axis in the reference. -/
theorem edgeNormCol_eq_v34 (x1 : (⟨Cert.ReferenceIdeal.S2x1600000, .i32⟩ : BufTy).Contents (Elt Ideal)) :
    shapeCast S1600000x1 (Glue.edgeNorm (F := Ideal) (Glue.srcRow x1) (Glue.dstRow x1)) shapeCasts_S1600000_S1600000x1
      = val_main_v34 x1 := by
  rw [srcRow_eq, dstRow_eq, edgeNorm_eq_v26]
  unfold val_main_v34
  exact shapeCast_col_eq_bcast (n := 1600000) _ _ _
theorem edgeNormCol_eq_v72 (x1 : (⟨Cert.ReferenceIdeal.S2x1600000, .i32⟩ : BufTy).Contents (Elt Ideal)) :
    shapeCast S1600000x1 (Glue.edgeNorm (F := Ideal) (Glue.srcRow x1) (Glue.dstRow x1)) shapeCasts_S1600000_S1600000x1
      = val_main_v72 x1 := by
  rw [srcRow_eq, dstRow_eq, edgeNorm_eq_v64]
  unfold val_main_v72
  exact shapeCast_col_eq_bcast (n := 1600000) _ _ _
theorem edgeNormCol_eq_v110 (x1 : (⟨Cert.ReferenceIdeal.S2x1600000, .i32⟩ : BufTy).Contents (Elt Ideal)) :
    shapeCast S1600000x1 (Glue.edgeNorm (F := Ideal) (Glue.srcRow x1) (Glue.dstRow x1)) shapeCasts_S1600000_S1600000x1
      = val_main_v110 x1 := by
  rw [srcRow_eq, dstRow_eq, edgeNorm_eq_v102]
  unfold val_main_v110
  exact shapeCast_col_eq_bcast (n := 1600000) _ _ _

/-- The three copies of the weight column are one array. -/
theorem val_main_v72_eq_v34 (x1 : (⟨Cert.ReferenceIdeal.S2x1600000, .i32⟩ : BufTy).Contents (Elt Ideal)) : val_main_v72 (F := Ideal) x1 = val_main_v34 x1 :=
  (edgeNormCol_eq_v72 x1).symm.trans (edgeNormCol_eq_v34 x1)
theorem val_main_v110_eq_v34 (x1 : (⟨Cert.ReferenceIdeal.S2x1600000, .i32⟩ : BufTy).Contents (Elt Ideal)) : val_main_v110 (F := Ideal) x1 = val_main_v34 x1 :=
  (edgeNormCol_eq_v110 x1).symm.trans (edgeNormCol_eq_v34 x1)

/-! ## The aggregated messages of the three layers

Rows of the layer's linear image gathered at the wrapped sources, scaled by the weight column broadcast over the 64
features, summed into the rows named by the destinations, from the zero array. -/

theorem aggOf_eq_v39 (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x64, .f32⟩ : BufTy).Contents (Elt Ideal)) :
    Glue.aggOf (F := Ideal) (val_main_v11 x0 x3) (val_main_v1 x1) (val_main_v3 x1) (val_main_v34 x1)
      = val_main_v39 x0 x1 x3 := by
  unfold Glue.aggOf
  rw [wrapIdx_v1_eq_v31]
  unfold val_main_v39 val_main_v36 val_main_v33 val_main_v35 val_main_v32 val_main_v37 val_main_v38 val_main_cst_7
  rfl

theorem aggOf_eq_v77 (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) :
    Glue.aggOf (F := Ideal) (val_main_v49 x0 x1 x3 x4 x5) (val_main_v1 x1) (val_main_v3 x1) (val_main_v34 x1)
      = val_main_v77 x0 x1 x3 x4 x5 := by
  unfold Glue.aggOf
  rw [wrapIdx_v1_eq_v69, ← val_main_v72_eq_v34]
  unfold val_main_v77 val_main_v74 val_main_v71 val_main_v73 val_main_v70 val_main_v75 val_main_v76 val_main_cst_14
  rfl

theorem aggOf_eq_v115 (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) :
    Glue.aggOf (F := Ideal) (val_main_v87 x0 x1 x3 x4 x5 x6 x7) (val_main_v1 x1) (val_main_v3 x1) (val_main_v34 x1)
      = val_main_v115 x0 x1 x3 x4 x5 x6 x7 := by
  unfold Glue.aggOf
  rw [wrapIdx_v1_eq_v107, ← val_main_v110_eq_v34]
  unfold val_main_v115 val_main_v112 val_main_v109 val_main_v111 val_main_v108 val_main_v113 val_main_v114 val_main_cst_21
  rfl

/-! ## The bias rows, the graph ids as a column, the graph sizes -/

/-- A bias vector as a row: reshaped in the kernel's program, broadcast along the row's long axis in the reference. -/
theorem biasRow_eq_v45 (x4 : (⟨Cert.ReferenceIdeal.S64, .f32⟩ : BufTy).Contents (Elt Ideal)) : shapeCast S1x64 x4 shapeCasts_S64_S1x64 = val_main_v45 (F := Ideal) x4 := by
  unfold val_main_v45
  exact shapeCast_row_eq_bcast (n := 64) _ _ _
theorem biasRow_eq_v83 (x6 : (⟨Cert.ReferenceIdeal.S64, .f32⟩ : BufTy).Contents (Elt Ideal)) : shapeCast S1x64 x6 shapeCasts_S64_S1x64 = val_main_v83 (F := Ideal) x6 := by
  unfold val_main_v83
  exact shapeCast_row_eq_bcast (n := 64) _ _ _
theorem biasRow_eq_v121 (x8 : (⟨Cert.ReferenceIdeal.S64, .f32⟩ : BufTy).Contents (Elt Ideal)) : shapeCast S1x64 x8 shapeCasts_S64_S1x64 = val_main_v121 (F := Ideal) x8 := by
  unfold val_main_v121
  exact shapeCast_row_eq_bcast (n := 64) _ _ _
theorem biasRow_eq_v138 (x10 : (⟨Cert.ReferenceIdeal.S32, .f32⟩ : BufTy).Contents (Elt Ideal)) : shapeCast S1x32 x10 shapeCasts_S32_S1x32 = val_main_v138 (F := Ideal) x10 := by
  unfold val_main_v138
  exact shapeCast_row_eq_bcast (n := 32) _ _ _
theorem biasRow_eq_v143 (x12 : (⟨Cert.ReferenceIdeal.S16, .f32⟩ : BufTy).Contents (Elt Ideal)) : shapeCast S1x16 x12 shapeCasts_S16_S1x16 = val_main_v143 (F := Ideal) x12 := by
  unfold val_main_v143
  exact shapeCast_row_eq_bcast (n := 16) _ _ _

/-- The graph ids as a column. -/
theorem batchCol_eq_v126 (x2 : (⟨Cert.ReferenceIdeal.S100000, .i32⟩ : BufTy).Contents (Elt Ideal)) : shapeCast S100000x1 x2 shapeCasts_S100000_S100000x1 = val_main_v126 (F := Ideal) x2 := by
  unfold val_main_v126
  exact shapeCast_col_eq_bcast (n := 100000) _ _ _

/-- The number of nodes of each graph: ones scatter-added at the graph ids, from zero, in both programs. -/
theorem graphCount_eq_v131 (x2 : (⟨Cert.ReferenceIdeal.S100000, .i32⟩ : BufTy).Contents (Elt Ideal)) : Glue.graphCount (F := Ideal) x2 = val_main_v131 x2 := by
  unfold Glue.graphCount val_main_v131 val_main_v129 val_main_v130 val_main_v128 val_main_cst_24 val_main_cst_23
  rfl

end Cert.KernelIdeal.Val

end
-- ==== Proof.Val.Final.lean ====
import proofs.«404161_j48679159333670_1_alg».proof.Proof.KI.Run
import proofs.«404161_j48679159333670_1_alg».proof.Proof.RefImports
import proofs.«404161_j48679159333670_1_alg».proof.Proof.Val.Spec
import proofs.«404161_j48679159333670_1_alg».proof.Proof.Val.Glue
import proofs.«404161_j48679159333670_1_alg».proof.Proof.Val.Reshape
import proofs.«404161_j48679159333670_1_alg».proof.Proof.Val.Mat
import proofs.«404161_j48679159333670_1_alg».proof.Proof.Val.Mat2
import proofs.«404161_j48679159333670_1_alg».proof.Proof.Val.Mat4
import proofs.«404161_j48679159333670_1_alg».proof.Proof.Val.Comb
import proofs.«404161_j48679159333670_1_alg».proof.Proof.Val.Comb3
import proofs.«404161_j48679159333670_1_alg».proof.Proof.Val.Comb5
import proofs.«404161_j48679159333670_1_alg».proof.Proof.Val.Pool
import proofs.«404161_j48679159333670_1_alg».proof.Proof.Val.Head
import proofs.«404161_j48679159333670_1_alg».proof.Proof.Val.Ref
import proofs.«404161_j48679159333670_1_alg».proof.Proof.Val.Bridge

set_option maxRecDepth 16384

noncomputable section

/-! # The kernel program's result is the reference's

The kernel program is a chain of host stretches and eight kernel regions. Its buffer contents at each boundary are a
fold from the launch memory. Walking the fold forward, each buffer a later step reads is identified with one stage
of the reference, as a function of the launch contents of the arguments:

* the first stretch makes the edge list's two rows, the squared inverse root degree as a column and the edge weights
  as a column;
* a layer is a matrix product (a region), the messages aggregated over the edges (a stretch), and the combine step
  (a region); three layers follow one another;
* the node rows are summed per graph (a region), and the head (a region) takes those sums, the graph sizes and the
  two affine layers' parameters to the log-probabilities.

Every step rewrites with one named equation: what a stretch or a region computes from the buffers it starts from,
that a buffer no later step writes is unchanged, and the reference's stage as the same function. -/

namespace Cert.KernelIdeal.Val

open Idealize.ShloMosaic Idealize.ShloMosaic.TcCoe Idealize.SL.Sem Idealize.ShloMosaic.ValueIdx
open Cert.KernelIdeal Cert.KernelIdeal.Gen Cert.KernelIdeal.Hand Cert.ReferenceIdeal

variable (m : (ℓ : Loc nD τ sig) → Buf (Elt Ideal) ℓ) (ρ : Dev nD → PrngReg) (c : Dev nD)

-- the launch contents of the program's arguments on core `c`
set_option quotPrecheck false
local notation "x₀" => m ((c : Thread nD τ).loc main_arg0)
local notation "x₁" => m ((c : Thread nD τ).loc main_arg1)
local notation "x₂" => m ((c : Thread nD τ).loc main_arg2)
local notation "x₃" => m ((c : Thread nD τ).loc main_arg3)
local notation "x₄" => m ((c : Thread nD τ).loc main_arg4)
local notation "x₅" => m ((c : Thread nD τ).loc main_arg5)
local notation "x₆" => m ((c : Thread nD τ).loc main_arg6)
local notation "x₇" => m ((c : Thread nD τ).loc main_arg7)
local notation "x₈" => m ((c : Thread nD τ).loc main_arg8)
local notation "x₉" => m ((c : Thread nD τ).loc main_arg9)
local notation "x₁₀" => m ((c : Thread nD τ).loc main_arg10)
local notation "x₁₁" => m ((c : Thread nD τ).loc main_arg11)
local notation "x₁₂" => m ((c : Thread nD τ).loc main_arg12)

/-- A buffer read at a later boundary is the buffer at the last boundary before which it was written: every step
    between leaves it alone. -/
local macro "keep" : tactic => `(tactic| simp (disch := decide) only [Hand.V1, Hand.V3, Hand.V4, Hand.V6, Hand.V7, Hand.V9, Hand.V11, Hand.V13,
  Hand.W14_keep', Hand.W13_keep', Hand.W12_keep', Hand.W11_keep', Hand.W10_keep', Hand.W9_keep', Hand.W8_keep', Hand.W7_keep', Hand.W6_keep', Hand.W5_keep', Hand.W4_keep',
  Hand.W3_keep', Hand.W2_keep', Hand.W1_keep'])

/-! ## The first stretch -/

theorem h1 : Hand.W1 m ρ c (Proc.devRef .tc main_v1) = Read.val_main_v1 (F := Ideal) x₁ := by
  rw [show Hand.W1 m ρ c (Proc.devRef .tc main_v1) = _ from Glue.s0_v1 (Hand.W0 m ρ c)]
  exact srcRow_eq _

theorem h3 : Hand.W1 m ρ c (Proc.devRef .tc main_v3) = Read.val_main_v3 (F := Ideal) x₁ := by
  rw [show Hand.W1 m ρ c (Proc.devRef .tc main_v3) = _ from Glue.s0_v3 (Hand.W0 m ρ c)]
  exact dstRow_eq _

theorem h12 : Hand.W1 m ρ c (Proc.devRef .tc main_v12) = Read.val_main_v41 (F := Ideal) x₁ := by
  rw [show Hand.W1 m ρ c (Proc.devRef .tc main_v12) = _ from Glue.s0_v12 (Hand.W0 m ρ c)]
  exact deg2col_eq_v41 _

theorem h28 : Hand.W1 m ρ c (Proc.devRef .tc main_v28) = Read.val_main_v34 (F := Ideal) x₁ := by
  rw [show Hand.W1 m ρ c (Proc.devRef .tc main_v28) = _ from Glue.s0_v28 (Hand.W0 m ρ c)]
  exact edgeNormCol_eq_v34 _

/-! ## Layer 1 -/

theorem h29 : Hand.W2 m ρ c (Proc.devRef .tc main_v29) = Read.val_main_v11 (F := Ideal) x₀ x₃ := by
  rw [show Hand.W2 m ρ c (Proc.devRef .tc main_v29) = _ from Hand.W2_arr m ρ c 2, reg0_value]
  keep
  exact (RefValue.v11_eq _ _).symm

theorem h41 : Hand.W3 m ρ c (Proc.devRef .tc main_v41) = Read.val_main_v39 (F := Ideal) x₀ x₁ x₃ := by
  rw [show Hand.W3 m ρ c (Proc.devRef .tc main_v41) = _ from Glue.s1_v41 (Hand.W2 m ρ c)]
  keep
  rw [h29, h1, h3, h28]
  exact aggOf_eq_v39 _ _ _

theorem h42 : Hand.W3 m ρ c (Proc.devRef .tc main_v42) = Read.val_main_v45 (F := Ideal) x₄ := by
  rw [show Hand.W3 m ρ c (Proc.devRef .tc main_v42) = _ from Glue.s1_v42 (Hand.W2 m ρ c)]
  keep
  exact biasRow_eq_v45 _

theorem h43 : Hand.W4 m ρ c (Proc.devRef .tc main_v43) = Read.val_main_v48 (F := Ideal) x₀ x₁ x₃ x₄ := by
  rw [show Hand.W4 m ρ c (Proc.devRef .tc main_v43) = _ from Hand.W4_arr m ρ c 4, reg1_value]
  keep
  rw [h41, h29, h12, h42]
  exact (RefValue.v48_eq _ _ _ _).symm

theorem h44 : Hand.W5 m ρ c (Proc.devRef .tc main_v44) = Read.val_main_v49 (F := Ideal) x₀ x₁ x₃ x₄ x₅ := by
  rw [show Hand.W5 m ρ c (Proc.devRef .tc main_v44) = _ from Hand.W5_arr m ρ c 2, reg2_value]
  keep
  rw [h43]
  exact (RefValue.v49_eq _ _ _ _ _).symm

/-! ## Layer 2 -/

theorem h56 : Hand.W6 m ρ c (Proc.devRef .tc main_v56) = Read.val_main_v77 (F := Ideal) x₀ x₁ x₃ x₄ x₅ := by
  rw [show Hand.W6 m ρ c (Proc.devRef .tc main_v56) = _ from Glue.s3_v56 (Hand.W5 m ρ c)]
  keep
  rw [h44, h1, h3, h28]
  exact aggOf_eq_v77 _ _ _ _ _

theorem h57 : Hand.W6 m ρ c (Proc.devRef .tc main_v57) = Read.val_main_v83 (F := Ideal) x₆ := by
  rw [show Hand.W6 m ρ c (Proc.devRef .tc main_v57) = _ from Glue.s3_v57 (Hand.W5 m ρ c)]
  keep
  exact biasRow_eq_v83 _

theorem h58 : Hand.W7 m ρ c (Proc.devRef .tc main_v58) = Read.val_main_v86 (F := Ideal) x₀ x₁ x₃ x₄ x₅ x₆ := by
  rw [show Hand.W7 m ρ c (Proc.devRef .tc main_v58) = _ from Hand.W7_arr m ρ c 4, reg3_value]
  keep
  rw [h56, h44, h12, h57, RefValue.v86_eq, val_main_v79_eq_v41]

theorem h59 : Hand.W8 m ρ c (Proc.devRef .tc main_v59) = Read.val_main_v87 (F := Ideal) x₀ x₁ x₃ x₄ x₅ x₆ x₇ := by
  rw [show Hand.W8 m ρ c (Proc.devRef .tc main_v59) = _ from Hand.W8_arr m ρ c 2, reg4_value]
  keep
  rw [h58]
  exact (RefValue.v87_eq _ _ _ _ _ _ _).symm

/-! ## Layer 3 -/

theorem h71 : Hand.W9 m ρ c (Proc.devRef .tc main_v71) = Read.val_main_v115 (F := Ideal) x₀ x₁ x₃ x₄ x₅ x₆ x₇ := by
  rw [show Hand.W9 m ρ c (Proc.devRef .tc main_v71) = _ from Glue.s5_v71 (Hand.W8 m ρ c)]
  keep
  rw [h59, h1, h3, h28]
  exact aggOf_eq_v115 _ _ _ _ _ _ _

theorem h72 : Hand.W9 m ρ c (Proc.devRef .tc main_v72) = Read.val_main_v121 (F := Ideal) x₈ := by
  rw [show Hand.W9 m ρ c (Proc.devRef .tc main_v72) = _ from Glue.s5_v72 (Hand.W8 m ρ c)]
  keep
  exact biasRow_eq_v121 _

theorem h73 : Hand.W10 m ρ c (Proc.devRef .tc main_v73) = Read.val_main_v124 (F := Ideal) x₀ x₁ x₃ x₄ x₅ x₆ x₇ x₈ := by
  rw [show Hand.W10 m ρ c (Proc.devRef .tc main_v73) = _ from Hand.W10_arr m ρ c 4, reg5_value]
  keep
  rw [h71, h59, h12, h72, RefValue.v124_eq, val_main_v117_eq_v41]

/-! ## The per-graph sums -/

theorem h74 : Hand.W11 m ρ c (Proc.devRef .tc main_v74) = Read.val_main_v126 (F := Ideal) x₂ := by
  rw [show Hand.W11 m ρ c (Proc.devRef .tc main_v74) = _ from Glue.s6_v74 (Hand.W10 m ρ c)]
  keep
  exact batchCol_eq_v126 _

theorem h75 : Hand.W12 m ρ c (Proc.devRef .tc main_v75) = Read.val_main_v127 (F := Ideal) x₀ x₁ x₂ x₃ x₄ x₅ x₆ x₇ x₈ := by
  rw [show Hand.W12 m ρ c (Proc.devRef .tc main_v75) = _ from Hand.W12_arr m ρ c 2, reg6_value]
  keep
  rw [h73, h74]
  exact (RefValue.v127_eq _ _ _ _ _ _ _ _ _).symm

/-! ## The head -/

theorem h80 : Hand.W13 m ρ c (Proc.devRef .tc main_v80) = headCol (Read.val_main_v131 (F := Ideal) x₂) := by
  rw [show Hand.W13 m ρ c (Proc.devRef .tc main_v80) = _ from Glue.s7_v80 (Hand.W12 m ρ c)]
  keep
  rw [graphCount_eq_v131]
  exact shapeCast_col_eq_headCol _ _

theorem h81 : Hand.W13 m ρ c (Proc.devRef .tc main_v81) = headRow x₁₀ := by
  rw [show Hand.W13 m ρ c (Proc.devRef .tc main_v81) = _ from Glue.s7_v81 (Hand.W12 m ρ c)]
  keep
  exact shapeCast_row_eq_headRow _ _

theorem h82 : Hand.W13 m ρ c (Proc.devRef .tc main_v82) = headRow x₁₂ := by
  rw [show Hand.W13 m ρ c (Proc.devRef .tc main_v82) = _ from Glue.s7_v82 (Hand.W12 m ρ c)]
  keep
  exact shapeCast_row_eq_headRow _ _

/-- The kernel program's last valuation at its result buffer is the reference's last stage at the launch contents
    of the arguments. -/
theorem final_value : Hand.W14 m ρ c (Proc.devRef .tc main_v83) = Read.val_main_v146 (F := Ideal) x₀ x₁ x₂ x₃ x₄ x₅ x₆ x₇ x₈ x₉ x₁₀ x₁₁ x₁₂ := by
  rw [show Hand.W14 m ρ c (Proc.devRef .tc main_v83) = _ from Hand.W14_arr m ρ c 6, reg7_value]
  keep
  rw [h75, h80, h81, h82]
  exact (k7_pay1_eq _ _ _ _ _ _).trans (ref_head_eq x₀ x₁ x₂ x₃ x₄ x₅ x₆ x₇ x₈ x₉ x₁₀ x₁₁ x₁₂).symm

end Cert.KernelIdeal.Val

end
-- ==== Proof.lean ====
/-
  The certificate's claim: the kernel program and the reference compute the same array, and neither writes an argument.

  WHAT IS COMPUTED. A three-layer graph convolution over 100000 nodes and 1600000 directed edges, the sum of the last
  layer's node rows per graph (64 graphs), and a two-layer head ending in a row-wise log-softmax. Write
  d[v] = 1 / sqrt(1 + the number of edges into v), and wrap a negative node index by adding 100000. A layer sends the
  node array h, with L = h · W, to
      max(A + L ∘ d² + b, 0),    A[v, :] = the sum over the edges e into v of d[src e] · d[v] · L[src e, :],
  where d² is a column and b a row, both broadcast. The pooled array's row g is the sum of the rows whose graph id is g
  (an id outside [0, 64) counts nowhere), and n[g] is the number of such rows. The head takes the mean
  P[g, :] / max(n[g], 1), then max(mean · W₉ + b₁₀, 0) · W₁₁ + b₁₂, and subtracts from every row its maximum and then
  the logarithm of the sum of the exponentials of the shifted row.
  The reference is exactly this, in whole-array operations. The kernel program keeps the edge arithmetic (degrees, edge
  weights, gathers, scatter-adds) as whole-array host operations between eight kernel regions: the three products and
  the three combine steps on twenty blocks of 5000 rows, the pooling over the same twenty blocks into an accumulator
  that is written out after the last block, and the head on whole arrays at one grid point.

  WHY THE TWO AGREE, with floats read as extended reals and every operation exact.
  * The host stretches are the reference's own operations on the same operands. Where the reference broadcasts a vector
    along the long axis of a column or a row the kernel program reshapes it, which is the same array; the reference's
    per-layer copies of the wrapped indices, the edge weights and d² are one term each.
  * A product region: rows 5000 t … 5000 t + 4999 of h · W are (those rows of h) · W, and the twenty write-backs tile
    the result. A combine region is entrywise in the row, so it too is computed block by block.
  * The pooling region: after block n the accumulator holds, at (g, q), the sum over the rows of blocks 0 … n with id g
    of h[r, q] (the one-hot matrix of the ids, transposed, times the block); the blocks partition the rows, so after
    the last block it is the pooled array, which is the reference's scatter-add of the rows at their ids from zero.
  * The head region evaluates the reference's formulas on the whole arrays.
  Chained through the fourteen items of the kernel program (six host stretches and eight regions, each starting from
  what the one before left), its result array is the reference's last stage as a function of the thirteen arguments.
  From memories that agree on the arguments, the two runs therefore end with equal results.

  THE FRAMES. No host operation and no write-back of either program targets an argument array, so each argument ends
  as launched; this holds at every float instance, in particular for the program as printed and for its exact reading.
  The exact reading of the kernel program is its own text (no operation was rewritten), so nothing is to be preserved.
-/
import proofs.«404161_j48679159333670_1_alg».proof.Defs
import proofs.«404161_j48679159333670_1_alg».proof.Proof.Gen.Kernel
import proofs.«404161_j48679159333670_1_alg».proof.Proof.Gen.KernelIdeal
import proofs.«404161_j48679159333670_1_alg».proof.Proof.Gen.ReferenceIdeal
import proofs.«404161_j48679159333670_1_alg».proof.Proof.Gen.Pre_finite_inputs
import proofs.«404161_j48679159333670_1_alg».proof.Proof.K.Run
import proofs.«404161_j48679159333670_1_alg».proof.Proof.KI.Run
import proofs.«404161_j48679159333670_1_alg».proof.Proof.Val.Final
import proofs.«404161_j48679159333670_1_alg».proof.Proof.RefImports

noncomputable section

namespace Cert.Proof

open Idealize.ShloMosaic Idealize.SL.Sem

/-! ## The three frames -/

/-- The program as printed: every argument array ends as launched. -/
theorem frame_k : Cert.frame_Kernel := fun m ρ _ => Cert.Kernel.Hand.frame (F := Bits) m ρ

/-- Its exact reading: the same run, at the extended reals. -/
theorem frame_ki : Cert.frame_KernelIdeal := fun m ρ _ => Cert.KernelIdeal.Hand.frame (F := Ideal) m ρ

/-- The reference: its run states the result and the thirteen arguments; the frame is the second part. -/
theorem frame_ri : Cert.frame_ReferenceIdeal := fun m ρ _ =>
  (θ_run Cert.ReferenceIdeal.defs _ _).mono (fun _ h c => (h c).2) (Cert.ReferenceIdeal.Value.run (F := Ideal) m ρ)

/-! ## The idealization rewrote nothing -/

theorem preserves : Cert.preserves_Kernel_KernelIdeal := trivial

/-! ## Equal results from equal arguments -/

/-- The common result on core `c` is what the kernel program's last item leaves in its result array. The kernel
    program's run ends there. The reference's run ends at its last stage, a function of its thirteen arguments; these
    are the kernel program's arguments by hypothesis, and that function of them is the kernel program's result. -/
theorem algebraic : Cert.algebraic_KernelIdeal_ReferenceIdeal := by
  intro m ρ m' ρ' _ hagree
  refine ⟨fun c => Cert.KernelIdeal.Hand.W14 m ρ c (Proc.devRef .tc Cert.KernelIdeal.main_v83),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v146_eq m' c, e0, e1, e2, e3, e4, e5, e6, e7, e8, e9, e10, e11, e12]
  exact (Cert.KernelIdeal.Val.final_value m ρ c).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
